-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S20x64x256 : Shape := ⟨3, ![20, 64, 256]⟩
abbrev S20x64 : Shape := ⟨2, ![20, 64]⟩
abbrev S256 : Shape := ⟨1, ![256]⟩
abbrev S20 : Shape := ⟨1, ![20]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S20x64x256 : S_.BroadcastsInDim S20x64x256 (![] : Fin 0 → Fin S20x64x256.rank)
  reducesTo_S20x64x256_S_d0_1_2 : S20x64x256.ReducesTo [0, 1, 2] S_
  bcast_S_S20x64 : S_.BroadcastsInDim S20x64 (![] : Fin 0 → Fin S20x64.rank)
  reducesTo_S20x64_S_d0_1 : S20x64.ReducesTo [0, 1] S_
  bcast_S_S256 : S_.BroadcastsInDim S256 (![] : Fin 0 → Fin S256.rank)
  reducesTo_S256_S_d0 : S256.ReducesTo [0] S_
  bcast_S_S20 : S_.BroadcastsInDim S20 (![] : Fin 0 → Fin S20.rank)
  reducesTo_S20_S_d0 : S20.ReducesTo [0] S_

variable [Facts]

def fn_part2 {F : FTy → Type} [FloatOps F] (main_arg5 : FVec F S256 .f32) (main_v33 : IVec S_ 1) : IVec S_ 1 :=
  let main_cst_12 : FVec F S_ .f32 := constant S_ .f32 0x00000000#32
  let main_v34 : FVec F S256 .f32 := broadcastInDim S256 ![] bcast_S_S256 main_cst_12
  let main_v35 : IVec S256 1 := cmpf .une main_arg5 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v33 main_v36
  main_v37

def fn_part1 {F : FTy → Type} [FloatOps F] (main_arg5 : FVec F S256 .f32) (main_arg6 : FVec F S20x64 .f32) (main_arg7 : FVec F S20 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S20x64 .f32 := Host.absf main_arg6
  let main_cst_8 : FVec F S_ .f32 := constant S_ .f32 0x7F800000#32
  let main_v25 : FVec F S20x64 .f32 := broadcastInDim S20x64 ![] bcast_S_S20x64 main_cst_8
  let main_v26 : IVec S20x64 1 := cmpf .olt main_v24 main_v25
  let main_c_9 : IVec S_ 1 := constantI S_ 1 1#1
  let main_v27 : IVec S_ 1 := (fun x v => Host.reduce IntOp.andi x v reducesTo_S20x64_S_d0_1 h_S_) main_v26 main_c_9
  let main_v28 : IVec S_ 1 := andi main_v23 main_v27
  let main_v29 : FVec F S20 .f32 := Host.absf main_arg7
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg5 main_v33

def fn {F : FTy → Type} [FloatOps F] (main_arg0 : FVec F S131072x256 .f32) (main_arg1 : IVec S131072 32) (main_arg2 : FVec F S20x64x256 .f32) (main_arg3 : FVec F S20x64 .f32) (main_arg4 : FVec F S256 .f32) (main_arg5 : FVec F S256 .f32) (main_arg6 : FVec F S20x64 .f32) (main_arg7 : FVec F S20 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S20x64x256 .f32 := Host.absf main_arg2
  let main_cst_0 : FVec F S_ .f32 := constant S_ .f32 0x7F800000#32
  let main_v5 : FVec F S20x64x256 .f32 := broadcastInDim S20x64x256 ![] bcast_S_S20x64x256 main_cst_0
  let main_v6 : IVec S20x64x256 1 := cmpf .olt main_v4 main_v5
  let main_c_1 : IVec S_ 1 := constantI S_ 1 1#1
  let main_v7 : IVec S_ 1 := (fun x v => Host.reduce IntOp.andi x v reducesTo_S20x64x256_S_d0_1_2 h_S_) main_v6 main_c_1
  let main_v8 : IVec S_ 1 := andi main_v3 main_v7
  let main_v9 : FVec F S20x64 .f32 := Host.absf main_arg3
  let main_cst_2 : FVec F S_ .f32 := constant S_ .f32 0x7F800000#32
  let main_v10 : FVec F S20x64 .f32 := broadcastInDim S20x64 ![] bcast_S_S20x64 main_cst_2
  let main_v11 : IVec S20x64 1 := cmpf .olt main_v9 main_v10
  let main_c_3 : IVec S_ 1 := constantI S_ 1 1#1
  let main_v12 : IVec S_ 1 := (fun x v => Host.reduce IntOp.andi x v reducesTo_S20x64_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S131072x256 : Shape := ⟨2, ![131072, 256]⟩
abbrev S131072 : Shape := ⟨1, ![131072]⟩
abbrev S20x64x256 : Shape := ⟨3, ![20, 64, 256]⟩
abbrev S20x64 : Shape := ⟨2, ![20, 64]⟩
abbrev S256 : Shape := ⟨1, ![256]⟩
abbrev S20 : Shape := ⟨1, ![20]⟩
abbrev S1280x256 : Shape := ⟨2, ![1280, 256]⟩
abbrev S256x1280 : Shape := ⟨2, ![256, 1280]⟩
abbrev S_ : Shape := ⟨0, ![]⟩
abbrev S1280 : Shape := ⟨1, ![1280]⟩
abbrev S1x1280 : Shape := ⟨2, ![1, 1280]⟩
abbrev S20x1 : Shape := ⟨2, ![20, 1]⟩
abbrev S131072x1 : Shape := ⟨2, ![131072, 1]⟩
abbrev S1x256 : Shape := ⟨2, ![1, 256]⟩
abbrev S64x1x128 : Shape := ⟨3, ![64, 1, 128]⟩
abbrev S2048x256 : Shape := ⟨2, ![2048, 256]⟩
abbrev S2048x1 : Shape := ⟨2, ![2048, 1]⟩
abbrev S1x1x128 : Shape := ⟨3, ![1, 1, 128]⟩
abbrev S2048x1280 : Shape := ⟨2, ![2048, 1280]⟩
abbrev S2048 : Shape := ⟨1, ![2048]⟩
abbrev S2048x128 : Shape := ⟨2, ![2048, 128]⟩
abbrev S2048x64 : Shape := ⟨2, ![2048, 64]⟩
abbrev S1x64 : Shape := ⟨2, ![1, 64]⟩
abbrev S128 : Shape := ⟨1, ![128]⟩
abbrev S1x128 : Shape := ⟨2, ![1, 128]⟩

abbrev nBuf : Space → Nat
  | .hbm => 73
  | .vmem => 16
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S20x64x256, .f32⟩
  | .hbm, ⟨3, _⟩ => ⟨S20x64, .f32⟩
  | .hbm, ⟨4, _⟩ => ⟨S256, .f32⟩
  | .hbm, ⟨5, _⟩ => ⟨S256, .f32⟩
  | .hbm, ⟨6, _⟩ => ⟨S20x64, .f32⟩
  | .hbm, ⟨7, _⟩ => ⟨S20, .f32⟩
  | .hbm, ⟨8, _⟩ => ⟨S1280x256, .f32⟩
  | .hbm, ⟨9, _⟩ => ⟨S256x1280, .f32⟩
  | .hbm, ⟨10, _⟩ => ⟨S256x1280, .bf16⟩
  | .hbm, ⟨11, _⟩ => ⟨S1280x256, .f32⟩
  | .hbm, ⟨12, _⟩ => ⟨S_, .f32⟩
  | .hbm, ⟨13, _⟩ => ⟨S1280, .f32⟩
  | .hbm, ⟨14, _⟩ => ⟨S1x1280, .f32⟩
  | .hbm, ⟨15, _⟩ => ⟨S_, .f32⟩
  | .hbm, ⟨16, _⟩ => ⟨S20x64, .f32⟩
  | .hbm, ⟨17, _⟩ => ⟨S20x64, .f32⟩
  | .hbm, ⟨18, _⟩ => ⟨S20x64, .f32⟩
  | .hbm, ⟨19, _⟩ => ⟨S20x64, .f32⟩
  | .hbm, ⟨20, _⟩ => ⟨S_, .f32⟩
  | .hbm, ⟨21, _⟩ => ⟨S20x64, .f32⟩
  | .hbm, ⟨22, _⟩ => ⟨S20x64, .f32⟩
  | .hbm, ⟨23, _⟩ => ⟨S_, .f32⟩
  | .hbm, ⟨24, _⟩ => ⟨S20x64, .f32⟩
  | .hbm, ⟨25, _⟩ => ⟨S20x64, .f32⟩
  | .hbm, ⟨26, _⟩ => ⟨S_, .f32⟩
  | .hbm, ⟨27, _⟩ => ⟨S20x64, .f32⟩
  | .hbm, ⟨28, _⟩ => ⟨S20x64, .f32⟩
  | .hbm, ⟨29, _⟩ => ⟨S_, .f32⟩
  | .hbm, ⟨30, _⟩ => ⟨S20x64, .f32⟩
  | .hbm, ⟨31, _⟩ => ⟨S20x64, .f32⟩
  | .hbm, ⟨32, _⟩ => ⟨S_, .f32⟩
  | .hbm, ⟨33, _⟩ => ⟨S20x64, .f32⟩
  | .hbm, ⟨34, _⟩ => ⟨S20x64, .f32⟩
  | .hbm, ⟨35, _⟩ => ⟨S20x64, .f32⟩
  | .hbm, ⟨36, _⟩ => ⟨S_, .f32⟩
  | .hbm, ⟨37, _⟩ => ⟨S20, .f32⟩
  | .hbm, ⟨38, _⟩ => ⟨S20, .f32⟩
  | .hbm, ⟨39, _⟩ => ⟨S_, .f32⟩
  | .hbm, ⟨40, _⟩ => ⟨S20, .f32⟩
  | .hbm, ⟨41, _⟩ => ⟨S20, .f32⟩
  | .hbm, ⟨42, _⟩ => ⟨S20x1, .f32⟩
  | .hbm, ⟨43, _⟩ => ⟨S20x64, .f32⟩
  | .hbm, ⟨44, _⟩ => ⟨S20x64, .i1⟩
  | .hbm, ⟨45, _⟩ => ⟨S20x64, .f32⟩
  | .hbm, ⟨46, _⟩ => ⟨S131072x1, .i32⟩
  | .hbm, ⟨47, _⟩ => ⟨S1x256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S64x1x128, .f32⟩
  | .hbm, ⟨53, _⟩ => ⟨S64x1x128, .f32⟩
  | .hbm, ⟨54, _⟩ => ⟨S_, .f32⟩
  | .hbm, ⟨55, _⟩ => ⟨S1x128, .f32⟩
  | .hbm, ⟨56, _⟩ => ⟨S128, .f32⟩
  | .hbm, ⟨57, _⟩ => ⟨S_, .f32⟩
  | .hbm, ⟨58, _⟩ => ⟨S1x128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .i1⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S256x1280, .bf16⟩
  | .local _ .vmem, ⟨5, _⟩ => ⟨S1x1280, .f32⟩
  | .local _ .vmem, ⟨6, _⟩ => ⟨S20x64, .f32⟩
  | .local _ .vmem, ⟨7, _⟩ => ⟨S20x64, .f32⟩
  | .local _ .vmem, ⟨8, _⟩ => ⟨S20x64, .f32⟩
  | .local _ .vmem, ⟨9, _⟩ => ⟨S1x256, .f32⟩
  | .local _ .vmem, ⟨10, _⟩ => ⟨S1x256, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S2048x1280, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_call0_v0 : Ref sig .tc := ⟨.hbm, 68, rfl⟩
abbrev main_call0_v1 : Ref sig .tc := ⟨.hbm, 69, rfl⟩
abbrev main_v44 : Ref sig .tc := ⟨.hbm, 70, rfl⟩
abbrev main_cst_14 : Ref sig .tc := ⟨.hbm, 71, rfl⟩
abbrev main_v45 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S20x64x256_S1280x256 : S20x64x256.ShapeCasts S1280x256
  transposes_S1280x256_S256x1280_1_0 : S1280x256.Transposes [1, 0] S256x1280
  bitsLt_bf16_f32 : FTy.bits .bf16 < FTy.bits .f32
  reducesTo_S1280x256_S1280_d1 : S1280x256.ReducesTo [1] S1280
  h_S_ : 0 < S_.numel
  bcast_S1280_S1x1280_1 : S1280.BroadcastsInDim S1x1280 (![1] : Fin 1 → Fin S1x1280.rank)
  bcast_S_S20x64 : S_.BroadcastsInDim S20x64 (![] : Fin 0 → Fin S20x64.rank)
  bcast_S_S20 : S_.BroadcastsInDim S20 (![] : Fin 0 → Fin S20.rank)
  bcast_S20_S20x1_0 : S20.BroadcastsInDim S20x1 (![0] : Fin 1 → Fin S20x1.rank)
  bcast_S20x1_S20x64_0_1 : S20x1.BroadcastsInDim S20x64 (![0, 1] : Fin 2 → Fin S20x64.rank)
  shapeCasts_S131072_S131072x1 : S131072.ShapeCasts S131072x1
  shapeCasts_S256_S1x256 : S256.ShapeCasts S1x256
  bcast_S_S256 : S_.BroadcastsInDim S256 (![] : Fin 0 → Fin S256.rank)
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x128_d1_w32 : S2048x128.Iotas .tc 32 [1]
  broadcasts_S2048x1_S2048x128 : S2048x1.Broadcasts S2048x128
  natLt_1_32 : 1 < 32
  slices_S2048x128_o0_0_S2048x1 : S2048x128.Slices ![0, 0] S2048x1
  inb_S2048x1280_S2048x64_0_0 : ∀ a, (![0, 0] : Fin 2 → Nat) a + S2048x64.size a ≤ S2048x1280.size a
  h_S2048x64 : 0 < S2048x64.numel
  inb_S1x1280_S1x64_0_0 : ∀ a, (![0, 0] : Fin 2 → Nat) a + S1x64.size a ≤ S1x1280.size a
  h_S1x64 : 0 < S1x64.numel
  shapeCasts_S1x64_S1x64 : S1x64.ShapeCasts S1x64
  inb_S20x64_S1x64_0_0 : ∀ a, (![0, 0] : Fin 2 → Nat) a + S1x64.size a ≤ S20x64.size a
  broadcasts_S2048x1_S2048x64 : S2048x1.Broadcasts S2048x64
  broadcasts_S1x64_S2048x64 : S1x64.Broadcasts S2048x64
  slices_S2048x128_o0_1_S2048x1 : S2048x128.Slices ![0, 1] S2048x1
  inb_S2048x1280_S2048x64_0_64 : ∀ a, (![0, 64] : Fin 2 → Nat) a + S2048x64.size a ≤ S2048x1280.size a
  inb_S1x1280_S1x64_0_64 : ∀ a, (![0, 64] : Fin 2 → Nat) a + S1x64.size a ≤ S1x1280.size a
  inb_S20x64_S1x64_1_0 : ∀ a, (![1, 0] : Fin 2 → Nat) a + S1x64.size a ≤ S20x64.size a
  slices_S2048x128_o0_2_S2048x1 : S2048x128.Slices ![0, 2] S2048x1
  inb_S2048x1280_S2048x64_0_128 : ∀ a, (![0, 128] : Fin 2 → Nat) a + S2048x64.size a ≤ S2048x1280.size a
  inb_S1x1280_S1x64_0_128 : ∀ a, (![0, 128] : Fin 2 → Nat) a + S1x64.size a ≤ S1x1280.size a
  inb_S20x64_S1x64_2_0 : ∀ a, (![2, 0] : Fin 2 → Nat) a + S1x64.size a ≤ S20x64.size a
  slices_S2048x128_o0_3_S2048x1 : S2048x128.Slices ![0, 3] S2048x1
  inb_S2048x1280_S2048x64_0_192 : ∀ a, (![0, 192] : Fin 2 → Nat) a + S2048x64.size a ≤ S2048x1280.size a
  inb_S1x1280_S1x64_0_192 : ∀ a, (![0, 192] : Fin 2 → Nat) a + S1x64.size a ≤ S1x1280.size a
  inb_S20x64_S1x64_3_0 : ∀ a, (![3, 0] : Fin 2 → Nat) a + S1x64.size a ≤ S20x64.size a
  slices_S2048x128_o0_4_S2048x1 : S2048x128.Slices ![0, 4] S2048x1
  inb_S2048x1280_S2048x64_0_256 : ∀ a, (![0, 256] : Fin 2 → Nat) a + S2048x64.size a ≤ S2048x1280.size a
  inb_S1x1280_S1x64_0_256 : ∀ a, (![0, 256] : Fin 2 → Nat) a + S1x64.size a ≤ S1x1280.size a
  inb_S20x64_S1x64_4_0 : ∀ a, (![4, 0] : Fin 2 → Nat) a + S1x64.size a ≤ S20x64.size a
  slices_S2048x128_o0_5_S2048x1 : S2048x128.Slices ![0, 5] S2048x1
  inb_S2048x1280_S2048x64_0_320 : ∀ a, (![0, 320] : Fin 2 → Nat) a + S2048x64.size a ≤ S2048x1280.size a
  inb_S1x1280_S1x64_0_320 : ∀ a, (![0, 320] : Fin 2 → Nat) a + S1x64.size a ≤ S1x1280.size a
  inb_S20x64_S1x64_5_0 : ∀ a, (![5, 0] : Fin 2 → Nat) a + S1x64.size a ≤ S20x64.size a
  slices_S2048x128_o0_6_S2048x1 : S2048x128.Slices ![0, 6] S2048x1
  inb_S2048x1280_S2048x64_0_384 : ∀ a, (![0, 384] : Fin 2 → Nat) a + S2048x64.size a ≤ S2048x1280.size a
  inb_S1x1280_S1x64_0_384 : ∀ a, (![0, 384] : Fin 2 → Nat) a + S1x64.size a ≤ S1x1280.size a
  inb_S20x64_S1x64_6_0 : ∀ a, (![6, 0] : Fin 2 → Nat) a + S1x64.size a ≤ S20x64.size a
  slices_S2048x128_o0_7_S2048x1 : S2048x128.Slices ![0, 7] S2048x1
  inb_S2048x1280_S2048x64_0_448 : ∀ a, (![0, 448] : Fin 2 → Nat) a + S2048x64.size a ≤ S2048x1280.size a
  inb_S1x1280_S1x64_0_448 : ∀ a, (![0, 448] : Fin 2 → Nat) a + S1x64.size a ≤ S1x1280.size a
  inb_S20x64_S1x64_7_0 : ∀ a, (![7, 0] : Fin 2 → Nat) a + S1x64.size a ≤ S20x64.size a
  slices_S2048x128_o0_8_S2048x1 : S2048x128.Slices ![0, 8] S2048x1
  inb_S2048x1280_S2048x64_0_512 : ∀ a, (![0, 512] : Fin 2 → Nat) a + S2048x64.size a ≤ S2048x1280.size a
  inb_S1x1280_S1x64_0_512 : ∀ a, (![0, 512] : Fin 2 → Nat) a + S1x64.size a ≤ S1x1280.size a
  inb_S20x64_S1x64_8_0 : ∀ a, (![8, 0] : Fin 2 → Nat) a + S1x64.size a ≤ S20x64.size a
  slices_S2048x128_o0_9_S2048x1 : S2048x128.Slices ![0, 9] S2048x1
  inb_S2048x1280_S2048x64_0_576 : ∀ a, (![0, 576] : Fin 2 → Nat) a + S2048x64.size a ≤ S2048x1280.size a
  inb_S1x1280_S1x64_0_576 : ∀ a, (![0, 576] : Fin 2 → Nat) a + S1x64.size a ≤ S1x1280.size a
  inb_S20x64_S1x64_9_0 : ∀ a, (![9, 0] : Fin 2 → Nat) a + S1x64.size a ≤ S20x64.size a
  slices_S2048x128_o0_10_S2048x1 : S2048x128.Slices ![0, 10] S2048x1
  inb_S2048x1280_S2048x64_0_640 : ∀ a, (![0, 640] : Fin 2 → Nat) a + S2048x64.size a ≤ S2048x1280.size a
  inb_S1x1280_S1x64_0_640 : ∀ a, (![0, 640] : Fin 2 → Nat) a + S1x64.size a ≤ S1x1280.size a
  inb_S20x64_S1x64_10_0 : ∀ a, (![10, 0] : Fin 2 → Nat) a + S1x64.size a ≤ S20x64.size a
  slices_S2048x128_o0_11_S2048x1 : S2048x128.Slices ![0, 11] S2048x1
  inb_S2048x1280_S2048x64_0_704 : ∀ a, (![0, 704] : Fin 2 → Nat) a + S2048x64.size a ≤ S2048x1280.size a
  inb_S1x1280_S1x64_0_704 : ∀ a, (![0, 704] : Fin 2 → Nat) a + S1x64.size a ≤ S1x1280.size a
  inb_S20x64_S1x64_11_0 : ∀ a, (![11, 0] : Fin 2 → Nat) a + S1x64.size a ≤ S20x64.size a
  slices_S2048x128_o0_12_S2048x1 : S2048x128.Slices ![0, 12] S2048x1
  inb_S2048x1280_S2048x64_0_768 : ∀ a, (![0, 768] : Fin 2 → Nat) a + S2048x64.size a ≤ S2048x1280.size a
  inb_S1x1280_S1x64_0_768 : ∀ a, (![0, 768] : Fin 2 → Nat) a + S1x64.size a ≤ S1x1280.size a
  inb_S20x64_S1x64_12_0 : ∀ a, (![12, 0] : Fin 2 → Nat) a + S1x64.size a ≤ S20x64.size a
  slices_S2048x128_o0_13_S2048x1 : S2048x128.Slices ![0, 13] S2048x1
  inb_S2048x1280_S2048x64_0_832 : ∀ a, (![0, 832] : Fin 2 → Nat) a + S2048x64.size a ≤ S2048x1280.size a
  inb_S1x1280_S1x64_0_832 : ∀ a, (![0, 832] : Fin 2 → Nat) a + S1x64.size a ≤ S1x1280.size a
  inb_S20x64_S1x64_13_0 : ∀ a, (![13, 0] : Fin 2 → Nat) a + S1x64.size a ≤ S20x64.size a
  slices_S2048x128_o0_14_S2048x1 : S2048x128.Slices ![0, 14] S2048x1
  inb_S2048x1280_S2048x64_0_896 : ∀ a, (![0, 896] : Fin 2 → Nat) a + S2048x64.size a ≤ S2048x1280.size a
  inb_S1x1280_S1x64_0_896 : ∀ a, (![0, 896] : Fin 2 → Nat) a + S1x64.size a ≤ S1x1280.size a
  inb_S20x64_S1x64_14_0 : ∀ a, (![14, 0] : Fin 2 → Nat) a + S1x64.size a ≤ S20x64.size a
  slices_S2048x128_o0_15_S2048x1 : S2048x128.Slices ![0, 15] S2048x1
  inb_S2048x1280_S2048x64_0_960 : ∀ a, (![0, 960] : Fin 2 → Nat) a + S2048x64.size a ≤ S2048x1280.size a
  inb_S1x1280_S1x64_0_960 : ∀ a, (![0, 960] : Fin 2 → Nat) a + S1x64.size a ≤ S1x1280.size a
  inb_S20x64_S1x64_15_0 : ∀ a, (![15, 0] : Fin 2 → Nat) a + S1x64.size a ≤ S20x64.size a
  slices_S2048x128_o0_16_S2048x1 : S2048x128.Slices ![0, 16] S2048x1
  inb_S2048x1280_S2048x64_0_1024 : ∀ a, (![0, 1024] : Fin 2 → Nat) a + S2048x64.size a ≤ S2048x1280.size a
  inb_S1x1280_S1x64_0_1024 : ∀ a, (![0, 1024] : Fin 2 → Nat) a + S1x64.size a ≤ S1x1280.size a
  inb_S20x64_S1x64_16_0 : ∀ a, (![16, 0] : Fin 2 → Nat) a + S1x64.size a ≤ S20x64.size a
  slices_S2048x128_o0_17_S2048x1 : S2048x128.Slices ![0, 17] S2048x1
  inb_S2048x1280_S2048x64_0_1088 : ∀ a, (![0, 1088] : Fin 2 → Nat) a + S2048x64.size a ≤ S2048x1280.size a
  inb_S1x1280_S1x64_0_1088 : ∀ a, (![0, 1088] : Fin 2 → Nat) a + S1x64.size a ≤ S1x1280.size a
  inb_S20x64_S1x64_17_0 : ∀ a, (![17, 0] : Fin 2 → Nat) a + S1x64.size a ≤ S20x64.size a
  slices_S2048x128_o0_18_S2048x1 : S2048x128.Slices ![0, 18] S2048x1
  inb_S2048x1280_S2048x64_0_1152 : ∀ a, (![0, 1152] : Fin 2 → Nat) a + S2048x64.size a ≤ S2048x1280.size a
  inb_S1x1280_S1x64_0_1152 : ∀ a, (![0, 1152] : Fin 2 → Nat) a + S1x64.size a ≤ S1x1280.size a
  inb_S20x64_S1x64_18_0 : ∀ a, (![18, 0] : Fin 2 → Nat) a + S1x64.size a ≤ S20x64.size a
  slices_S2048x128_o0_19_S2048x1 : S2048x128.Slices ![0, 19] S2048x1
  inb_S2048x1280_S2048x64_0_1216 : ∀ a, (![0, 1216] : Fin 2 → Nat) a + S2048x64.size a ≤ S2048x1280.size a
  inb_S1x1280_S1x64_0_1216 : ∀ a, (![0, 1216] : Fin 2 → Nat) a + S1x64.size a ≤ S1x1280.size a
  inb_S20x64_S1x64_19_0 : ∀ a, (![19, 0] : Fin 2 → Nat) a + S1x64.size a ≤ S20x64.size a
  reduces_S2048x64_S2048 : S2048x64.Reduces [1] S2048
  reduces_S2048x128_S128 : S2048x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S64x1x128_S1x128_d0 : S64x1x128.ReducesTo [0] S1x128
  shapeCasts_S1x128_S128 : S1x128.ShapeCasts S128
  bcast_S_S128 : S_.BroadcastsInDim S128 (![] : Fin 0 → Fin S128.rank)
  reducesTo_S128_S_d0 : S128.ReducesTo [0] S_
  dot_S2048x256_S256x1280_S2048x1280_1_0_0_1_n_n_wf : DotDims.WF S2048x256 S256x1280 S2048x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1280.size a ≤ S256x1280.size a
  hwx0_2 : ∀ i : grid0.Coords, EltTy.bits .bf16 = 32 ∨ (Rect.block (s := S256x1280) S256x1280.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x1280.size a
  hwx0_3 : ∀ i : grid0.Coords, EltTy.bits .f32 = 32 ∨ (Rect.block (s := S1x1280) S1x1280.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x64.size a ≤ S20x64.size a
  hwx0_4 : ∀ i : grid0.Coords, EltTy.bits .f32 = 32 ∨ (Rect.block (s := S20x64) S20x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x64.size a ≤ S20x64.size a
  hwx0_5 : ∀ i : grid0.Coords, EltTy.bits .f32 = 32 ∨ (Rect.block (s := S20x64) S20x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x64.size a ≤ S20x64.size a
  hwx0_6 : ∀ i : grid0.Coords, EltTy.bits .f32 = 32 ∨ (Rect.block (s := S20x64) S20x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S64x1x128.size a
  hwx0_9 : ∀ i : grid0.Coords, EltTy.bits .f32 = 32 ∨ (Rect.block (s := S64x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S64x1x128.size a
  hwx0_10 : ∀ i : grid0.Coords, EltTy.bits .f32 = 32 ∨ (Rect.block (s := S64x1x128) S1x1x128.size (cc0_transform_10 i) (hinb0_10 i)).WholeWords (EltTy.packing .f32)

variable [Facts₀]

def dot_S2048x256_S256x1280_S2048x1280_1_0_0_1_n_n : DotDims S2048x256 S256x1280 S2048x1280 where
  lhsContracting := [1]
  rhsContracting := [0]
  lhsNonContracting := [0]
  rhsNonContracting := [1]
  lhsBatch := []
  rhsBatch := []
  wf := dot_S2048x256_S256x1280_S2048x1280_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S20x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S20x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S20x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34_0) S1x1x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v34_1) S1x1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S20x64x256 : Shape := ⟨3, ![20, 64, 256]⟩
abbrev S20x64 : Shape := ⟨2, ![20, 64]⟩
abbrev S256 : Shape := ⟨1, ![256]⟩
abbrev S20 : Shape := ⟨1, ![20]⟩
abbrev S1x256 : Shape := ⟨2, ![1, 256]⟩
abbrev S1280x256 : Shape := ⟨2, ![1280, 256]⟩
abbrev S_ : Shape := ⟨0, ![]⟩
abbrev S131072x1 : Shape := ⟨2, ![131072, 1]⟩
abbrev S1280 : Shape := ⟨1, ![1280]⟩
abbrev S1x1280 : Shape := ⟨2, ![1, 1280]⟩
abbrev S131072x1280 : Shape := ⟨2, ![131072, 1280]⟩
abbrev S256x1280 : Shape := ⟨2, ![256, 1280]⟩
abbrev S20x1 : Shape := ⟨2, ![20, 1]⟩
abbrev S131072x20x64 : Shape := ⟨3, ![131072, 20, 64]⟩
abbrev S131072x1x1 : Shape := ⟨3, ![131072, 1, 1]⟩
abbrev S1 : Shape := ⟨1, ![1]⟩
abbrev S1x1x1 : Shape := ⟨3, ![1, 1, 1]⟩
abbrev S131072x1x64 : Shape := ⟨3, ![131072, 1, 64]⟩
abbrev S131072x64 : Shape := ⟨2, ![131072, 64]⟩

abbrev nBuf : Space → Nat
  | .hbm => 154
  | .vmem => 0
  | .smem => 0
  | _ => 0

abbrev hbmTy0_0 (i : Nat) : BufTy := match i % 128 with
  | 0 => ⟨S131072x256, .f32⟩
  | 1 => ⟨S131072, .i32⟩
  | 2 => ⟨S20x64x256, .f32⟩
  | 3 => ⟨S20x64, .f32⟩
  | 4 => ⟨S256, .f32⟩
  | 5 => ⟨S256, .f32⟩
  | 6 => ⟨S20x64, .f32⟩
  | 7 => ⟨S20, .f32⟩
  | 8 => ⟨S1x256, .f32⟩
  | 9 => ⟨S131072x256, .f32⟩
  | 10 => ⟨S131072x256, .f32⟩
  | 11 => ⟨S1x256, .f32⟩
  | 12 => ⟨S131072x256, .f32⟩
  | 13 => ⟨S131072x256, .f32⟩
  | 14 => ⟨S1280x256, .f32⟩
  | 15 => ⟨S131072x256, .f32⟩
  | 16 => ⟨S_, .f32⟩
  | 17 => ⟨S131072, .f32⟩
  | 18 => ⟨S131072x1, .f32⟩
  | 19 => ⟨S1280x256, .f32⟩
  | 20 => ⟨S_, .f32⟩
  | 21 => ⟨S1280, .f32⟩
  | 22 => ⟨S1x1280, .f32⟩
  | 23 => ⟨S131072x1280, .f32⟩
  | 24 => ⟨S131072x1280, .f32⟩
  | 25 => ⟨S131072x1280, .f32⟩
  | 26 => ⟨S256x1280, .f32⟩
  | 27 => ⟨S131072x1280, .f32⟩
  | 28 => ⟨S_, .f32⟩
  | 29 => ⟨S131072x1280, .f32⟩
  | 30 => ⟨S131072x1280, .f32⟩
  | 31 => ⟨S131072x1280, .f32⟩
  | 32 => ⟨S_, .f32⟩
  | 33 => ⟨S131072x1280, .f32⟩
  | 34 => ⟨S131072x1280, .f32⟩
  | 35 => ⟨S131072x1280, .f32⟩
  | 36 => ⟨S131072x1280, .f32⟩
  | 37 => ⟨S_, .f32⟩
  | 38 => ⟨S131072x1280, .f32⟩
  | 39 => ⟨S131072x1280, .f32⟩
  | 40 => ⟨S_, .f32⟩
  | 41 => ⟨S20, .f32⟩
  | 42 => ⟨S20, .f32⟩
  | 43 => ⟨S_, .f32⟩
  | 44 => ⟨S20, .f32⟩
  | 45 => ⟨S20, .f32⟩
  | 46 => ⟨S20x1, .f32⟩
  | 47 => ⟨S20x64, .f32⟩
  | 48 => ⟨S20x64, .i1⟩
  | 49 => ⟨S1280, .i1⟩
  | 50 => ⟨S1x1280, .i1⟩
  | 51 => ⟨S_, .f32⟩
  | 52 => ⟨S_, .f32⟩
  | 53 => ⟨S131072x1280, .i1⟩
  | 54 => ⟨S131072x1280, .f32⟩
  | 55 => ⟨S131072x1280, .f32⟩
  | 56 => ⟨S131072x20x64, .f32⟩
  | 57 => ⟨S131072x1x1, .i32⟩
  | 58 => ⟨S_, .i32⟩
  | 59 => ⟨S131072x1x1, .i32⟩
  | 60 => ⟨S131072x1x1, .i1⟩
  | 61 => ⟨S_, .i32⟩
  | 62 => ⟨S131072x1x1, .i32⟩
  | 63 => ⟨S131072x1x1, .i32⟩
  | 64 => ⟨S131072x1x1, .i32⟩
  | 65 => ⟨S1, .i32⟩
  | 66 => ⟨S_, .i32⟩
  | 67 => ⟨S131072x1x1, .i32⟩
  | 68 => ⟨S131072x1x1, .i1⟩
  | 69 => ⟨S1x1x1, .i32⟩
  | 70 => ⟨S131072x1x1, .i32⟩
  | 71 => ⟨S131072x1x1, .i1⟩
  | 72 => ⟨S131072x1x1, .i1⟩
  | 73 => ⟨S_, .i1⟩
  | 74 => ⟨S131072x1, .i1⟩
  | 75 => ⟨S131072x1x64, .f32⟩
  | 76 => ⟨S131072x1x64, .i1⟩
  | 77 => ⟨S_, .f32⟩
  | 78 => ⟨S131072x1x64, .f32⟩
  | 79 => ⟨S131072x1x64, .f32⟩
  | 80 => ⟨S131072x64, .f32⟩
  | 81 => ⟨S_, .f32⟩
  | 82 => ⟨S20x64, .f32⟩
  | 83 => ⟨S20x64, .f32⟩
  | 84 => ⟨S20x64, .f32⟩
  | 85 => ⟨S20x64, .f32⟩
  | 86 => ⟨S_, .f32⟩
  | 87 => ⟨S20x64, .f32⟩
  | 88 => ⟨S20x64, .f32⟩
  | 89 => ⟨S_, .f32⟩
  | 90 => ⟨S20x64, .f32⟩
  | 91 => ⟨S20x64, .f32⟩
  | 92 => ⟨S_, .f32⟩
  | 93 => ⟨S20x64, .f32⟩
  | 94 => ⟨S20x64, .f32⟩
  | 95 => ⟨S_, .f32⟩
  | 96 => ⟨S20x64, .f32⟩
  | 97 => ⟨S20x64, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x64, .f32⟩
  | 107 => ⟨S_, .f32⟩
  | 108 => ⟨S131072x64, .f32⟩
  | 109 => ⟨S131072x64, .f32⟩
  | 110 => ⟨S_, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x64, .f32⟩
  | 117 => ⟨S131072x64, .f32⟩
  | 118 => ⟨S131072x64, .f32⟩
  | 119 => ⟨S_, .f32⟩
  | 120 => ⟨S131072, .f32⟩
  | 121 => ⟨S131072x1, .f32⟩
  | 122 => ⟨S131072x64, .f32⟩
  | 123 => ⟨S131072x64, .f32⟩
  | 124 => ⟨S131072x64, .f32⟩
  | 125 => ⟨S131072x64, .f32⟩
  | 126 => ⟨S131072x64, .f32⟩
  | 127 => ⟨S131072x64, .f32⟩
  | _ => ⟨S131072x256, .f32⟩

abbrev hbmTy0_1 (i : Nat) : BufTy := match i % 128 with
  | 0 => ⟨S_, .f32⟩
  | 1 => ⟨S131072, .f32⟩
  | 2 => ⟨S131072, .f32⟩
  | 3 => ⟨S_, .f32⟩
  | 4 => ⟨S20, .f32⟩
  | 5 => ⟨S131072x1, .i32⟩
  | 6 => ⟨S20, .f32⟩
  | 7 => ⟨S_, .f32⟩
  | 8 => ⟨S131072, .f32⟩
  | 9 => ⟨S_, .f32⟩
  | 10 => ⟨S20, .f32⟩
  | 11 => ⟨S131072x1, .i32⟩
  | 12 => ⟨S20, .f32⟩
  | 13 => ⟨S_, .f32⟩
  | 14 => ⟨S20, .f32⟩
  | 15 => ⟨S20, .i1⟩
  | 16 => ⟨S_, .f32⟩
  | 17 => ⟨S20, .f32⟩
  | 18 => ⟨S20, .f32⟩
  | 19 => ⟨S20, .f32⟩
  | 20 => ⟨S_, .f32⟩
  | 21 => ⟨S_, .f32⟩
  | 22 => ⟨S20, .f32⟩
  | 23 => ⟨S20, .f32⟩
  | 24 => ⟨S_, .f32⟩
  | 25 => ⟨S_, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_c_2 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_c_3 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_cst : Ref sig .tc := ⟨.hbm, 77, rfl⟩
abbrev main_call1_v14 : Ref sig .tc := ⟨.hbm, 78, rfl⟩
abbrev main_v39 : Ref sig .tc := ⟨.hbm, 79, rfl⟩
abbrev main_v40 : Ref sig .tc := ⟨.hbm, 80, rfl⟩
abbrev main_cst_7 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_8 : Ref sig .tc := ⟨.hbm, 86, rfl⟩
abbrev main_v45 : Ref sig .tc := ⟨.hbm, 87, rfl⟩
abbrev main_v46 : Ref sig .tc := ⟨.hbm, 88, rfl⟩
abbrev main_cst_9 : Ref sig .tc := ⟨.hbm, 89, rfl⟩
abbrev main_v47 : Ref sig .tc := ⟨.hbm, 90, rfl⟩
abbrev main_v48 : Ref sig .tc := ⟨.hbm, 91, rfl⟩
abbrev main_cst_10 : Ref sig .tc := ⟨.hbm, 92, rfl⟩
abbrev main_v49 : Ref sig .tc := ⟨.hbm, 93, rfl⟩
abbrev main_v50 : Ref sig .tc := ⟨.hbm, 94, rfl⟩
abbrev main_cst_11 : Ref sig .tc := ⟨.hbm, 95, rfl⟩
abbrev main_v51 : Ref sig .tc := ⟨.hbm, 96, rfl⟩
abbrev main_v52 : Ref sig .tc := ⟨.hbm, 97, rfl⟩
abbrev main_c : Ref sig .tc := ⟨.hbm, 98, rfl⟩
abbrev main_v53 : Ref sig .tc := ⟨.hbm, 99, rfl⟩
abbrev main_v54 : Ref sig .tc := ⟨.hbm, 100, rfl⟩
abbrev main_c_12 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_13 : Ref sig .tc := ⟨.hbm, 107, rfl⟩
abbrev main_v60 : Ref sig .tc := ⟨.hbm, 108, rfl⟩
abbrev main_v61 : Ref sig .tc := ⟨.hbm, 109, rfl⟩
abbrev main_cst_14 : Ref sig .tc := ⟨.hbm, 110, rfl⟩
abbrev main_v62 : Ref sig .tc := ⟨.hbm, 111, rfl⟩
abbrev main_cst_15 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_16 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_17 : Ref sig .tc := ⟨.hbm, 128, rfl⟩
abbrev main_v77 : Ref sig .tc := ⟨.hbm, 129, rfl⟩
abbrev main_v78 : Ref sig .tc := ⟨.hbm, 130, rfl⟩
abbrev main_cst_18 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_19 : Ref sig .tc := ⟨.hbm, 135, rfl⟩
abbrev main_v82 : Ref sig .tc := ⟨.hbm, 136, rfl⟩
abbrev main_cst_20 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_21 : Ref sig .tc := ⟨.hbm, 141, rfl⟩
abbrev main_v86 : Ref sig .tc := ⟨.hbm, 142, rfl⟩
abbrev main_v87 : Ref sig .tc := ⟨.hbm, 143, rfl⟩
abbrev main_cst_22 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_23 : Ref sig .tc := ⟨.hbm, 148, rfl⟩
abbrev main_call2_v0 : Ref sig .tc := ⟨.hbm, 149, rfl⟩
abbrev main_call2_v1 : Ref sig .tc := ⟨.hbm, 150, rfl⟩
abbrev main_v91 : Ref sig .tc := ⟨.hbm, 151, rfl⟩
abbrev main_cst_24 : Ref sig .tc := ⟨.hbm, 152, rfl⟩
abbrev main_v92 : Ref sig .tc := ⟨.hbm, 153, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  shapeCasts_S20x64x256_S1280x256 : S20x64x256.ShapeCasts S1280x256
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S1280x256_S1280_d1 : S1280x256.ReducesTo [1] S1280
  bcast_S1280_S1x1280_1 : S1280.BroadcastsInDim S1x1280 (![1] : Fin 1 → Fin S1x1280.rank)
  bcast_S131072x1_S131072x1280_0_1 : S131072x1.BroadcastsInDim S131072x1280 (![0, 1] : Fin 2 → Fin S131072x1280.rank)
  bcast_S1x1280_S131072x1280_0_1 : S1x1280.BroadcastsInDim S131072x1280 (![0, 1] : Fin 2 → Fin S131072x1280.rank)
  transposes_S1280x256_S256x1280_1_0 : S1280x256.Transposes [1, 0] S256x1280
  bcast_S_S131072x1280 : S_.BroadcastsInDim S131072x1280 (![] : Fin 0 → Fin S131072x1280.rank)
  bcast_S_S20 : S_.BroadcastsInDim S20 (![] : Fin 0 → Fin S20.rank)
  bcast_S20_S20x1_0 : S20.BroadcastsInDim S20x1 (![0] : Fin 1 → Fin S20x1.rank)
  bcast_S20x1_S20x64_0_1 : S20x1.BroadcastsInDim S20x64 (![0, 1] : Fin 2 → Fin S20x64.rank)
  shapeCasts_S20x64_S1280 : S20x64.ShapeCasts S1280
  shapeCasts_S131072x1280_S131072x20x64 : S131072x1280.ShapeCasts S131072x20x64
  bcast_S131072_S131072x1x1_0 : S131072.BroadcastsInDim S131072x1x1 (![0] : Fin 1 → Fin S131072x1x1.rank)
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  bcast_S131072x1_S131072x1x64_0_1 : S131072x1.BroadcastsInDim S131072x1x64 (![0, 1] : Fin 2 → Fin S131072x1x64.rank)
  bcast_S_S131072x1x64 : S_.BroadcastsInDim S131072x1x64 (![] : Fin 0 → Fin S131072x1x64.rank)
  shapeCasts_S131072x1x64_S131072x64 : S131072x1x64.ShapeCasts S131072x64
  bcast_S_S20x64 : S_.BroadcastsInDim S20x64 (![] : Fin 0 → Fin S20x64.rank)
  bcast_S_S131072 : S_.BroadcastsInDim S131072 (![] : Fin 0 → Fin S131072.rank)
  bcast_S_S131072x64 : S_.BroadcastsInDim S131072x64 (![] : Fin 0 → Fin S131072x64.rank)
  reducesTo_S131072x64_S131072_d1 : S131072x64.ReducesTo [1] S131072
  bcast_S131072x1_S131072x64_0_1 : S131072x1.BroadcastsInDim S131072x64 (![0, 1] : Fin 2 → Fin S131072x64.rank)
  reducesTo_S20_S_d0 : S20.ReducesTo [0] S_
  dot_S131072x256_S256x1280_S131072x1280_1_0_0_1_n_n_wf : DotDims.WF S131072x256 S256x1280 S131072x1280 [1] [0] [0] [1] [] []
  gather_S131072x20x64_S131072x1x1_S131072x1x64_2_1_0_0_1_2_1164_wf : GatherDims.WF S131072x20x64 S131072x1x1 S131072x1x64 [2] [1] [0] [1] [0] 2 ![1, 1, 64]
  gather_S20x64_S131072x1_S131072x64_1_0_n_n_0_1_164_wf : GatherDims.WF S20x64 S131072x1 S131072x64 [1] [0] [] [0] [] 1 ![1, 64]
  scatter_S20_S131072x1_S131072_n_0_0_1_wf : ScatterDims.WF S20 S131072x1 S131072 [] [0] [0] 1

variable [Facts₀]

def dot_S131072x256_S256x1280_S131072x1280_1_0_0_1_n_n : DotDims S131072x256 S256x1280 S131072x1280 where
  lhsContracting := [1]
  rhsContracting := [0]
  lhsNonContracting := [0]
  rhsNonContracting := [1]
  lhsBatch := []
  rhsBatch := []
  wf := dot_S131072x256_S256x1280_S131072x1280_1_0_0_1_n_n_wf
def gather_S131072x20x64_S131072x1x1_S131072x1x64_2_1_0_0_1_2_1164 : GatherDims S131072x20x64 S131072x1x1 S131072x1x64 where
  offsetDims := [2]
  collapsedSliceDims := [1]
  operandBatchingDims := [0]
  startIndicesBatchingDims := [0]
  startIndexMap := [1]
  indexVectorDim := 2
  sliceSizes := ![1, 1, 64]
  wf := gather_S131072x20x64_S131072x1x1_S131072x1x64_2_1_0_0_1_2_1164_wf
def gather_S20x64_S131072x1_S131072x64_1_0_n_n_0_1_164 : GatherDims S20x64 S131072x1 S131072x64 where
  offsetDims := [1]
  collapsedSliceDims := [0]
  operandBatchingDims := []
  startIndicesBatchingDims := []
  startIndexMap := [0]
  indexVectorDim := 1
  sliceSizes := ![1, 64]
  wf := gather_S20x64_S131072x1_S131072x64_1_0_n_n_0_1_164_wf
def scatter_S20_S131072x1_S131072_n_0_0_1 : ScatterDims S20 S131072x1 S131072 where
  updateWindowDims := []
  insertedWindowDims := [0]
  scatterDimsToOperandDims := [0]
  indexVectorDim := 1
  wf := scatter_S20_S131072x1_S131072_n_0_0_1_wf

class Facts : Prop extends Facts₀ where

variable [Facts]
-- ==== Proof.Spec.lean ====
/-
  The loss both programs compute, written once as plain functions on the extended reals.

  Inputs: data D[n, d] (n < 131072, d < 256), labels L[n], centres M[c, k, d] (c < 20 classes, k < 64 clusters),
  temperatures T[c, k], a median med[d] and a scale std[d], running counts RA[c, k], RB[c].

  Per sample n: the normalised datum X[n, ·]; its squared distance to every centre of ONE class c,
  d2 = |X|² + |M[c,k]|² − 2 ⟨X, M[c,k]⟩; the similarity s[k] = −√(max d2 0) · 6.25 where centre (c, k) is live, a
  large negative constant where it is not; a softmax of s / 2 over the 64 clusters; and the loss
  −∑ₖ (s[k] / τ[c,k] − log τ[c,k]) · softmax[k].  Per class the mean of that loss over the samples labelled c;
  the result is the sum of the class means over the classes that have a sample.

  The two programs differ in how they pick "the sample's class": one selects the class's rows with 0/1 weights
  and sums (`gath`), the other gathers by index and scatters by index.  Both forms are stated here; that they
  agree is proved in a module of its own.
-/
import Idealize.ShloMosaic.PureOps.Ideal
import Idealize.ShloMosaic.Lib.ValueIdx

noncomputable section

open scoped BigOperators

namespace Cert.KM

open Idealize.ShloMosaic Idealize.ShloMosaic.ValueIdx

/-! ## The constants, kept as the words both programs print -/

def kHalf : EReal := Ideal.ofBits .f32 0x3F000000#32   -- 0.5
def kOne : EReal := Ideal.ofBits .f32 0x3F800000#32    -- 1
def kTwo : EReal := Ideal.ofBits .f32 0x40000000#32    -- 2
def kScale : EReal := Ideal.ofBits .f32 0x40C80000#32  -- 6.25
def k64 : EReal := Ideal.ofBits .f32 0x42800000#32     -- 64
def k100 : EReal := Ideal.ofBits .f32 0x42C80000#32    -- 100
def kCenti : EReal := Ideal.ofBits .f32 0x3C23D70A#32  -- the float nearest 0.01
def kNeg : EReal := Ideal.ofBits .f32 0xD368D4A5#32    -- the float nearest −1e12: the fill for a dead centre

/-! ## One row of 64 similarities: the softmax weights and the weighted loss -/

/-- The row's maximum of s / 2, as a fold of `max` from −∞. -/
def rowMax (s : Fin 64 → EReal) : EReal := (Finset.univ : Finset (Fin 64)).fold max ⊥ (fun k => kHalf * s k)

/-- The softmax weight of cluster k: exp (s[k]/2 − max) over the sum of those. -/
def softW (s : Fin 64 → EReal) (k : Fin 64) : EReal :=
  Ideal.div (Ideal.exp (kHalf * s k - rowMax s)) (∑ k' : Fin 64, Ideal.exp (kHalf * s k' - rowMax s))

/-- A similarity from a squared distance: −√(max d2 0) · 6.25, the minus sign written as a difference from 0. -/
def dist (d2 : EReal) : EReal := (0 - Ideal.sqrt (max d2 0)) * kScale

/-! ## What depends only on the small inputs -/

section Small
variable (M : FVec Ideal ⟨3, ![20, 64, 256]⟩ .f32) (T RA : FVec Ideal ⟨2, ![20, 64]⟩ .f32) (RB : FVec Ideal ⟨1, ![20]⟩ .f32)

/-- |M[c,k]|². -/
def m2 (c : Fin 20) (k : Fin 64) : EReal := ∑ d : Fin 256, M (ix3 c k d) * M (ix3 c k d)

/-- τ[c,k] = sigmoid (T[c,k] / 2) · 100 + 0.01, the sigmoid written out as 1 / (1 + exp (−·)). -/
def tau (c : Fin 20) (k : Fin 64) : EReal :=
  Ideal.div kOne (kOne + Ideal.exp (-(Ideal.div (T (ix2 c k)) kTwo))) * k100 + kCenti

/-- Centre (c, k) is live: its running count exceeds RB[c] / 64 · 0.5. -/
def live (c : Fin 20) (k : Fin 64) : Prop := Ideal.div (RB (ix1 c)) k64 * kHalf < RA (ix2 c k)

instance (c : Fin 20) (k : Fin 64) : Decidable (live RA RB c k) := by unfold live; infer_instance

/-- The 0/1 flag of a live centre. -/
def liveW (c : Fin 20) (k : Fin 64) : EReal := if live RA RB c k then 1 else 0
end Small

/-! ## The reference's form: class by class over the samples labelled with that class -/

section Ref
variable (D : FVec Ideal ⟨2, ![131072, 256]⟩ .f32) (L : IVec ⟨1, ![131072]⟩ 32)
  (M : FVec Ideal ⟨3, ![20, 64, 256]⟩ .f32) (T : FVec Ideal ⟨2, ![20, 64]⟩ .f32)
  (med std : FVec Ideal ⟨1, ![256]⟩ .f32) (RA : FVec Ideal ⟨2, ![20, 64]⟩ .f32) (RB : FVec Ideal ⟨1, ![20]⟩ .f32)

/-- The normalised datum, by a quotient. -/
def xR (n : Fin 131072) (d : Fin 256) : EReal := Ideal.div (D (ix2 n d) - med (ix1 d)) (std (ix1 d))

/-- The similarity of sample n to centre (c, k). -/
def simR (n : Fin 131072) (c : Fin 20) (k : Fin 64) : EReal :=
  if live RA RB c k then
    dist (((∑ d : Fin 256, xR D med std n d * xR D med std n d) + m2 M c k)
      - kTwo * (∑ d : Fin 256, xR D med std n d * M (ix3 c k d)))
  else kNeg

/-- Sample n's loss, taken in class c. -/
def psR (n : Fin 131072) (c : Fin 20) : EReal :=
  -(∑ k : Fin 64, (Ideal.div (simR D M med std RA RB n c k) (tau T c k) - Ideal.log (tau T c k))
      * softW (simR D M med std RA RB n c) k)

/-- The samples labelled c (the label word read signed). -/
def members (c : Fin 20) : Finset (Fin 131072) := Finset.univ.filter fun n => (L (ix1 n)).toInt = (c.val : ℤ)

/-- The result, the reference's way. -/
def rLoss : EReal :=
  ∑ c : Fin 20,
    if 0 < (∑ _n ∈ members L c, kOne) then
      Ideal.div (∑ n ∈ members L c, psR D M T med std RA RB n c) (max (∑ _n ∈ members L c, kOne) kOne)
    else 0
end Ref

/-! ## The kernel's form: 0/1 weights per lane, sums over a block's rows, then over the blocks -/

/-- The weight a label word gives lane ℓ: 1 when the word is ℓ, else 0. -/
def oh (w : BitVec 32) (ℓ : ℕ) : EReal := if w = BitVec.ofNat 32 ℓ then 1 else 0

/-- The running sum  0 + oh w 0 · v 0 + … + oh w (n−1) · v (n−1), in that order. -/
def gathN (w : BitVec 32) (v : Fin 20 → EReal) : (n : ℕ) → n ≤ 20 → EReal
  | 0, _ => 0
  | n + 1, h => gathN w v n (Nat.le_of_succ_le h) + oh w n * v ⟨n, h⟩

/-- The class selection by weights: all twenty terms. -/
def gath (w : BitVec 32) (v : Fin 20 → EReal) : EReal := gathN w v 20 le_rfl

section Block
variable (x0 : FVec Ideal ⟨2, ![2048, 256]⟩ .f32) (x1 : IVec ⟨2, ![2048, 1]⟩ 32)
  (x2 : FVec Ideal ⟨2, ![256, 1280]⟩ .bf16) (x3 : FVec Ideal ⟨2, ![1, 1280]⟩ .f32)
  (x4 x5 x6 : FVec Ideal ⟨2, ![20, 64]⟩ .f32) (x7 x8 : FVec Ideal ⟨2, ![1, 256]⟩ .f32)

/-- Column c·64 + k of a 1280-wide array. -/
def col (c : Fin 20) (k : Fin 64) : Fin 1280 := ⟨c.val * 64 + k.val, by have := c.isLt; have := k.isLt; omega⟩

/-- The block's normalised datum, by a product with the stored reciprocal. -/
def bX (r : Fin 2048) (d : Fin 256) : EReal := (x0 (ix2 r d) - x7 (ix2 0 d)) * x8 (ix2 0 d)

def bX2 (r : Fin 2048) : EReal := ∑ d : Fin 256, bX x0 x7 x8 r d * bX x0 x7 x8 r d

def bDot (r : Fin 2048) (j : Fin 1280) : EReal := ∑ d : Fin 256, bX x0 x7 x8 r d * x2 (ix2 d j)

/-- Row r's similarities, from the class-selected pieces. -/
def bSim (r : Fin 2048) (k : Fin 64) : EReal :=
  if kHalf < gath (x1 (ix2 r 0)) (fun c => x6 (ix2 c k)) then
    dist ((bX2 x0 x7 x8 r + gath (x1 (ix2 r 0)) (fun c => x3 (ix2 0 (col c k))))
      - kTwo * gath (x1 (ix2 r 0)) (fun c => bDot x0 x2 x7 x8 r (col c k)))
  else kNeg

/-- Row r's loss. -/
def bPs (r : Fin 2048) : EReal :=
  0 - ∑ k : Fin 64,
    (bSim x0 x1 x2 x3 x6 x7 x8 r k * gath (x1 (ix2 r 0)) (fun c => x4 (ix2 c k))
        - gath (x1 (ix2 r 0)) (fun c => x5 (ix2 c k)))
      * softW (bSim x0 x1 x2 x3 x6 x7 x8 r) k

/-- The block's contribution to lane ℓ's loss sum and to lane ℓ's count. -/
def segBlk (ℓ : Fin 128) : EReal := ∑ r : Fin 2048, oh (x1 (ix2 r 0)) ℓ.val * bPs x0 x1 x2 x3 x4 x5 x6 x7 x8 r
def cntBlk (ℓ : Fin 128) : EReal := ∑ r : Fin 2048, oh (x1 (ix2 r 0)) ℓ.val
end Block

section Kernel
variable (D : FVec Ideal ⟨2, ![131072, 256]⟩ .f32) (L : IVec ⟨1, ![131072]⟩ 32)
  (M : FVec Ideal ⟨3, ![20, 64, 256]⟩ .f32) (T : FVec Ideal ⟨2, ![20, 64]⟩ .f32)
  (med std : FVec Ideal ⟨1, ![256]⟩ .f32) (RA : FVec Ideal ⟨2, ![20, 64]⟩ .f32) (RB : FVec Ideal ⟨1, ![20]⟩ .f32)

/-- Row r of block b is sample b·2048 + r. -/
def row (b : Fin 64) (r : Fin 2048) : Fin 131072 := ⟨b.val * 2048 + r.val, by have := b.isLt; have := r.isLt; omega⟩

/-- The arrays the blocks are cut from, as the host prepares them. -/
def hData (b : Fin 64) : FVec Ideal ⟨2, ![2048, 256]⟩ .f32 := fun y => D (ix2 (row b (y 0)) (y 1))
def hLab (b : Fin 64) : IVec ⟨2, ![2048, 1]⟩ 32 := fun y => L (ix1 (row b (y 0)))
def hMuT : FVec Ideal ⟨2, ![256, 1280]⟩ .bf16 := fun y =>
  M (ix3 ⟨(y 1).val / 64, by have := (y 1).isLt; simp at this; omega⟩ ⟨(y 1).val % 64, Nat.mod_lt _ (by decide)⟩ (y 0))
def hM2 : FVec Ideal ⟨2, ![1, 1280]⟩ .f32 := fun y =>
  m2 M ⟨(y 1).val / 64, by have := (y 1).isLt; simp at this; omega⟩ ⟨(y 1).val % 64, Nat.mod_lt _ (by decide)⟩
def hITau : FVec Ideal ⟨2, ![20, 64]⟩ .f32 := fun y => Ideal.div kOne (tau T (y 0) (y 1))
def hLTau : FVec Ideal ⟨2, ![20, 64]⟩ .f32 := fun y => Ideal.log (tau T (y 0) (y 1))
def hLive : FVec Ideal ⟨2, ![20, 64]⟩ .f32 := fun y => liveW RA RB (y 0) (y 1)
def hMed : FVec Ideal ⟨2, ![1, 256]⟩ .f32 := fun y => med (ix1 (y 1))
def hIStd : FVec Ideal ⟨2, ![1, 256]⟩ .f32 := fun y => Ideal.div kOne (std (ix1 (y 1)))

/-- Lane ℓ's loss sum and count over all 64 blocks. -/
def segK (ℓ : Fin 128) : EReal :=
  ∑ b : Fin 64, segBlk (hData D b) (hLab L b) (hMuT M) (hM2 M) (hITau T) (hLTau T) (hLive RA RB) (hMed med) (hIStd std) ℓ
def cntK (ℓ : Fin 128) : EReal := ∑ b : Fin 64, cntBlk (hLab L b) ℓ

/-- The result, the kernel's way: all 128 lanes. -/
def kLoss : EReal :=
  ∑ ℓ : Fin 128,
    if 0 < cntK L ℓ then Ideal.div (segK D L M T med std RA RB ℓ) (max (cntK L ℓ) kOne) else 0
end Kernel

end Cert.KM

end
-- ==== Proof.Algebra1.lean ====
/-
  One sample, both ways.  The selection by 0/1 weights picks the labelled class's entry (or nothing, when the label
  names no class); with that, a row of a block computes the reference's loss of the same sample in its class, and a
  row whose label names no class computes 0.
-/
import proofs.«423493_j45861660787183_3_alg».proof.Proof.Spec
import Idealize.ShloMosaic.Lib.StableHlo.Predicate

noncomputable section

open scoped BigOperators

namespace Cert.KM

open Idealize.ShloMosaic Idealize.ShloMosaic.ValueIdx

/-! ## The constants whose values are needed -/

/-- The word of 1.0 denotes 1. -/
theorem kOne_eq : kOne = 1 := by
  simp [kOne, Ideal.ofBits, Ideal.ieee, -EReal.coe_mul]; norm_num

/-- The word of 0.5 denotes the real 1/2. -/
private theorem kHalf_eq : kHalf = ((1 / 2 : ℝ) : EReal) := by
  simp [kHalf, Ideal.ofBits, Ideal.ieee, -EReal.coe_mul]; norm_num

/-- The word of 100.0 denotes the real 100. -/
private theorem k100_eq : k100 = ((100 : ℝ) : EReal) := by
  simp [k100, Ideal.ofBits, Ideal.ieee, -EReal.coe_mul]; norm_num

theorem kHalf_pos : 0 < kHalf := by
  rw [kHalf_eq]; exact_mod_cast (by norm_num : (0 : ℝ) < 1 / 2)

theorem kHalf_lt_one : kHalf < 1 := by
  rw [kHalf_eq]; exact_mod_cast (by norm_num : (1 / 2 : ℝ) < 1)

private theorem not_kHalf_lt_zero : ¬ kHalf < 0 := not_lt.mpr kHalf_pos.le

theorem k100_nonneg : 0 ≤ k100 := by
  rw [k100_eq]; exact_mod_cast (by norm_num : (0 : ℝ) ≤ 100)

/-- The word nearest 0.01 denotes a positive real. -/
theorem kCenti_pos : 0 < kCenti := by
  simp [kCenti, Ideal.ofBits, Ideal.ieee, -EReal.coe_mul]

/-! ## The selection by 0/1 weights -/

/-- A word equals the word of a small natural exactly when its signed reading is that natural. -/
private theorem eq_ofNat_iff_toInt (w : BitVec 32) (ℓ : ℕ) (hℓ : ℓ < 2 ^ 31) :
    w = BitVec.ofNat 32 ℓ ↔ w.toInt = (ℓ : ℤ) := by
  constructor
  · rintro rfl; exact StableHlo.Predicate.toInt_ofNat_small ℓ hℓ
  · intro h; apply BitVec.eq_of_toInt_eq; rw [h, StableHlo.Predicate.toInt_ofNat_small ℓ hℓ]

/-- The lane weight, by the word's signed reading. -/
theorem oh_eq (w : BitVec 32) (ℓ : ℕ) (hℓ : ℓ < 128) : oh w ℓ = if w.toInt = (ℓ : ℤ) then 1 else 0 := by
  unfold oh
  simp only [eq_ofNat_iff_toInt w ℓ (by omega)]

/-- The running sum up to n, for a word reading as class c: entry c once c has been passed, 0 before. -/
private theorem gathN_of_class (w : BitVec 32) (v : Fin 20 → EReal) (c : Fin 20) (hw : w.toInt = (c.val : ℤ)) :
    ∀ (n : ℕ) (h : n ≤ 20), gathN w v n h = if c.val < n then v c else 0
  | 0, _ => by simp [gathN]
  | n + 1, h => by
    rw [gathN, gathN_of_class w v c hw n (Nat.le_of_succ_le h), oh_eq w n (by omega), hw]
    rcases Nat.lt_trichotomy c.val n with hlt | heq | hgt
    · have h1 : ¬ ((c.val : ℤ) = (n : ℤ)) := by omega
      rw [if_pos hlt, if_neg h1, if_pos (by omega), zero_mul, add_zero]
    · have h1 : ((c.val : ℤ) = (n : ℤ)) := by omega
      have h2 : (⟨n, h⟩ : Fin 20) = c := Fin.ext heq.symm
      rw [if_neg (by omega), if_pos h1, if_pos (by omega), one_mul, zero_add, h2]
    · have h1 : ¬ ((c.val : ℤ) = (n : ℤ)) := by omega
      rw [if_neg (by omega), if_neg h1, if_neg (by omega), zero_mul, add_zero]

/-- A label word that reads as class c selects entry c. -/
theorem gath_eq_of_class (w : BitVec 32) (v : Fin 20 → EReal) (c : Fin 20) (hw : w.toInt = (c.val : ℤ)) :
    gath w v = v c := by
  unfold gath
  rw [gathN_of_class w v c hw 20 le_rfl, if_pos c.isLt]

/-- The running sum for a word reading as no class: every weight is 0. -/
private theorem gathN_of_none (w : BitVec 32) (v : Fin 20 → EReal) (hw : ¬ (0 ≤ w.toInt ∧ w.toInt < 20)) :
    ∀ (n : ℕ) (h : n ≤ 20), gathN w v n h = 0
  | 0, _ => by simp [gathN]
  | n + 1, h => by
    have h1 : ¬ (w.toInt = (n : ℤ)) := by omega
    rw [gathN, gathN_of_none w v hw n (Nat.le_of_succ_le h), oh_eq w n (by omega), if_neg h1, zero_mul, add_zero]

/-- A label word that reads as no class selects nothing. -/
theorem gath_eq_zero (w : BitVec 32) (v : Fin 20 → EReal) (hw : ¬ (0 ≤ w.toInt ∧ w.toInt < 20)) :
    gath w v = 0 := by
  unfold gath
  exact gathN_of_none w v hw 20 le_rfl

/-! ## Quotients and the temperature -/

/-- A quotient by a nonzero extended real is the product with its reciprocal. -/
theorem div_eq_mul_div_one (x y : EReal) (hy : y ≠ 0) : Ideal.div x y = x * Ideal.div kOne y := by
  unfold Ideal.div
  rw [if_neg hy, if_neg hy, kOne_eq, one_mul]

/-- The exponential is nowhere negative: 0 at −∞, +∞ at +∞, the real exponential between. -/
private theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- 1 / (1 + e) is nonnegative for e ≥ 0: the divisor is at least 1, so it is not 0 and its reciprocal is ≥ 0. -/
private theorem div_one_add_nonneg (e : EReal) (he : 0 ≤ e) : 0 ≤ Ideal.div kOne (kOne + e) := by
  rw [kOne_eq]
  have hpos : (0 : EReal) < 1 + e := lt_of_lt_of_le zero_lt_one (le_add_of_nonneg_right he)
  unfold Ideal.div
  rw [if_neg hpos.ne', one_mul]
  exact EReal.inv_nonneg_of_nonneg hpos.le

/-- τ is positive: a nonnegative sigmoid times 100, plus a positive constant. -/
private theorem tau_pos (T : FVec Ideal ⟨2, ![20, 64]⟩ .f32) (c : Fin 20) (k : Fin 64) : 0 < tau T c k := by
  unfold tau
  have h1 : 0 ≤ Ideal.div kOne (kOne + Ideal.exp (-(Ideal.div (T (ix2 c k)) kTwo))) * k100 :=
    mul_nonneg (div_one_add_nonneg _ (exp_nonneg _)) k100_nonneg
  exact lt_of_lt_of_le kCenti_pos (le_add_of_nonneg_left h1)

/-- τ is never zero. -/
theorem tau_ne_zero (T : FVec Ideal ⟨2, ![20, 64]⟩ .f32) (c : Fin 20) (k : Fin 64) : tau T c k ≠ 0 :=
  (tau_pos T c k).ne'

/-! ## The host's arrays at the entries a block reads -/

/-- Column c·64 + k of the transposed centres is centre (c, k). -/
private theorem hMuT_col (M : FVec Ideal ⟨3, ![20, 64, 256]⟩ .f32) (d : Fin 256) (c : Fin 20) (k : Fin 64) :
    hMuT M (ix2 d (col c k)) = M (ix3 c k d) := by
  have ha : ∀ p, (⟨(col c k).val / 64, p⟩ : Fin 20) = c := fun p =>
    Fin.ext (by show (c.val * 64 + k.val) / 64 = c.val; have := k.isLt; omega)
  have hb : ∀ p, (⟨(col c k).val % 64, p⟩ : Fin 64) = k := fun p =>
    Fin.ext (by show (c.val * 64 + k.val) % 64 = k.val; have := k.isLt; omega)
  show M (ix3 ⟨(col c k).val / 64, _⟩ ⟨(col c k).val % 64, _⟩ d) = _
  rw [ha, hb]

/-- Column c·64 + k of the stored squared norms is |M[c,k]|². -/
private theorem hM2_col (M : FVec Ideal ⟨3, ![20, 64, 256]⟩ .f32) (c : Fin 20) (k : Fin 64) :
    hM2 M (ix2 0 (col c k)) = m2 M c k := by
  have ha : ∀ p, (⟨(col c k).val / 64, p⟩ : Fin 20) = c := fun p =>
    Fin.ext (by show (c.val * 64 + k.val) / 64 = c.val; have := k.isLt; omega)
  have hb : ∀ p, (⟨(col c k).val % 64, p⟩ : Fin 64) = k := fun p =>
    Fin.ext (by show (c.val * 64 + k.val) % 64 = k.val; have := k.isLt; omega)
  show m2 M ⟨(col c k).val / 64, _⟩ ⟨(col c k).val % 64, _⟩ = _
  rw [ha, hb]

/-- The kernel's test of a 0/1 flag against 0.5 is the liveness of the centre. -/
private theorem half_lt_liveW (RA : FVec Ideal ⟨2, ![20, 64]⟩ .f32) (RB : FVec Ideal ⟨1, ![20]⟩ .f32) (c : Fin 20) (k : Fin 64) :
    kHalf < liveW RA RB c k ↔ live RA RB c k := by
  unfold liveW
  split_ifs with h
  · exact ⟨fun _ => h, fun _ => kHalf_lt_one⟩
  · exact ⟨fun h' => absurd h' not_kHalf_lt_zero, fun h' => absurd h' h⟩

/-! ## One row of a block -/

section Row
variable (D : FVec Ideal ⟨2, ![131072, 256]⟩ .f32) (L : IVec ⟨1, ![131072]⟩ 32)
  (M : FVec Ideal ⟨3, ![20, 64, 256]⟩ .f32) (T : FVec Ideal ⟨2, ![20, 64]⟩ .f32)
  (med std : FVec Ideal ⟨1, ![256]⟩ .f32) (RA : FVec Ideal ⟨2, ![20, 64]⟩ .f32) (RB : FVec Ideal ⟨1, ![20]⟩ .f32)

/-- The block's normalised datum is the reference's: a product with the stored reciprocal is the quotient. -/
private theorem bX_eq_xR (hstd : ∀ d : Fin 256, std (ix1 d) ≠ 0) (b : Fin 64) (r : Fin 2048) (d : Fin 256) :
    bX (hData D b) (hMed med) (hIStd std) r d = xR D med std (row b r) d := by
  unfold bX xR
  exact (div_eq_mul_div_one _ _ (hstd d)).symm

/-- Row r's similarities, for a label reading as class c, are the reference's of that sample in class c. -/
private theorem bSim_eq_simR (hstd : ∀ d : Fin 256, std (ix1 d) ≠ 0) (b : Fin 64) (r : Fin 2048) (c : Fin 20)
    (hc : (L (ix1 (row b r))).toInt = (c.val : ℤ)) (k : Fin 64) :
    bSim (hData D b) (hLab L b) (hMuT M) (hM2 M) (hLive RA RB) (hMed med) (hIStd std) r k
      = simR D M med std RA RB (row b r) c k := by
  have hg : ∀ v : Fin 20 → EReal, gath (hLab L b (ix2 r 0)) v = v c := fun v => gath_eq_of_class _ v c hc
  unfold bSim simR
  simp only [hg]
  have hfl : kHalf < hLive RA RB (ix2 c k) ↔ live RA RB c k := half_lt_liveW RA RB c k
  by_cases hl : live RA RB c k
  · rw [if_pos (hfl.mpr hl), if_pos hl, hM2_col]
    unfold bX2 bDot
    simp only [bX_eq_xR D med std hstd, hMuT_col]
  · rw [if_neg (fun h => hl (hfl.mp h)), if_neg hl]

end Row

/-- Row r of block b, labelled class c: the block's row loss is the reference's loss of that sample in class c. -/
theorem bPs_eq_psR (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (hstd : ∀ d : Fin 256, std (ix1 d) ≠ 0) (b : Fin 64) (r : Fin 2048) (c : Fin 20)
    (hc : (L (ix1 (row b r))).toInt = (c.val : ℤ)) :
    bPs (hData D b) (hLab L b) (hMuT M) (hM2 M) (hITau T) (hLTau T) (hLive RA RB) (hMed med) (hIStd std) r = psR D M T med std RA RB (row b r) c := by
  have hg : ∀ v : Fin 20 → EReal, gath (hLab L b (ix2 r 0)) v = v c := fun v => gath_eq_of_class _ v c hc
  have hS : bSim (hData D b) (hLab L b) (hMuT M) (hM2 M) (hLive RA RB) (hMed med) (hIStd std) r
      = simR D M med std RA RB (row b r) c := funext (bSim_eq_simR D L M med std RA RB hstd b r c hc)
  unfold bPs psR
  rw [hS, zero_sub]
  simp only [hg]
  congr 1
  refine Finset.sum_congr rfl fun k _ => ?_
  show (simR D M med std RA RB (row b r) c k * Ideal.div kOne (tau T c k) - Ideal.log (tau T c k)) * _ = _
  rw [← div_eq_mul_div_one _ _ (tau_ne_zero T c k)]

/-- Row r of block b, its label naming no class: the block's row loss is 0. -/
theorem bPs_eq_zero (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (b : Fin 64) (r : Fin 2048)
    (hc : ¬ (0 ≤ (L (ix1 (row b r))).toInt ∧ (L (ix1 (row b r))).toInt < 20)) :
    bPs (hData D b) (hLab L b) (hMuT M) (hM2 M) (hITau T) (hLTau T) (hLive RA RB) (hMed med) (hIStd std) r = 0 := by
  have hg : ∀ v : Fin 20 → EReal, gath (hLab L b (ix2 r 0)) v = 0 := fun v => gath_eq_zero _ v hc
  unfold bPs
  simp only [hg, mul_zero, sub_zero, zero_mul, Finset.sum_const_zero]

end Cert.KM

end
-- ==== Proof.Algebra.lean ====
/-
  The two forms of the loss agree when no scale std[d] is zero: lane by lane the kernel's sums over blocks and rows
  are the reference's sums over the samples of a class, and the lanes past the twentieth contribute 0.
-/
import proofs.«423493_j45861660787183_3_alg».proof.Proof.Spec
import proofs.«423493_j45861660787183_3_alg».proof.Proof.Algebra1
import Idealize.ShloMosaic.Lib.IdealHost

noncomputable section

open scoped BigOperators

namespace Cert.KM

open Idealize.ShloMosaic Idealize.ShloMosaic.ValueIdx

/-- The word 0x3F800000 denotes 1. -/
private theorem kOne_one : kOne = 1 := Ideal.ofBits_one_f32

/-- (b, r) ↦ b·2048 + r is a bijection of Fin 64 × Fin 2048 with Fin 131072: a double sum over blocks and rows
    is the sum over samples. -/
private theorem sum_row (f : Fin 131072 → EReal) :
    ∑ b : Fin 64, ∑ r : Fin 2048, f (row b r) = ∑ n : Fin 131072, f n := by
  rw [← Fintype.sum_prod_type']
  refine Fintype.sum_bijective (fun p : Fin 64 × Fin 2048 => row p.1 p.2) ?_ _ _ (fun _ => rfl)
  rw [Fintype.bijective_iff_injective_and_card]
  constructor
  · rintro ⟨b, r⟩ ⟨b', r'⟩ h
    have hb := b.isLt; have hb' := b'.isLt; have hr := r.isLt; have hr' := r'.isLt
    have h' : b.val * 2048 + r.val = b'.val * 2048 + r'.val := by
      have := congrArg Fin.val h
      simpa [row] using this
    have h1 : b.val = b'.val := by omega
    have h2 : r.val = r'.val := by omega
    exact Prod.ext (Fin.ext h1) (Fin.ext h2)
  · simp

/-- A lane's count: the number of samples whose label reads ℓ. -/
private theorem cntK_eq (L : IVec ⟨1, ![131072]⟩ 32) (ℓ : Fin 128) :
    cntK L ℓ = ∑ n : Fin 131072, (if (L (ix1 n)).toInt = (ℓ.val : ℤ) then (1 : EReal) else 0) := by
  unfold cntK cntBlk
  rw [← sum_row (fun n => if (L (ix1 n)).toInt = (ℓ.val : ℤ) then (1 : EReal) else 0)]
  refine Finset.sum_congr rfl (fun b _ => Finset.sum_congr rfl (fun r _ => ?_))
  rw [oh_eq _ _ ℓ.isLt]
  rfl

/-- A sum of 0/1-weighted terms is the sum over the samples the weight selects. -/
private theorem sum_ite_members (L : IVec ⟨1, ![131072]⟩ 32) (c : Fin 20) (g : Fin 131072 → EReal) :
    ∑ n : Fin 131072, (if (L (ix1 n)).toInt = (c.val : ℤ) then g n else 0) = ∑ n ∈ members L c, g n := by
  unfold members
  rw [Finset.sum_filter]

/-- A class lane's count is the reference's count of the class. -/
private theorem cntK_class (L : IVec ⟨1, ![131072]⟩ 32) (c : Fin 20) (h : c.val < 128) :
    cntK L ⟨c.val, h⟩ = ∑ _n ∈ members L c, kOne := by
  rw [cntK_eq, kOne_one, ← sum_ite_members L c (fun _ => 1)]

/-- A class lane's loss sum is the reference's sum over the class's samples. -/
private theorem segK_class (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (hstd : ∀ d : Fin 256, std (ix1 d) ≠ 0) (c : Fin 20) (h : c.val < 128) :
    segK D L M T med std RA RB ⟨c.val, h⟩ = ∑ n ∈ members L c, psR D M T med std RA RB n c := by
  unfold segK segBlk
  rw [← sum_ite_members L c (fun n => psR D M T med std RA RB n c),
    ← sum_row (fun n => if (L (ix1 n)).toInt = (c.val : ℤ) then psR D M T med std RA RB n c else 0)]
  refine Finset.sum_congr rfl (fun b _ => Finset.sum_congr rfl (fun r _ => ?_))
  rw [oh_eq _ _ h]
  show (if (L (ix1 (row b r))).toInt = (c.val : ℤ) then (1 : EReal) else 0) * _ = _
  by_cases hc : (L (ix1 (row b r))).toInt = (c.val : ℤ)
  · rw [if_pos hc, if_pos hc, one_mul, bPs_eq_psR D L M T med std RA RB hstd b r c hc]
  · rw [if_neg hc, if_neg hc, zero_mul]

/-- A lane past the classes sums nothing: every row it selects has a label that names no class. -/
private theorem segK_rest (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (ℓ : Fin 128) (h : 20 ≤ ℓ.val) :
    segK D L M T med std RA RB ℓ = 0 := by
  unfold segK segBlk
  refine Finset.sum_eq_zero (fun b _ => Finset.sum_eq_zero (fun r _ => ?_))
  rw [oh_eq _ _ ℓ.isLt]
  show (if (L (ix1 (row b r))).toInt = (ℓ.val : ℤ) then (1 : EReal) else 0) * _ = _
  by_cases hc : (L (ix1 (row b r))).toInt = (ℓ.val : ℤ)
  · rw [if_pos hc, one_mul]
    refine bPs_eq_zero D L M T med std RA RB b r ?_
    rw [hc]
    rintro ⟨_, h2⟩
    have : ℓ.val < 20 := by exact_mod_cast h2
    omega
  · rw [if_neg hc, zero_mul]

/-- The larger of a count and 1 is not zero. -/
private theorem max_kOne_ne_zero (x : EReal) : max x kOne ≠ 0 := by
  rw [kOne_one]
  have h1 : (0 : EReal) < max x 1 := lt_of_lt_of_le zero_lt_one (le_max_right x 1)
  exact ne_of_gt h1

theorem kLoss_eq_rLoss (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (hstd : ∀ d : Fin 256, std (ix1 d) ≠ 0) :
    kLoss D L M T med std RA RB = rLoss D L M T med std RA RB := by
  unfold kLoss rLoss
  rw [Fin.sum_univ_add (a := 20) (b := 108)
    (fun ℓ : Fin 128 => if 0 < cntK L ℓ then Ideal.div (segK D L M T med std RA RB ℓ) (max (cntK L ℓ) kOne) else 0)]
  have hrest : ∑ i : Fin 108, (fun ℓ : Fin 128 =>
      if 0 < cntK L ℓ then Ideal.div (segK D L M T med std RA RB ℓ) (max (cntK L ℓ) kOne) else 0)
        (Fin.natAdd 20 i) = 0 := by
    refine Finset.sum_eq_zero (fun i _ => ?_)
    show (if 0 < cntK L (Fin.natAdd 20 i) then
      Ideal.div (segK D L M T med std RA RB (Fin.natAdd 20 i)) (max (cntK L (Fin.natAdd 20 i)) kOne) else 0) = 0
    rw [segK_rest D L M T med std RA RB (Fin.natAdd 20 i) (by simp [Fin.natAdd]),
      Ideal.zero_div (max_kOne_ne_zero _), ite_self]
  rw [hrest, add_zero]
  refine Finset.sum_congr rfl (fun c _ => ?_)
  have hlt : c.val < 128 := by have := c.isLt; omega
  show (if 0 < cntK L ⟨c.val, hlt⟩ then
    Ideal.div (segK D L M T med std RA RB ⟨c.val, hlt⟩) (max (cntK L ⟨c.val, hlt⟩) kOne) else 0) = _
  rw [cntK_class L c hlt, segK_class D L M T med std RA RB hstd c hlt]

end Cert.KM

end
-- ==== Proof.PreDecode.lean ====
/-
  What the precondition gives the proof: no entry of the scale array is zero.
-/
import proofs.«423493_j45861660787183_3_alg».proof.Defs
import proofs.«423493_j45861660787183_3_alg».proof.Proof.Gen.Pre_finite_inputs
import Idealize.ShloMosaic.Lib.ReduceAll
import Idealize.ShloMosaic.Lib.ValueIdx
import Idealize.ShloMosaic.PureOps.Ideal.Laws

noncomputable section

namespace Cert.KM

open Idealize.ShloMosaic Idealize.ShloMosaic.ValueIdx

/-- The precondition's last conjunct is computed from the scale array alone and joined to the rest by one `and`. -/
theorem fn_eq_part2
    (a0 : FVec Ideal Cert.Pre_finite_inputs.S131072x256 .f32) (a1 : IVec Cert.Pre_finite_inputs.S131072 32)
    (a2 : FVec Ideal Cert.Pre_finite_inputs.S20x64x256 .f32) (a3 : FVec Ideal Cert.Pre_finite_inputs.S20x64 .f32)
    (a4 a5 : FVec Ideal Cert.Pre_finite_inputs.S256 .f32) (a6 : FVec Ideal Cert.Pre_finite_inputs.S20x64 .f32)
    (a7 : FVec Ideal Cert.Pre_finite_inputs.S20 .f32) :
    ∃ v : IVec Cert.Pre_finite_inputs.S_ 1,
      Cert.Pre_finite_inputs.fn (F := Ideal) a0 a1 a2 a3 a4 a5 a6 a7 = Cert.Pre_finite_inputs.fn_part2 (F := Ideal) a5 v :=
  ⟨_, rfl⟩

/-- The printed precondition, all ones, says in particular that every entry of its sixth argument is nonzero: the
    last conjunct is the `and` over all 256 entries of "entry ≠ 0". -/
theorem std_ne_zero_of_fn
    (a0 : FVec Ideal Cert.Pre_finite_inputs.S131072x256 .f32) (a1 : IVec Cert.Pre_finite_inputs.S131072 32)
    (a2 : FVec Ideal Cert.Pre_finite_inputs.S20x64x256 .f32) (a3 : FVec Ideal Cert.Pre_finite_inputs.S20x64 .f32)
    (a4 a5 : FVec Ideal Cert.Pre_finite_inputs.S256 .f32) (a6 : FVec Ideal Cert.Pre_finite_inputs.S20x64 .f32)
    (a7 : FVec Ideal Cert.Pre_finite_inputs.S20 .f32)
    (h : Cert.Pre_finite_inputs.fn (F := Ideal) a0 a1 a2 a3 a4 a5 a6 a7 = fun _ => 1#1) (d : Fin 256) :
    a5 (ix1 d) ≠ 0 := by
  obtain ⟨v, e⟩ := fn_eq_part2 a0 a1 a2 a3 a4 a5 a6 a7
  rw [e] at h
  have h0 := congrFun h ValueIdx.ix0
  unfold Cert.Pre_finite_inputs.fn_part2 at h0
  dsimp only at h0
  have h1 : Host.reduce IntOp.andi
      (cmpf CmpFPredicate.une a5
        (broadcastInDim Cert.Pre_finite_inputs.S256 ![] Cert.Pre_finite_inputs.Facts.bcast_S_S256
          (constant (F := Ideal) Cert.Pre_finite_inputs.S_ FTy.f32 0#32)))
      (constantI Cert.Pre_finite_inputs.S_ 1 1#1) Cert.Pre_finite_inputs.Facts.reducesTo_S256_S_d0
      Cert.Pre_finite_inputs.Facts.h_S_ ix0 = 1#1 := (IntOp.andi_eq_one.1 h0).2
  haveI : Subsingleton Cert.Pre_finite_inputs.S_.Idx := ⟨fun a b => funext fun x => x.elim0⟩
  have h2 := Host.reduce_andi_all _ _ _ _ ix0 h1 (ix1 d)
  intro hz
  have h3 : FloatOps.cmpf (F := Ideal) CmpFPredicate.une (a5 (ix1 d)) (Ideal.ofBits .f32 0x00000000#32) = 1#1 := h2
  rw [Ideal.cmpf_def, hz, Ideal.ofBits_zero_f32] at h3
  simp [Ideal.cmp] at h3

end Cert.KM

end
-- ==== Proof.HostPre.lean ====
/-
  The arrays the region finds, as the host operations before it leave them: each as a function of the program's
  arguments, index by index.
-/
import proofs.«423493_j45861660787183_3_alg».proof.Proof.Gen.KernelIdeal.Frame
import proofs.«423493_j45861660787183_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.HostPre

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ)

/-- The program's arguments on core c, typed as arrays of extended reals (labels: words). -/
abbrev aD (c : Dev nD) : FVec Ideal ⟨2, ![131072, 256]⟩ .f32 := m ((c : Thread nD τ).loc main_arg0)
abbrev aL (c : Dev nD) : IVec ⟨1, ![131072]⟩ 32 := m ((c : Thread nD τ).loc main_arg1)
abbrev aM (c : Dev nD) : FVec Ideal ⟨3, ![20, 64, 256]⟩ .f32 := m ((c : Thread nD τ).loc main_arg2)
abbrev aT (c : Dev nD) : FVec Ideal ⟨2, ![20, 64]⟩ .f32 := m ((c : Thread nD τ).loc main_arg3)
abbrev aMed (c : Dev nD) : FVec Ideal ⟨1, ![256]⟩ .f32 := m ((c : Thread nD τ).loc main_arg4)
abbrev aStd (c : Dev nD) : FVec Ideal ⟨1, ![256]⟩ .f32 := m ((c : Thread nD τ).loc main_arg5)
abbrev aRA (c : Dev nD) : FVec Ideal ⟨2, ![20, 64]⟩ .f32 := m ((c : Thread nD τ).loc main_arg6)
abbrev aRB (c : Dev nD) : FVec Ideal ⟨1, ![20]⟩ .f32 := m ((c : Thread nD τ).loc main_arg7)

/-- A rank-1 array of 256 recast as one row, read at an index. -/
private theorem cast_row256 {α : Type} (x : S256.Idx → α) (y : S1x256.Idx) :
    shapeCast S1x256 x shapeCasts_S256_S1x256 y = x (ix1 (y 1)) :=
  shapeCast_apply x shapeCasts_S256_S1x256 y (ix1 (y 1)) (by
    rw [Shape.rowMajor_val_one, Shape.rowMajor_val_two]
    have h0 : (y 0).val < 1 := (y 0).isLt
    show (y 1).val = (y 0).val * 256 + (y 1).val
    omega)

/-- A vector of 20 laid along the rows of a 20 × 64 rectangle reads, at (a, b), the vector at a. -/
private theorem rows20_apply {α : Type} (v : S20.Idx → α) (y : S20x64.Idx) :
    broadcastInDim S20x64 ![0, 1] bcast_S20x1_S20x64_0_1 (broadcastInDim S20x1 ![0] bcast_S20_S20x1_0 v) y = v (ix1 (y 0)) := by
  rw [broadcastInDim_apply _ bcast_S20x1_S20x64_0_1 _ y (ix2 (y 0) 0) (fun a => match a with
      | ⟨0, _⟩ => by show (y 0).val = if (20 : Nat) = 1 then 0 else (y 0).val; rw [if_neg (by decide)]
      | ⟨1, _⟩ => by show 0 = if (1 : Nat) = 1 then 0 else (y 1).val; rw [if_pos rfl])]
  exact broadcastInDim_apply _ bcast_S20_S20x1_0 v (ix2 (y 0) 0) (ix1 (y 0)) (fun a => match a with
      | ⟨0, _⟩ => by show (y 0).val = if (20 : Nat) = 1 then 0 else (y 0).val; rw [if_neg (by decide)])

/-- The 0/1 value of the bit of "x exceeds t". -/
private theorem flag_gt (x t : EReal) :
    (FloatOps.uitofp (F := Ideal) .f32 (FloatOps.cmpf (F := Ideal) (φ := .f32) .ogt x t) : EReal) = if t < x then 1 else 0 := by
  show (((Ideal.cmp .ogt x t).toNat : ℝ) : EReal) = _
  unfold Ideal.cmp
  by_cases h : t < x
  · simp [h]
  · simp [h]

/-- The flag, index by index. -/
private theorem flag_at (x t : FVec Ideal S20x64 .f32) (y : S20x64.Idx) :
    uitofp (F := Ideal) .f32 (cmpf (F := Ideal) .ogt x t) y = if t y < x y then 1 else 0 := flag_gt (x y) (t y)

/-- The live flag of centre (a, b), read off the compare-and-convert chain. -/
private theorem live_at (RA : FVec Ideal ⟨2, ![20, 64]⟩ .f32) (RB : FVec Ideal ⟨1, ![20]⟩ .f32) (y : S20x64.Idx) :
    uitofp (F := Ideal) .f32 (cmpf (F := Ideal) .ogt RA
          (broadcastInDim S20x64 ![0, 1] bcast_S20x1_S20x64_0_1 (broadcastInDim S20x1 ![0] bcast_S20_S20x1_0
            (mulf (F := Ideal) (Host.divf (F := Ideal) RB (broadcastInDim S20 ![] bcast_S_S20 (constant (F := Ideal) S_ .f32 0x42800000#32)))
              (broadcastInDim S20 ![] bcast_S_S20 (constant (F := Ideal) S_ .f32 0x3F000000#32)))))) y
      = Cert.KM.hLive RA RB y := by
  rw [flag_at, rows20_apply]
  obtain ⟨a, b, rfl⟩ : ∃ a b, y = ix2 a b := ⟨y 0, y 1, eq_ix2 y⟩
  show _ = if Cert.KM.live RA RB a b then 1 else 0
  by_cases h : Cert.KM.live RA RB a b
  · rw [if_pos h]; exact if_pos h
  · rw [if_neg h]; exact if_neg h

theorem V_data (c : Dev nD) : (V m c main_arg0 : S131072x256.Idx → EReal) = aD m c := by
  exact V_main_arg0 m c

theorem V_labels (c : Dev nD) : (V m c main_v29 : S131072x1.Idx → BitVec 32) = fun y => aL m c (ix1 (y 0)) := by
  have e : (V m c main_v29 : S131072x1.Idx → BitVec 32) = shapeCast _ (aL m c) shapeCasts_S131072_S131072x1 := by
    show StableHlo.after hostOps0 (fun b => m (c, b)) (Proc.devRef .tc main_v29) = _
    after_results_simp <;> rfl
  rw [e]
  funext y
  exact shapeCast_apply (aL m c) shapeCasts_S131072_S131072x1 y (ix1 (y 0)) (by
    rw [Shape.rowMajor_val_one, Shape.rowMajor_val_two]
    have h1 : (y 1).val < 1 := (y 1).isLt
    show (y 0).val = (y 0).val * 1 + (y 1).val
    omega)

/-- The centres as 1280 rows of 256: row j is centre (j / 64, j % 64). -/
private theorem rows_apply {α : Type} (M : S20x64x256.Idx → α) (j : Fin 1280) (d : Fin 256) :
    shapeCast S1280x256 M shapeCasts_S20x64x256_S1280x256 (ix2 j d)
      = M (ix3 ⟨j.val / 64, by have := j.isLt; omega⟩ ⟨j.val % 64, Nat.mod_lt _ (by decide)⟩ d) :=
  shapeCast_apply M shapeCasts_S20x64x256_S1280x256 _ _ (by
    rw [Shape.rowMajor_val_three, Shape.rowMajor_val_two]
    have hj := j.isLt
    show (j.val / 64 * 64 + j.val % 64) * 256 + d.val = j.val * 256 + d.val
    omega)

/-- The transposed, narrowed copy of those rows, read at (d, j). -/
private theorem muT_at (M : FVec Ideal ⟨3, ![20, 64, 256]⟩ .f32) (y : S256x1280.Idx) :
    (truncf (F := Ideal) .bf16 (transpose S256x1280 [1, 0] (shapeCast S1280x256 M shapeCasts_S20x64x256_S1280x256)
        transposes_S1280x256_S256x1280_1_0) bitsLt_bf16_f32 : FVec Ideal S256x1280 .bf16) y = Cert.KM.hMuT M y := by
  rw [truncf_apply]
  rw [transpose_apply [1, 0] _ transposes_S1280x256_S256x1280_1_0 y (ix2 (y 1) (y 0)) (fun b => match b with
    | ⟨0, _⟩ => rfl
    | ⟨1, _⟩ => rfl)]
  exact rows_apply M (y 1) (y 0)

/-- The row sums of squares of those rows, laid as one row of 1280, read at (0, j). -/
private theorem m2_at (M : FVec Ideal ⟨3, ![20, 64, 256]⟩ .f32) (y : S1x1280.Idx) :
    broadcastInDim S1x1280 ![1] bcast_S1280_S1x1280_1
      (Host.reduceAdd (F := Ideal)
        (mulf (F := Ideal) (shapeCast S1280x256 M shapeCasts_S20x64x256_S1280x256) (shapeCast S1280x256 M shapeCasts_S20x64x256_S1280x256))
        (constant (F := Ideal) S_ .f32 0x00000000#32) reducesTo_S1280x256_S1280_d1 h_S_) y
      = Cert.KM.hM2 M y := by
  rw [broadcastInDim_apply _ bcast_S1280_S1x1280_1 _ y (ix1 (y 1)) (fun a => match a with
    | ⟨0, _⟩ => by show (y 1).val = if (1280 : Nat) = 1 then 0 else (y 1).val; rw [if_neg (by decide)])]
  have hR : S1280x256.Reduces [1] S1280 := by decide
  simp only [Host.reduceAdd, Ideal.hostReduceAdd_def]
  rw [Ideal.hostReduceAdd_single reducesTo_S1280x256_S1280_d1 hR]
  show Ideal.ofBits .f32 0x00000000#32 + _ = Cert.KM.m2 M _ _
  rw [Ideal.ofBits_zero_f32, zero_add]
  unfold Cert.KM.m2
  refine Finset.sum_congr rfl fun (k : Fin 256) _ => ?_
  have hk : hR.lift (ix1 (y 1)) k = (ix2 (⟨(y 1).val, idx2_lt1 y⟩ : Fin 1280) (k : Fin 256) : S1280x256.Idx) :=
    funext fun a => Fin.ext (by match a with | ⟨0, _⟩ => rfl | ⟨1, _⟩ => rfl)
  rw [mulf_apply, hk]
  have h1 := rows_apply M (⟨(y 1).val, idx2_lt1 y⟩ : Fin 1280) k
  exact congrArg₂ (· * ·) h1 h1

theorem V_muT (c : Dev nD) : (V m c main_v2 : S256x1280.Idx → EReal) = Cert.KM.hMuT (aM m c) := by
  have e : (V m c main_v2 : S256x1280.Idx → EReal)
      = (truncf (F := Ideal) .bf16 (transpose S256x1280 [1, 0] (shapeCast S1280x256 (aM m c) shapeCasts_S20x64x256_S1280x256)
        transposes_S1280x256_S256x1280_1_0) bitsLt_bf16_f32 : FVec Ideal S256x1280 .bf16) := by
    show StableHlo.after hostOps0 (fun b => m (c, b)) (Proc.devRef .tc main_v2) = _
    after_results_simp <;> rfl
  rw [e]
  funext y
  exact muT_at _ y

theorem V_m2 (c : Dev nD) : (V m c main_v5 : S1x1280.Idx → EReal) = Cert.KM.hM2 (aM m c) := by
  have e : (V m c main_v5 : S1x1280.Idx → EReal)
      = broadcastInDim S1x1280 ![1] bcast_S1280_S1x1280_1
          (Host.reduceAdd (F := Ideal)
            (mulf (F := Ideal) (shapeCast S1280x256 (aM m c) shapeCasts_S20x64x256_S1280x256)
              (shapeCast S1280x256 (aM m c) shapeCasts_S20x64x256_S1280x256))
            (constant (F := Ideal) S_ .f32 0x00000000#32) reducesTo_S1280x256_S1280_d1 h_S_) := by
    show StableHlo.after hostOps0 (fun b => m (c, b)) (Proc.devRef .tc main_v5) = _
    after_results_simp <;> rfl
  rw [e]
  funext y
  exact m2_at _ y

/-- A constant word laid over the 20 × 64 rectangle. -/
private abbrev bc (w : BitVec 32) : FVec Ideal S20x64 .f32 :=
  broadcastInDim S20x64 ![] bcast_S_S20x64 (constant (F := Ideal) S_ .f32 w)

/-- τ as the host operations compute it: 1 / (1 + exp (−(T / 2))) · 100 + 0.01, elementwise. -/
private abbrev tauH (T : FVec Ideal S20x64 .f32) : FVec Ideal S20x64 .f32 :=
  addf (F := Ideal)
    (mulf (F := Ideal)
      (Host.divf (F := Ideal) (bc 0x3F800000#32)
        (addf (F := Ideal) (bc 0x3F800000#32)
          (Host.exp (F := Ideal) (Host.negf (F := Ideal) (Host.divf (F := Ideal) T (bc 0x40000000#32))))))
      (bc 0x42C80000#32))
    (bc 0x3C23D70A#32)

/-- τ elementwise is the τ of the statement. -/
private theorem tauH_at (T : FVec Ideal ⟨2, ![20, 64]⟩ .f32) (y : S20x64.Idx) :
    tauH T y = Cert.KM.tau T (y 0) (y 1) := by
  obtain ⟨a, b, rfl⟩ : ∃ a b, y = ix2 a b := ⟨y 0, y 1, eq_ix2 y⟩
  rfl

theorem V_itau (c : Dev nD) : (V m c main_v19 : S20x64.Idx → EReal) = Cert.KM.hITau (aT m c) := by
  have e : (V m c main_v19 : S20x64.Idx → EReal)
      = Host.divf (F := Ideal) (bc 0x3F800000#32) (tauH (aT m c)) := by
    show StableHlo.after hostOps0 (fun b => m (c, b)) (Proc.devRef .tc main_v19) = _
    after_results_simp
  rw [e]
  funext y
  show Ideal.div Cert.KM.kOne (tauH (aT m c) y) = Ideal.div Cert.KM.kOne (Cert.KM.tau (aT m c) (y 0) (y 1))
  rw [tauH_at]

theorem V_ltau (c : Dev nD) : (V m c main_v20 : S20x64.Idx → EReal) = Cert.KM.hLTau (aT m c) := by
  have e : (V m c main_v20 : S20x64.Idx → EReal) = Host.log (F := Ideal) (tauH (aT m c)) := by
    show StableHlo.after hostOps0 (fun b => m (c, b)) (Proc.devRef .tc main_v20) = _
    after_results_simp
  rw [e]
  funext y
  show Ideal.log (tauH (aT m c) y) = Ideal.log (Cert.KM.tau (aT m c) (y 0) (y 1))
  rw [tauH_at]

theorem V_live (c : Dev nD) : (V m c main_v28 : S20x64.Idx → EReal) = Cert.KM.hLive (aRA m c) (aRB m c) := by
  have e : (V m c main_v28 : S20x64.Idx → EReal)
      = uitofp (F := Ideal) .f32 (cmpf (F := Ideal) .ogt (aRA m c)
          (broadcastInDim S20x64 ![0, 1] bcast_S20x1_S20x64_0_1 (broadcastInDim S20x1 ![0] bcast_S20_S20x1_0
            (mulf (F := Ideal) (Host.divf (F := Ideal) (aRB m c) (broadcastInDim S20 ![] bcast_S_S20 (constant (F := Ideal) S_ .f32 0x42800000#32)))
              (broadcastInDim S20 ![] bcast_S_S20 (constant (F := Ideal) S_ .f32 0x3F000000#32)))))) := by
    show StableHlo.after hostOps0 (fun b => m (c, b)) (Proc.devRef .tc main_v28) = _
    after_results_simp <;> rfl
  rw [e]
  funext y
  exact live_at _ _ y

theorem V_med (c : Dev nD) : (V m c main_v30 : S1x256.Idx → EReal) = Cert.KM.hMed (aMed m c) := by
  have e : (V m c main_v30 : S1x256.Idx → EReal) = shapeCast _ (aMed m c) shapeCasts_S256_S1x256 := by
    show StableHlo.after hostOps0 (fun b => m (c, b)) (Proc.devRef .tc main_v30) = _
    after_results_simp <;> rfl
  rw [e]
  funext y
  exact cast_row256 _ y

theorem V_istd (c : Dev nD) : (V m c main_v33 : S1x256.Idx → EReal) = Cert.KM.hIStd (aStd m c) := by
  have e : (V m c main_v33 : S1x256.Idx → EReal)
      = shapeCast _ (Host.divf (F := Ideal) (broadcastInDim S256 ![] bcast_S_S256 (constant (F := Ideal) S_ .f32 0x3F800000#32)) (aStd m c))
          shapeCasts_S256_S1x256 := by
    show StableHlo.after hostOps0 (fun b => m (c, b)) (Proc.devRef .tc main_v33) = _
    after_results_simp <;> rfl
  rw [e]
  funext y
  rw [cast_row256]
  rfl

end Cert.KernelIdeal.HostPre

end
-- ==== Proof.Body10.lean ====
/-
  One grid point of the kernel, read as values: what the body leaves in its block of per-lane counts, as a function of the
  block of labels, lane by lane.
-/
import proofs.«423493_j45861660787183_3_alg».proof.Proof.Gen.KernelIdeal.Frame
import proofs.«423493_j45861660787183_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.BodyCount

open Idealize.ShloMosaic Idealize.ShloMosaic.TcCoe Idealize.ShloMosaic.Tactic Idealize.ShloMosaic.ValueIdx
open Idealize.SL Idealize.SL.Sem
open Cert.KernelIdeal Cert.KernelIdeal.Gen

private theorem hz3 : (![0, 0, 0] : Fin 3 → Nat) = fun _ => 0 := funext fun a => by fin_cases a <;> rfl
private theorem hz2 : (![0, 0] : Fin 2 → Nat) = fun _ => 0 := funext fun a => by fin_cases a <;> rfl

section Piece
variable {F : FTy → Type} [FloatOps F]

/-- The store that covers the block of counts writes the column sums of the 0/1 array made from the labels. -/
theorem out10_pay (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S256x1280 .bf16) (harg3 : arg3.IsWhole) (arg4 : Memref sig .tc .vmem S1x1280 .f32) (harg4 : arg4.IsWhole) (arg5 : Memref sig .tc .vmem S20x64 .f32) (harg5 : arg5.IsWhole) (arg6 : Memref sig .tc .vmem S20x64 .f32) (harg6 : arg6.IsWhole) (arg7 : Memref sig .tc .vmem S20x64 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S2048x1280 .f32) (harg12 : arg12.IsWhole)
    (x0 : Vec F S2048x256 .f32) (x1 : Vec F S2048x1 .i32) (x2 : Vec F S256x1280 .bf16) (x3 : Vec F S1x1280 .f32) (x4 : Vec F S20x64 .f32) (x5 : Vec F S20x64 .f32) (x6 : Vec F S20x64 .f32) (x7 : Vec F S1x256 .f32) (x8 : Vec F S1x256 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = k0_pay124 (k0_pay4 x1) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz3]
  simp only [View.readAt_eq_ld, harg2.read_unread, View.ld_unit_zero (S := S2048x1) hz2]
end Piece

/-- The weight of a label word for a lane, from the kernel's words: the equality test's bit, widened and converted. -/
theorem oh_of_bit (w : BitVec 32) (n : ℕ) :
    (FloatOps.sitofp (F := Ideal) .f32 ((IntOp.cmpi .eq w (BitVec.ofNat 32 n)).setWidth 32) : EReal) = Cert.KM.oh w n := by
  show ((((IntOp.cmpi .eq w (BitVec.ofNat 32 n)).setWidth 32).toInt : ℝ) : EReal) = Cert.KM.oh w n
  unfold Cert.KM.oh IntOp.cmpi
  by_cases h : w = BitVec.ofNat 32 n
  · rw [if_pos h]
    subst h
    simp
  · rw [if_neg h]
    have : (w == BitVec.ofNat 32 n) = false := by simpa using h
    simp [this]

/-- One entry of the 0/1 array: row r, lane ℓ holds 1 when row r's label word is ℓ, else 0. -/
theorem pay4_apply (x1 : Vec Ideal S2048x1 .i32) (r : Fin 2048) (ℓ : Fin 128) :
    k0_pay4 (F := Ideal) x1 (ix2 r ℓ) = Cert.KM.oh (x1 (ix2 r 0)) ℓ.val := by
  unfold k0_pay4
  show FloatOps.sitofp (F := Ideal) .f32 ((IntOp.cmpi .eq
      (broadcastTo S2048x128 (shapeCast S2048x1 x1 shapeCasts_S2048x1_S2048x1) broadcasts_S2048x1_S2048x128 (ix2 r ℓ))
      (iota Kind.tc S2048x128 32 [1] iota_S2048x128_d1_w32 (ix2 r ℓ))).setWidth 32) = _
  have e1 : broadcastTo S2048x128 (shapeCast S2048x1 x1 shapeCasts_S2048x1_S2048x1) broadcasts_S2048x1_S2048x128 (ix2 r ℓ)
      = x1 (ix2 r 0) := by
    refine (broadcastTo_apply _ _ (ix2 r ℓ) (ix2 r (0 : Fin 1)) fun a => ?_).trans ?_
    · match a with
      | ⟨0, _⟩ => rfl
      | ⟨1, _⟩ => rfl
    · rw [shapeCast_self]
  have e2 : iota Kind.tc S2048x128 32 [1] iota_S2048x128_d1_w32 (ix2 r ℓ) = BitVec.ofNat 32 ℓ.val :=
    iota_single_apply _ _ _ _ _ _
  rw [e1, e2]
  exact oh_of_bit _ _

/-- The column sums, stored as a block of one row of one row of 128 lanes: lane ℓ is the sum of column ℓ. -/
theorem pay124_apply (v : FVec Ideal S2048x128 .f32) (a b : Fin 1) (ℓ : Fin 128) :
    k0_pay124 (F := Ideal) v (ix3 a b ℓ) = ∑ r : Fin 2048, v (ix2 r ℓ) := by
  unfold k0_pay124
  refine (shapeCast_addUnit_apply ![1, 128] _ _ (ix3 a b ℓ)).trans ?_
  refine (shapeCast_addUnit_apply ![128] _ _ _).trans ?_
  refine (Ideal.multiReduction_add_single v 0x00000000#32 reduces_S2048x128_S128 (.inl rfl) rfl _).trans ?_
  refine Finset.sum_congr rfl fun r _ => congrArg v ?_
  funext d
  match d with
  | ⟨0, _⟩ => rfl
  | ⟨1, _⟩ => rfl

/-- The block of per-lane counts: lane ℓ holds the number of the block's rows labelled ℓ. -/
theorem out10_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S256x1280 .bf16) (harg3 : arg3.IsWhole) (arg4 : Memref sig .tc .vmem S1x1280 .f32) (harg4 : arg4.IsWhole) (arg5 : Memref sig .tc .vmem S20x64 .f32) (harg5 : arg5.IsWhole) (arg6 : Memref sig .tc .vmem S20x64 .f32) (harg6 : arg6.IsWhole) (arg7 : Memref sig .tc .vmem S20x64 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S2048x1280 .f32) (harg12 : arg12.IsWhole)
    (x0 : Vec Ideal S2048x256 .f32) (x1 : Vec Ideal S2048x1 .i32) (x2 : Vec Ideal S256x1280 .bf16) (x3 : Vec Ideal S1x1280 .f32) (x4 : Vec Ideal S20x64 .f32) (x5 : Vec Ideal S20x64 .f32) (x6 : Vec Ideal S20x64 .f32) (x7 : Vec Ideal S1x256 .f32) (x8 : Vec Ideal S1x256 .f32) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = fun y => Cert.KM.cntBlk x1 (y 2) := by
  rw [out10_pay]
  funext y
  obtain ⟨a, b, ℓ, rfl⟩ : ∃ (a b : Fin 1) (ℓ : Fin 128), y = ix3 a b ℓ := ⟨y 0, y 1, y 2, eq_ix3 y⟩
  show _ = Cert.KM.cntBlk x1 ℓ
  rw [pay124_apply]
  unfold Cert.KM.cntBlk
  exact Finset.sum_congr rfl fun r _ => pay4_apply x1 r ℓ

end Cert.KernelIdeal.BodyCount

end
-- ==== Proof.BodyTail.lean ====
/-
  The last stretch of the kernel body, read as values for arbitrary class-selected pieces: the mask by the selected
  flag, the softmax over the 64 clusters, the weighted row sum, and the sum down the block's 2048 rows.
-/
import proofs.«423493_j45861660787183_3_alg».proof.Proof.Gen.KernelIdeal.Frame
import proofs.«423493_j45861660787183_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.BodyTail

open Idealize.ShloMosaic Idealize.ShloMosaic.TcCoe Idealize.ShloMosaic.Tactic Idealize.ShloMosaic.ValueIdx
open Idealize.SL Idealize.SL.Sem
open Cert.KernelIdeal Cert.KernelIdeal.Gen

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Small readings at an index -/

/-- A float compare "greater than" feeding a select is an `if` on the order. -/
theorem select_ogt (a b x y : EReal) :
    Scalar.select (FloatOps.cmpf (F := Ideal) (φ := .f32) CmpFPredicate.ogt a b) x y = if b < a then x else y := by
  rw [Ideal.cmpf_def]
  unfold Ideal.cmp
  by_cases h : b < a
  · simp only [h, decide_true, if_true]; exact select_one x y
  · simp only [h, decide_false, if_false]; exact select_zero x y

/-- Inserting the reduced coordinate k into row r gives the entry (r, k). -/
theorem lift_row (h : S2048x64.Reduces [1] S2048) (r : Fin 2048) (k : Fin 64) : h.lift (ix1 r) k = ix2 r k := by
  funext a; refine Fin.ext ?_
  match a with
  | ⟨0, _⟩ => rfl
  | ⟨1, _⟩ => rfl

/-- Inserting the reduced coordinate r into lane ℓ gives the entry (r, ℓ). -/
theorem lift_col (h : S2048x128.Reduces [0] S128) (ℓ : Fin 128) (r : Fin 2048) : h.lift (ix1 ℓ) r = ix2 r ℓ := by
  funext a; refine Fin.ext ?_
  match a with
  | ⟨0, _⟩ => rfl
  | ⟨1, _⟩ => rfl

/-- A sum along a row, kept as a column: entry (r, 0) holds row r's sum. -/
theorem rowSum_col (w : FVec Ideal S2048x64 .f32) (h : S2048x64.Reduces [1] S2048) (hφ : FKind.Formats .f32)
    (hacc : (0x00000000#32 : BitVec 32) = 0x00000000#32) (hc : S2048.ShapeCasts S2048x1) (r : Fin 2048) (u : Fin 1) :
    shapeCast S2048x1 (multiReduction .add [1] S2048 w 0x00000000#32 h hφ hacc) hc (ix2 r u)
      = ∑ k' : Fin 64, w (ix2 r k') :=
  (shapeCast_a_a1_apply _ hc r u).trans
    ((Ideal.multiReduction_add_single w 0x00000000#32 h hφ hacc (ix1 r)).trans
      (Finset.sum_congr rfl fun k' _ => congrArg w (lift_row h r k')))

/-- That column broadcast back over the row: every entry of row r holds the row's sum. -/
theorem rowSum_bcast (w : FVec Ideal S2048x64 .f32) (h : S2048x64.Reduces [1] S2048) (hφ : FKind.Formats .f32)
    (hacc : (0x00000000#32 : BitVec 32) = 0x00000000#32) (hc : S2048.ShapeCasts S2048x1)
    (hb : S2048x1.Broadcasts S2048x64) (r : Fin 2048) (k : Fin 64) :
    broadcastTo S2048x64 (shapeCast S2048x1 (multiReduction .add [1] S2048 w 0x00000000#32 h hφ hacc) hc) hb (ix2 r k)
      = ∑ k' : Fin 64, w (ix2 r k') :=
  (broadcastTo_a1_ab_apply _ hb r k).trans (rowSum_col w h hφ hacc hc r 0)

/-- The same for a maximum along a row, from −∞. -/
theorem rowMax_bcast (w : FVec Ideal S2048x64 .f32) (h : S2048x64.Reduces [1] S2048) (hφ : FKind.Formats .f32)
    (hacc : (0xFF800000#32 : BitVec 32) = 0xFF800000#32) (hc : S2048.ShapeCasts S2048x1)
    (hb : S2048x1.Broadcasts S2048x64) (r : Fin 2048) (k : Fin 64) :
    broadcastTo S2048x64 (shapeCast S2048x1 (multiReduction .maximumf [1] S2048 w 0xFF800000#32 h hφ hacc) hc) hb (ix2 r k)
      = (Finset.univ : Finset (Fin 64)).fold max ⊥ (fun k' => w (ix2 r k')) := by
  refine (broadcastTo_a1_ab_apply _ hb r k).trans ((shapeCast_a_a1_apply _ hc r 0).trans
    ((Ideal.multiReduction_maximumf_single w 0xFF800000#32 h hφ hacc (ix1 r)).trans ?_))
  have e : (FloatOps.ofBits (F := Ideal) .f32 0xFF800000#32 : EReal) = ⊥ := by
    show Ideal.ofBits .f32 0xFF800000#32 = ⊥
    simp [Ideal.ofBits, Ideal.ieee]
  rw [e]
  exact congrArg (fun f => (Finset.univ : Finset (Fin 64)).fold max ⊥ f) (funext fun k' => congrArg w (lift_row h r k'))

/-- A sum down a lane: entry ℓ holds the sum of column ℓ over the 2048 rows. -/
theorem colSum_apply (w : FVec Ideal S2048x128 .f32) (h : S2048x128.Reduces [0] S128) (hφ : FKind.Formats .f32)
    (hacc : (0x00000000#32 : BitVec 32) = 0x00000000#32) (ℓ : Fin 128) :
    multiReduction .add [0] S128 w 0x00000000#32 h hφ hacc (ix1 ℓ) = ∑ r : Fin 2048, w (ix2 r ℓ) :=
  (Ideal.multiReduction_add_single w 0x00000000#32 h hφ hacc (ix1 ℓ)).trans
    (Finset.sum_congr rfl fun r _ => congrArg w (lift_col h ℓ r))

/-- The masked similarity at (r, k): where the selected flag exceeds one half, minus the root of the clamped squared
    distance, scaled; elsewhere the fill. -/
theorem sim_apply (v602 v615 : FVec Ideal S2048x64 .f32) (r : Fin 2048) (k : Fin 64) :
    (select (cmpf CmpFPredicate.ogt v602 (broadcast S2048x64 (FloatOps.ofBits (F := Ideal) FTy.f32 0x3F000000#32)))
      (mulf (subf (broadcast S2048x64 (FloatOps.ofBits (F := Ideal) FTy.f32 0x00000000#32))
          (sqrt (maximumf v615 (broadcast S2048x64 (FloatOps.ofBits (F := Ideal) FTy.f32 0x00000000#32)))))
        (broadcast S2048x64 (FloatOps.ofBits (F := Ideal) FTy.f32 0x40C80000#32)))
      (broadcast S2048x64 (FloatOps.ofBits (F := Ideal) FTy.f32 0xD368D4A5#32)) : FVec Ideal S2048x64 .f32) (ix2 r k)
    = if Cert.KM.kHalf < v602 (ix2 r k) then Cert.KM.dist (v615 (ix2 r k)) else Cert.KM.kNeg := by
  rw [select_apply, cmpf_apply, broadcast_apply, broadcast_apply, select_ogt]
  unfold Cert.KM.dist Cert.KM.kHalf Cert.KM.kNeg Cert.KM.kScale
  simp only [mulf_apply, subf_apply, broadcast_apply, maximumf_apply, sqrt, Ideal.ofBits_def, Ideal.sqrt_def,
    Ideal.ofBits_zero_f32]

/-- The stored block of loss sums, lane ℓ, for ANY class-selected pieces: the sum over the block's rows of the row's
    lane weight times the row's loss, the row's similarities masked by the selected flag. -/
theorem pay123_apply (v25 : FVec Ideal S2048x128 .f32) (v602 v606 v610 v615 : FVec Ideal S2048x64 .f32) (ℓ : Fin 128) :
    k0_pay123 (F := Ideal) v25 v602 v606 v610 v615 (k0_pay122 (F := Ideal)) (ix3 0 0 ℓ)
      = ∑ r : Fin 2048, v25 (ix2 r ℓ) *
          (0 - ∑ k : Fin 64,
            ((if Cert.KM.kHalf < v602 (ix2 r k) then Cert.KM.dist (v615 (ix2 r k)) else Cert.KM.kNeg) * v606 (ix2 r k)
                - v610 (ix2 r k))
              * Cert.KM.softW (fun k' => if Cert.KM.kHalf < v602 (ix2 r k') then Cert.KM.dist (v615 (ix2 r k')) else Cert.KM.kNeg) k) := by
  unfold k0_pay123 k0_pay122
  dsimp only
  rw [shapeCast_ab_1ab_apply, shapeCast_a_1a_apply]
  have hS := sim_apply v602 v615
  generalize (select (cmpf CmpFPredicate.ogt v602 (broadcast S2048x64 (FloatOps.ofBits (F := Ideal) FTy.f32 0x3F000000#32)))
      (mulf (subf (broadcast S2048x64 (FloatOps.ofBits (F := Ideal) FTy.f32 0x00000000#32))
          (sqrt (maximumf v615 (broadcast S2048x64 (FloatOps.ofBits (F := Ideal) FTy.f32 0x00000000#32)))))
        (broadcast S2048x64 (FloatOps.ofBits (F := Ideal) FTy.f32 0x40C80000#32)))
      (broadcast S2048x64 (FloatOps.ofBits (F := Ideal) FTy.f32 0xD368D4A5#32)) : FVec Ideal S2048x64 .f32) = S at hS ⊢
  have hMx : ∀ (r : Fin 2048) (k : Fin 64), (broadcastTo S2048x64 (shapeCast S2048x1 (multiReduction FKind.maximumf [1] S2048
        (mulf (broadcast S2048x64 (FloatOps.ofBits (F := Ideal) FTy.f32 0x3F000000#32)) S) 0xFF800000#32
        Facts₀.reduces_S2048x64_S2048 (.inl rfl) rfl) Facts₀.shapeCasts_S2048_S2048x1) Facts₀.broadcasts_S2048x1_S2048x64
      : FVec Ideal S2048x64 .f32) (ix2 r k)
      = (Finset.univ : Finset (Fin 64)).fold max ⊥
          (fun k' => (mulf (broadcast S2048x64 (FloatOps.ofBits (F := Ideal) FTy.f32 0x3F000000#32)) S) (ix2 r k')) :=
    fun r k => rowMax_bcast _ _ _ _ _ _ r k
  generalize (broadcastTo S2048x64 (shapeCast S2048x1 (multiReduction FKind.maximumf [1] S2048
        (mulf (broadcast S2048x64 (FloatOps.ofBits (F := Ideal) FTy.f32 0x3F000000#32)) S) 0xFF800000#32
        Facts₀.reduces_S2048x64_S2048 (.inl rfl) rfl) Facts₀.shapeCasts_S2048_S2048x1) Facts₀.broadcasts_S2048x1_S2048x64
      : FVec Ideal S2048x64 .f32) = Mx at hMx ⊢
  refine (colSum_apply _ _ _ _ ℓ).trans (Finset.sum_congr rfl fun r _ => ?_)
  rw [mulf_apply, broadcastTo_a1_ab_apply, subf_apply, broadcast_apply, rowSum_col, Ideal.ofBits_def, Ideal.ofBits_zero_f32]
  congr 2
  refine Finset.sum_congr rfl fun k _ => ?_
  rw [mulf_apply, subf_apply, mulf_apply, divf_apply, rowSum_bcast]
  unfold Cert.KM.softW Cert.KM.rowMax
  simp only [Idealize.ShloMosaic.exp, subf_apply, hMx, mulf_apply, broadcast_apply, hS, Ideal.exp_def, Ideal.ofBits_def,
    Cert.KM.kHalf]

end Cert.KernelIdeal.BodyTail

end
-- ==== Proof.BodyAux.lean ====
/-
  One grid point of the kernel, read as values: the normalised block, its rows' sums of squares, and its product with the
  matrix of centres, each read at one index as the specification's sum.
-/
import proofs.«423493_j45861660787183_3_alg».proof.Proof.Gen.KernelIdeal.Frame
import proofs.«423493_j45861660787183_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.BodyAux

open Idealize.ShloMosaic Idealize.ShloMosaic.TcCoe Idealize.ShloMosaic.Tactic Idealize.ShloMosaic.ValueIdx
open Idealize.SL Idealize.SL.Sem
open Cert.KernelIdeal Cert.KernelIdeal.Gen

/-! ## The normalised block -/

/-- Entry (r, d) of the normalised block: the datum less the median, times the stored reciprocal of the scale. -/
theorem pay1_apply (x0 : Vec Ideal S2048x256 .f32) (x7 x8 : Vec Ideal S1x256 .f32) (r : Fin 2048) (d : Fin 256) :
    k0_pay1 (F := Ideal) x0 x7 x8 (ix2 r d) = Cert.KM.bX x0 x7 x8 r d := by
  unfold k0_pay1 Cert.KM.bX
  show (x0 (ix2 r d) - broadcastTo S2048x256 (shapeCast S1x256 x7 shapeCasts_S1x256_S1x256) broadcasts_S1x256_S2048x256 (ix2 r d))
      * broadcastTo S2048x256 (shapeCast S1x256 x8 shapeCasts_S1x256_S1x256) broadcasts_S1x256_S2048x256 (ix2 r d) = _
  rw [broadcastTo_1b_ab_apply, broadcastTo_1b_ab_apply, shapeCast_self, shapeCast_self]

/-! ## The rows' sums of squares -/

/-- Row r of the column of sums of squares: the sum over d of the normalised entry's square. -/
theorem pay3_apply (x0 : Vec Ideal S2048x256 .f32) (x7 x8 : Vec Ideal S1x256 .f32) (r : Fin 2048) :
    k0_pay3 (F := Ideal) x0 x7 x8 (ix2 r 0) = Cert.KM.bX2 x0 x7 x8 r := by
  unfold k0_pay3 Cert.KM.bX2
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ 0x00000000#32 reduces_S2048x256_S2048 (.inl rfl) rfl (ix1 r)).trans ?_
  refine Finset.sum_congr rfl fun (d : Fin 256) _ => ?_
  have e : reduces_S2048x256_S2048.lift (ix1 r) d = ix2 r d := by
    funext a
    match a with
    | ⟨0, _⟩ => rfl
    | ⟨1, _⟩ => rfl
  rw [e]
  show k0_pay1 (F := Ideal) x0 x7 x8 (ix2 r d) * k0_pay1 (F := Ideal) x0 x7 x8 (ix2 r d) = _
  rw [pay1_apply]

/-! ## The product with the matrix of centres -/

theorem lhs_pay2_0 (i : S2048x1280.Idx) (q : dot_S2048x256_S256x1280_S2048x1280_1_0_0_1_n_n.contr.Idx) :
    (dot_S2048x256_S256x1280_S2048x1280_1_0_0_1_n_n.lhsIdx i q 0).val = (i 0).val := by
  unfold DotDims.lhsIdx
  rw [dif_neg (show ¬(0 : Fin S2048x256.rank) ∈ dot_S2048x256_S256x1280_S2048x1280_1_0_0_1_n_n.lhsBatch by decide), dif_pos (show (0 : Fin S2048x256.rank) ∈ dot_S2048x256_S256x1280_S2048x1280_1_0_0_1_n_n.lhsNonContracting by decide)]
  rfl
theorem lhs_pay2_1 (i : S2048x1280.Idx) (q : dot_S2048x256_S256x1280_S2048x1280_1_0_0_1_n_n.contr.Idx) :
    (dot_S2048x256_S256x1280_S2048x1280_1_0_0_1_n_n.lhsIdx i q 1).val = (q ⟨0, by decide⟩).val :=
  dot_S2048x256_S256x1280_S2048x1280_1_0_0_1_n_n.lhsIdx_val_of_single rfl i q
theorem rhs_pay2_0 (i : S2048x1280.Idx) (q : dot_S2048x256_S256x1280_S2048x1280_1_0_0_1_n_n.contr.Idx) :
    (dot_S2048x256_S256x1280_S2048x1280_1_0_0_1_n_n.rhsIdx i q 0).val = (q ⟨0, by decide⟩).val :=
  dot_S2048x256_S256x1280_S2048x1280_1_0_0_1_n_n.rhsIdx_val_of_single rfl i q
theorem rhs_pay2_1 (i : S2048x1280.Idx) (q : dot_S2048x256_S256x1280_S2048x1280_1_0_0_1_n_n.contr.Idx) :
    (dot_S2048x256_S256x1280_S2048x1280_1_0_0_1_n_n.rhsIdx i q 1).val = (i 1).val := by
  unfold DotDims.rhsIdx
  rw [dif_neg (show ¬(1 : Fin S256x1280.rank) ∈ dot_S2048x256_S256x1280_S2048x1280_1_0_0_1_n_n.rhsBatch by decide), dif_pos (show (1 : Fin S256x1280.rank) ∈ dot_S2048x256_S256x1280_S2048x1280_1_0_0_1_n_n.rhsNonContracting by decide)]
  rfl

/-- Entry (r, j) of the product: the sum over d of the normalised entry (r, d) times entry (d, j) of the centre matrix. -/
theorem pay2_apply (x0 : Vec Ideal S2048x256 .f32) (x7 x8 : Vec Ideal S1x256 .f32) (x2 : Vec Ideal S256x1280 .bf16) (r : Fin 2048) (j : Fin 1280) :
    k0_pay2 (F := Ideal) x0 x7 x8 x2 (ix2 r j) = Cert.KM.bDot x0 x2 x7 x8 r j := by
  unfold k0_pay2 Cert.KM.bDot
  rw [shapeCast_self]
  refine (Ideal.matmul_constant_zero_apply dot_S2048x256_S256x1280_S2048x1280_1_0_0_1_n_n none _ _ (ix2 r j)).trans ?_
  rw [← Equiv.sum_comp (contrEquiv1 dot_S2048x256_S256x1280_S2048x1280_1_0_0_1_n_n 256 rfl rfl).symm]
  refine Finset.sum_congr rfl fun k _ => ?_
  have hk := contrEquiv1_symm_val dot_S2048x256_S256x1280_S2048x1280_1_0_0_1_n_n 256 rfl rfl k
  have el : dot_S2048x256_S256x1280_S2048x1280_1_0_0_1_n_n.lhsIdx (ix2 r j) ((contrEquiv1 dot_S2048x256_S256x1280_S2048x1280_1_0_0_1_n_n 256 rfl rfl).symm k) = ix2 r k := funext fun a => Fin.ext (by
    match a with
    | ⟨0, _⟩ => exact lhs_pay2_0 _ _
    | ⟨1, _⟩ => exact (lhs_pay2_1 _ _).trans hk)
  have er : dot_S2048x256_S256x1280_S2048x1280_1_0_0_1_n_n.rhsIdx (ix2 r j) ((contrEquiv1 dot_S2048x256_S256x1280_S2048x1280_1_0_0_1_n_n 256 rfl rfl).symm k) = ix2 k j := funext fun a => Fin.ext (by
    match a with
    | ⟨0, _⟩ => exact (rhs_pay2_0 _ _).trans hk
    | ⟨1, _⟩ => exact rhs_pay2_1 _ _)
  rw [el, er, shapeCast_self]
  show k0_pay1 (F := Ideal) x0 x7 x8 (ix2 r k) * x2 (ix2 k j) = _
  rw [pay1_apply]

end Cert.KernelIdeal.BodyAux

end
-- ==== Proof.Body.lean ====
/-
  One grid point of the kernel, read as values: what the body leaves in its block of per-lane loss sums, as a function of
  the nine input blocks, lane by lane.

  The body keeps five running arrays of shape [2048, 64], one per table it selects a class from: the live flags, the
  reciprocal temperatures, the log temperatures, the centres' squared norms and the products of the normalised rows with
  the centres. Each starts at zero and takes, class by class, the class's 0/1 weight of the row (column c of the array of
  weights) times row c of the table, or times columns c·64 … c·64+63 of the squared norms and of the stored products. Read
  at one entry (r, k) each is therefore the twenty-term selection sum of the specification, in the same order. The rest of
  the body (mask, softmax, weighted sum along the clusters, sum down the rows) is read once for arbitrary such arrays, and
  the two meet in `seg_of_pieces`.
-/
import proofs.«423493_j45861660787183_3_alg».proof.Proof.Gen.KernelIdeal.Frame
import proofs.«423493_j45861660787183_3_alg».proof.Proof.Spec
import proofs.«423493_j45861660787183_3_alg».proof.Proof.Body10
import proofs.«423493_j45861660787183_3_alg».proof.Proof.BodyTail
import proofs.«423493_j45861660787183_3_alg».proof.Proof.BodyAux
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.BodyValue

open Idealize.ShloMosaic Idealize.ShloMosaic.TcCoe Idealize.ShloMosaic.Tactic Idealize.ShloMosaic.ValueIdx
open Idealize.SL Idealize.SL.Sem
open Cert.KernelIdeal Cert.KernelIdeal.Gen

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## Layout operations of the body read at an index -/

/-- One column broadcast over many: an [a, 1] array broadcast to [a, b] reads, at (p, c), the operand's row p. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A slice of width 1 at column o lies inside the matrix: o is a column. -/
private theorem slice_lt {n0 n1 o : ℕ} (h : (⟨2, ![n0, n1]⟩ : Shape).Slices ![0, o] ⟨2, ![n0, 1]⟩) : o < n1 :=
  Nat.lt_of_lt_of_le (Nat.lt_succ_self o) (h.2 1)

/-- One column cut out of a matrix: the slice of width 1 at column o reads, at (p, 0), the matrix at (p, o). -/
theorem slice_col {α : Type} {n0 n1 : ℕ} (o : ℕ) (X : (⟨2, ![n0, n1]⟩ : Shape).Idx → α)
    (h : (⟨2, ![n0, n1]⟩ : Shape).Slices ![0, o] ⟨2, ![n0, 1]⟩) (p : Fin n0) (u : Fin 1) :
    extractStridedSlice ⟨2, ![n0, 1]⟩ ![0, o] X h (ix2 p u) = X (ix2 p ⟨o, slice_lt h⟩) :=
  slice2_axis1_apply o X h p u _ (by have := u.isLt; show o = o + u.val; omega)

/-- A one-row rectangle at row c lies inside the matrix: c is a row. -/
private theorem row_lt {n0 n1 c : ℕ}
    (inb : ∀ a, (![c, 0] : Fin 2 → ℕ) a + (![1, n1] : Fin 2 → ℕ) a ≤ (⟨2, ![n0, n1]⟩ : Shape).size a) : c < n0 :=
  Nat.lt_of_lt_of_le (Nat.lt_succ_self c) (inb 0)

/-- The index a load of ONE ROW of a matrix reads: row c, the same column. -/
theorem idx_row {n0 n1 : ℕ} (c : ℕ)
    (inb : ∀ a, (![c, 0] : Fin 2 → ℕ) a + (![1, n1] : Fin 2 → ℕ) a ≤ (⟨2, ![n0, n1]⟩ : Shape).size a) (u : Fin 1) (k : Fin n1) :
    (Rect.unit (s := ⟨2, ![n0, n1]⟩) ![c, 0] ![1, n1] inb).toLoadRect.idx (ix2 u k) = ix2 ⟨c, row_lt inb⟩ k := by
  funext a
  match a with
  | ⟨0, _⟩ => exact Fin.ext (by have := u.isLt; show c + 1 * u.val = c; omega)
  | ⟨1, _⟩ => exact Fin.ext (by show 0 + 1 * k.val = k.val; omega)

/-- A band of m columns from column o lies inside the matrix: o + k is a column for k below m. -/
private theorem cols_lt {n0 n1 m o : ℕ}
    (inb : ∀ a, (![0, o] : Fin 2 → ℕ) a + (![n0, m] : Fin 2 → ℕ) a ≤ (⟨2, ![n0, n1]⟩ : Shape).size a) (k : Fin m) :
    o + k.val < n1 :=
  Nat.lt_of_lt_of_le (Nat.add_lt_add_left k.isLt o) (inb 1)

/-- The index a load of a BAND OF COLUMNS of a matrix reads: the same row, column o + k. -/
theorem idx_cols {n0 n1 m : ℕ} (o : ℕ)
    (inb : ∀ a, (![0, o] : Fin 2 → ℕ) a + (![n0, m] : Fin 2 → ℕ) a ≤ (⟨2, ![n0, n1]⟩ : Shape).size a) (p : Fin n0) (k : Fin m) :
    (Rect.unit (s := ⟨2, ![n0, n1]⟩) ![0, o] ![n0, m] inb).toLoadRect.idx (ix2 p k) = ix2 p ⟨o + k.val, cols_lt inb k⟩ := by
  funext a
  match a with
  | ⟨0, _⟩ => exact Fin.ext (by show 0 + 1 * p.val = p.val; omega)
  | ⟨1, _⟩ => exact Fin.ext (by show o + 1 * k.val = o + k.val; omega)

/-- A float word of the body, at the exact instance, is the extended real the word encodes. -/
theorem scalar_ofBits (φ : FTy) (b : BitVec φ.bits) : Scalar.ofBits (F := Ideal) φ b = Ideal.ofBits φ b := rfl

/-! ## The stored block from its class-selected pieces -/

/-- The stored block from its class-selected pieces: once the lane weights are the labels' 0/1 weights and the four
    accumulated arrays are the class selections of the tables, of the centres' squared norms and of the products, lane ℓ is
    the block's loss sum. -/
theorem seg_of_pieces (x0 : Vec Ideal S2048x256 .f32) (x1 : Vec Ideal S2048x1 .i32) (x2 : Vec Ideal S256x1280 .bf16) (x3 : Vec Ideal S1x1280 .f32) (x4 x5 x6 : Vec Ideal S20x64 .f32) (x7 x8 : Vec Ideal S1x256 .f32)
    (v25 : FVec Ideal S2048x128 .f32) (A B C D : FVec Ideal S2048x64 .f32) (ℓ : Fin 128)
    (h25 : ∀ r : Fin 2048, v25 (ix2 r ℓ) = Cert.KM.oh (x1 (ix2 r 0)) ℓ.val)
    (hA : ∀ (r : Fin 2048) (k : Fin 64), A (ix2 r k) = Cert.KM.gath (x1 (ix2 r 0)) (fun c => x6 (ix2 c k)))
    (hB : ∀ (r : Fin 2048) (k : Fin 64), B (ix2 r k) = Cert.KM.gath (x1 (ix2 r 0)) (fun c => x4 (ix2 c k)))
    (hC : ∀ (r : Fin 2048) (k : Fin 64), C (ix2 r k) = Cert.KM.gath (x1 (ix2 r 0)) (fun c => x5 (ix2 c k)))
    (hD : ∀ (r : Fin 2048) (k : Fin 64), D (ix2 r k)
        = (Cert.KM.bX2 x0 x7 x8 r + Cert.KM.gath (x1 (ix2 r 0)) (fun c => x3 (ix2 0 (Cert.KM.col c k))))
          - Cert.KM.kTwo * Cert.KM.gath (x1 (ix2 r 0)) (fun c => Cert.KM.bDot x0 x2 x7 x8 r (Cert.KM.col c k))) :
    k0_pay123 (F := Ideal) v25 A B C D (k0_pay122 (F := Ideal)) (ix3 0 0 ℓ) = Cert.KM.segBlk x0 x1 x2 x3 x4 x5 x6 x7 x8 ℓ := by
  rw [BodyTail.pay123_apply]
  unfold Cert.KM.segBlk Cert.KM.bPs Cert.KM.bSim
  simp only [h25, hA, hB, hC, hD]

/-! ## The body's block of loss sums -/

/-- The block of per-lane loss sums: lane ℓ holds the sum of the losses of the block's rows labelled ℓ. -/
theorem out9_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S256x1280 .bf16) (harg3 : arg3.IsWhole) (arg4 : Memref sig .tc .vmem S1x1280 .f32) (harg4 : arg4.IsWhole) (arg5 : Memref sig .tc .vmem S20x64 .f32) (harg5 : arg5.IsWhole) (arg6 : Memref sig .tc .vmem S20x64 .f32) (harg6 : arg6.IsWhole) (arg7 : Memref sig .tc .vmem S20x64 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S2048x1280 .f32) (harg12 : arg12.IsWhole)
    (x0 : Vec Ideal S2048x256 .f32) (x1 : Vec Ideal S2048x1 .i32) (x2 : Vec Ideal S256x1280 .bf16) (x3 : Vec Ideal S1x1280 .f32) (x4 : Vec Ideal S20x64 .f32) (x5 : Vec Ideal S20x64 .f32) (x6 : Vec Ideal S20x64 .f32) (x7 : Vec Ideal S1x256 .f32) (x8 : Vec Ideal S1x256 .f32) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = fun y => Cert.KM.segBlk x0 x1 x2 x3 x4 x5 x6 x7 x8 (y 2) := by
  -- the one store that covers the block, over the blocks the loads read
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread, harg9.read_unread,
    View.ld_unit_zero (S := S2048x256) hz2, View.ld_unit_zero (S := S2048x1) hz2, View.ld_unit_zero (S := S256x1280) hz2,
    View.ld_unit_zero (S := S1x256) hz2, View.readCov_eq_canon', View.canon_unit_zero (S := S2048x1280) hz2]
  -- lane by lane
  funext y
  obtain ⟨a, b, ℓ, rfl⟩ : ∃ (a b : Fin 1) (ℓ : Fin 128), y = ix3 a b ℓ := ⟨y 0, y 1, y 2, eq_ix3 y⟩
  obtain rfl : a = 0 := Subsingleton.elim _ _
  obtain rfl : b = 0 := Subsingleton.elim _ _
  refine seg_of_pieces x0 x1 x2 x3 x4 x5 x6 x7 x8 _ _ _ _ _ ℓ (fun r => BodyCount.pay4_apply x1 r ℓ)
    (fun r k => ?_) (fun r k => ?_) (fun r k => ?_) (fun r k => ?_)
  -- the selected live flag
  · simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, addf_apply, mulf_apply, subf_apply, bcast_col, broadcastTo_1b_ab_apply,
      shapeCast_self, slice_col, BodyCount.pay4_apply, broadcast_apply, scalar_ofBits, Ideal.ofBits_zero_f32, View.ld, idx_row,
      idx_cols, Cert.KM.gath, Cert.KM.gathN]
  -- the selected reciprocal temperature
  · simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, addf_apply, mulf_apply, subf_apply, bcast_col, broadcastTo_1b_ab_apply,
      shapeCast_self, slice_col, BodyCount.pay4_apply, broadcast_apply, scalar_ofBits, Ideal.ofBits_zero_f32, View.ld, idx_row,
      idx_cols, Cert.KM.gath, Cert.KM.gathN]
  -- the selected log temperature
  · simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, addf_apply, mulf_apply, subf_apply, bcast_col, broadcastTo_1b_ab_apply,
      shapeCast_self, slice_col, BodyCount.pay4_apply, broadcast_apply, scalar_ofBits, Ideal.ofBits_zero_f32, View.ld, idx_row,
      idx_cols, Cert.KM.gath, Cert.KM.gathN]
  -- the squared distance: the row's squared norm plus the selected squared norm of the centre, less twice the selected product
  · simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, addf_apply, mulf_apply, subf_apply, bcast_col, broadcastTo_1b_ab_apply,
      shapeCast_self, slice_col, BodyCount.pay4_apply, broadcast_apply, scalar_ofBits, Ideal.ofBits_zero_f32, View.ld, idx_row,
      idx_cols, Cert.KM.gath, Cert.KM.gathN, BodyAux.pay2_apply, BodyAux.pay3_apply, Cert.KM.kTwo]
    rfl

end Cert.KernelIdeal.BodyValue

end
-- ==== Proof.Blocks.lean ====
/-
  From grid points to whole arrays: after the region, block b of each output array is what point b's body left,
  and point b's input blocks are rows b·2048 … b·2048 + 2047 of the data and the labels and the whole of every table.
-/
import proofs.«423493_j45861660787183_3_alg».proof.Proof.Gen.KernelIdeal.Frame
import proofs.«423493_j45861660787183_3_alg».proof.Proof.Spec
import proofs.«423493_j45861660787183_3_alg».proof.Proof.Body
import proofs.«423493_j45861660787183_3_alg».proof.Proof.Body10
import proofs.«423493_j45861660787183_3_alg».proof.Proof.HostPre
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ)

/-- The printed index maps, decided once over the grid: the data, the labels and the two outputs move with the
    point on their first axis; every table stays at block (0, 0). -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = 0 ∧ win0_6.index t (1 : Fin 2) = 0
  ∧ win0_7.index t (0 : Fin 2) = 0 ∧ win0_7.index t (1 : Fin 2) = 0
  ∧ win0_8.index t (0 : Fin 2) = 0 ∧ win0_8.index t (1 : Fin 2) = 0
  ∧ win0_9.index t (0 : Fin 3) = t.val ∧ win0_9.index t (1 : Fin 3) = 0 ∧ win0_9.index t (2 : Fin 3) = 0
  ∧ win0_10.index t (0 : Fin 3) = t.val ∧ win0_10.index t (1 : Fin 3) = 0 ∧ win0_10.index t (2 : Fin 3) = 0 :=
  (by decide +kernel : ∀ t : Fin grid0.N, _)

/-- A grid point as a block number. -/
def blkOf (t : Fin cfg0.N) : Fin 64 := ⟨t.val, by have h := t.isLt; have hN : cfg0.N = 64 := N_0; omega⟩

/-! ## The input blocks at a point -/

/-- The data block at point t is rows t·2048 … t·2048 + 2047 of the data. -/
theorem iblk0_eq (c : Dev nD) (t : Fin cfg0.N) :
    (iblk m c 0 t : S2048x256.Idx → EReal) = Cert.KM.hData (Cert.KernelIdeal.HostPre.aD m c) (blkOf t) := by
  obtain ⟨e0, e1, -⟩ := idx_facts t
  funext y
  unfold iblk
  rw [View.read_apply]
  show V m c main_arg0 (((cfg0.win 0).blk t).view.emb y) = Cert.KernelIdeal.HostPre.aD m c (ix2 (Cert.KM.row (blkOf t) (y 0)) (y 1))
  refine (congrFun (Cert.KernelIdeal.HostPre.V_data m c) _).trans ?_
  refine congrArg (Cert.KernelIdeal.HostPre.aD m c) ?_
  funext a
  apply Fin.ext
  match a with
  | ⟨0, _⟩ => show win0_0.index t (0 : Fin 2) * 2048 + 1 * (y 0).val = (blkOf t).val * 2048 + (y 0).val; rw [e0]; show t.val * 2048 + 1 * (y 0).val = t.val * 2048 + (y 0).val; omega
  | ⟨1, _⟩ => show win0_0.index t (1 : Fin 2) * 256 + 1 * (y 1).val = (y 1).val; rw [e1]; omega

/-- The label block at point t is rows t·2048 … of the label column. -/
theorem iblk1_eq (c : Dev nD) (t : Fin cfg0.N) :
    (iblk m c 1 t : S2048x1.Idx → BitVec 32) = Cert.KM.hLab (Cert.KernelIdeal.HostPre.aL m c) (blkOf t) := by
  obtain ⟨-, -, e0, e1, -⟩ := idx_facts t
  funext y
  unfold iblk
  rw [View.read_apply]
  show V m c main_v29 (((cfg0.win 1).blk t).view.emb y) = Cert.KernelIdeal.HostPre.aL m c (ix1 (Cert.KM.row (blkOf t) (y 0)))
  refine (congrFun (Cert.KernelIdeal.HostPre.V_labels m c) _).trans ?_
  refine congrArg (Cert.KernelIdeal.HostPre.aL m c) ?_
  funext a
  apply Fin.ext
  match a with
  | ⟨0, _⟩ => show win0_1.index t (0 : Fin 2) * 2048 + 1 * (y 0).val = (blkOf t).val * 2048 + (y 0).val; rw [e0]; show t.val * 2048 + 1 * (y 0).val = t.val * 2048 + (y 0).val; omega

/-- The transposed centres: the whole table at every point. -/
theorem iblk2_eq (c : Dev nD) (t : Fin cfg0.N) :
    (iblk m c 2 t : S256x1280.Idx → EReal) = Cert.KM.hMuT (Cert.KernelIdeal.HostPre.aM m c) := by
  obtain ⟨-, -, -, -, e0, e1, -⟩ := idx_facts t
  funext y
  unfold iblk
  rw [View.read_apply]
  show V m c main_v2 (((cfg0.win 2).blk t).view.emb y) = Cert.KM.hMuT (Cert.KernelIdeal.HostPre.aM m c) y
  refine (congrFun (Cert.KernelIdeal.HostPre.V_muT m c) _).trans ?_
  refine congrArg (Cert.KM.hMuT (Cert.KernelIdeal.HostPre.aM m c)) ?_
  funext a
  apply Fin.ext
  match a with
  | ⟨0, _⟩ => show win0_2.index t (0 : Fin 2) * 256 + 1 * (y 0).val = (y 0).val; rw [e0]; omega
  | ⟨1, _⟩ => show win0_2.index t (1 : Fin 2) * 1280 + 1 * (y 1).val = (y 1).val; rw [e1]; omega

/-- The centres' squared norms: the whole table at every point. -/
theorem iblk3_eq (c : Dev nD) (t : Fin cfg0.N) :
    (iblk m c 3 t : S1x1280.Idx → EReal) = Cert.KM.hM2 (Cert.KernelIdeal.HostPre.aM m c) := by
  obtain ⟨-, -, -, -, -, -, e0, e1, -⟩ := idx_facts t
  funext y
  unfold iblk
  rw [View.read_apply]
  show V m c main_v5 (((cfg0.win 3).blk t).view.emb y) = Cert.KM.hM2 (Cert.KernelIdeal.HostPre.aM m c) y
  refine (congrFun (Cert.KernelIdeal.HostPre.V_m2 m c) _).trans ?_
  refine congrArg (Cert.KM.hM2 (Cert.KernelIdeal.HostPre.aM m c)) ?_
  funext a
  apply Fin.ext
  match a with
  | ⟨0, _⟩ => show win0_3.index t (0 : Fin 2) * 1 + 1 * (y 0).val = (y 0).val; rw [e0]; omega
  | ⟨1, _⟩ => show win0_3.index t (1 : Fin 2) * 1280 + 1 * (y 1).val = (y 1).val; rw [e1]; omega

/-- The reciprocal temperatures: the whole table at every point. -/
theorem iblk4_eq (c : Dev nD) (t : Fin cfg0.N) :
    (iblk m c 4 t : S20x64.Idx → EReal) = Cert.KM.hITau (Cert.KernelIdeal.HostPre.aT m c) := by
  obtain ⟨-, -, -, -, -, -, -, -, e0, e1, -⟩ := idx_facts t
  funext y
  unfold iblk
  rw [View.read_apply]
  show V m c main_v19 (((cfg0.win 4).blk t).view.emb y) = Cert.KM.hITau (Cert.KernelIdeal.HostPre.aT m c) y
  refine (congrFun (Cert.KernelIdeal.HostPre.V_itau m c) _).trans ?_
  refine congrArg (Cert.KM.hITau (Cert.KernelIdeal.HostPre.aT m c)) ?_
  funext a
  apply Fin.ext
  match a with
  | ⟨0, _⟩ => show win0_4.index t (0 : Fin 2) * 20 + 1 * (y 0).val = (y 0).val; rw [e0]; omega
  | ⟨1, _⟩ => show win0_4.index t (1 : Fin 2) * 64 + 1 * (y 1).val = (y 1).val; rw [e1]; omega

/-- The log temperatures: the whole table at every point. -/
theorem iblk5_eq (c : Dev nD) (t : Fin cfg0.N) :
    (iblk m c 5 t : S20x64.Idx → EReal) = Cert.KM.hLTau (Cert.KernelIdeal.HostPre.aT m c) := by
  obtain ⟨-, -, -, -, -, -, -, -, -, -, e0, e1, -⟩ := idx_facts t
  funext y
  unfold iblk
  rw [View.read_apply]
  show V m c main_v20 (((cfg0.win 5).blk t).view.emb y) = Cert.KM.hLTau (Cert.KernelIdeal.HostPre.aT m c) y
  refine (congrFun (Cert.KernelIdeal.HostPre.V_ltau m c) _).trans ?_
  refine congrArg (Cert.KM.hLTau (Cert.KernelIdeal.HostPre.aT m c)) ?_
  funext a
  apply Fin.ext
  match a with
  | ⟨0, _⟩ => show win0_5.index t (0 : Fin 2) * 20 + 1 * (y 0).val = (y 0).val; rw [e0]; omega
  | ⟨1, _⟩ => show win0_5.index t (1 : Fin 2) * 64 + 1 * (y 1).val = (y 1).val; rw [e1]; omega

/-- The live flags: the whole table at every point. -/
theorem iblk6_eq (c : Dev nD) (t : Fin cfg0.N) :
    (iblk m c 6 t : S20x64.Idx → EReal) = Cert.KM.hLive (Cert.KernelIdeal.HostPre.aRA m c) (Cert.KernelIdeal.HostPre.aRB m c) := by
  obtain ⟨-, -, -, -, -, -, -, -, -, -, -, -, e0, e1, -⟩ := idx_facts t
  funext y
  unfold iblk
  rw [View.read_apply]
  show V m c main_v28 (((cfg0.win 6).blk t).view.emb y) = Cert.KM.hLive (Cert.KernelIdeal.HostPre.aRA m c) (Cert.KernelIdeal.HostPre.aRB m c) y
  refine (congrFun (Cert.KernelIdeal.HostPre.V_live m c) _).trans ?_
  refine congrArg (Cert.KM.hLive (Cert.KernelIdeal.HostPre.aRA m c) (Cert.KernelIdeal.HostPre.aRB m c)) ?_
  funext a
  apply Fin.ext
  match a with
  | ⟨0, _⟩ => show win0_6.index t (0 : Fin 2) * 20 + 1 * (y 0).val = (y 0).val; rw [e0]; omega
  | ⟨1, _⟩ => show win0_6.index t (1 : Fin 2) * 64 + 1 * (y 1).val = (y 1).val; rw [e1]; omega

/-- The median row: the whole row at every point. -/
theorem iblk7_eq (c : Dev nD) (t : Fin cfg0.N) :
    (iblk m c 7 t : S1x256.Idx → EReal) = Cert.KM.hMed (Cert.KernelIdeal.HostPre.aMed m c) := by
  obtain ⟨-, -, -, -, -, -, -, -, -, -, -, -, -, -, e0, e1, -⟩ := idx_facts t
  funext y
  unfold iblk
  rw [View.read_apply]
  show V m c main_v30 (((cfg0.win 7).blk t).view.emb y) = Cert.KM.hMed (Cert.KernelIdeal.HostPre.aMed m c) y
  refine (congrFun (Cert.KernelIdeal.HostPre.V_med m c) _).trans ?_
  refine congrArg (Cert.KM.hMed (Cert.KernelIdeal.HostPre.aMed m c)) ?_
  funext a
  apply Fin.ext
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-- The reciprocal scale row: the whole row at every point. -/
theorem iblk8_eq (c : Dev nD) (t : Fin cfg0.N) :
    (iblk m c 8 t : S1x256.Idx → EReal) = Cert.KM.hIStd (Cert.KernelIdeal.HostPre.aStd m c) := by
  obtain ⟨-, -, -, -, -, -, -, -, -, -, -, -, -, -, -, -, e0, e1, -⟩ := idx_facts t
  funext y
  unfold iblk
  rw [View.read_apply]
  show V m c main_v33 (((cfg0.win 8).blk t).view.emb y) = Cert.KM.hIStd (Cert.KernelIdeal.HostPre.aStd m c) y
  refine (congrFun (Cert.KernelIdeal.HostPre.V_istd m c) _).trans ?_
  refine congrArg (Cert.KM.hIStd (Cert.KernelIdeal.HostPre.aStd m c)) ?_
  funext a
  apply Fin.ext
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

/-! ## What a point leaves in the two outputs' staging buffers -/

/-- After point t the loss-sum buffer holds block t's sums, lane by lane. -/
theorem point9 (c : Dev nD) (t : Fin cfg0.N) :
    ((outsAt0 (F := Ideal) m c t).1 : S1x1x128.Idx → EReal)
      = fun y => Cert.KM.segBlk (Cert.KM.hData (Cert.KernelIdeal.HostPre.aD m c) (blkOf t)) (Cert.KM.hLab (Cert.KernelIdeal.HostPre.aL m c) (blkOf t))
      (Cert.KM.hMuT (Cert.KernelIdeal.HostPre.aM m c)) (Cert.KM.hM2 (Cert.KernelIdeal.HostPre.aM m c)) (Cert.KM.hITau (Cert.KernelIdeal.HostPre.aT m c)) (Cert.KM.hLTau (Cert.KernelIdeal.HostPre.aT m c))
      (Cert.KM.hLive (Cert.KernelIdeal.HostPre.aRA m c) (Cert.KernelIdeal.HostPre.aRB m c)) (Cert.KM.hMed (Cert.KernelIdeal.HostPre.aMed m c)) (Cert.KM.hIStd (Cert.KernelIdeal.HostPre.aStd m c)) (y 2) := by
  unfold outsAt0
  dsimp only
  rw [Cert.KernelIdeal.BodyValue.out9_eq]
  rw [iblk0_eq m c t, iblk1_eq m c t, iblk2_eq m c t, iblk3_eq m c t, iblk4_eq m c t, iblk5_eq m c t, iblk6_eq m c t,
    iblk7_eq m c t, iblk8_eq m c t]

/-- After point t the count buffer holds block t's counts, lane by lane. -/
theorem point10 (c : Dev nD) (t : Fin cfg0.N) :
    ((outsAt0 (F := Ideal) m c t).2 : S1x1x128.Idx → EReal)
      = fun y => Cert.KM.cntBlk (Cert.KM.hLab (Cert.KernelIdeal.HostPre.aL m c) (blkOf t)) (y 2) := by
  unfold outsAt0
  dsimp only
  rw [Cert.KernelIdeal.BodyCount.out10_eq]
  rw [iblk1_eq m c t]

/-! ## From the points to the arrays -/

/-- Block b's loss sum for lane ℓ, from the program's arguments. -/
abbrev seg (c : Dev nD) (b : Fin 64) (ℓ : Fin 128) : EReal :=
  Cert.KM.segBlk (Cert.KM.hData (Cert.KernelIdeal.HostPre.aD m c) b) (Cert.KM.hLab (Cert.KernelIdeal.HostPre.aL m c) b)
      (Cert.KM.hMuT (Cert.KernelIdeal.HostPre.aM m c)) (Cert.KM.hM2 (Cert.KernelIdeal.HostPre.aM m c)) (Cert.KM.hITau (Cert.KernelIdeal.HostPre.aT m c)) (Cert.KM.hLTau (Cert.KernelIdeal.HostPre.aT m c))
      (Cert.KM.hLive (Cert.KernelIdeal.HostPre.aRA m c) (Cert.KernelIdeal.HostPre.aRB m c)) (Cert.KM.hMed (Cert.KernelIdeal.HostPre.aMed m c)) (Cert.KM.hIStd (Cert.KernelIdeal.HostPre.aStd m c)) ℓ

/-- Block b's count for lane ℓ, from the program's arguments. -/
abbrev cnt (c : Dev nD) (b : Fin 64) (ℓ : Fin 128) : EReal :=
  Cert.KM.cntBlk (Cert.KM.hLab (Cert.KernelIdeal.HostPre.aL m c) b) ℓ

/-- An index of the loss-sum array is in point t's block iff each coordinate is in the block's range on its axis. -/
theorem mem_blk9 (t : Fin cfg0.N) (i : S64x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v34_0).slice (win0_9.rect t)).set ↔ _
  rw [View.set_slice_whole, Rect.mem_set_unit]
  exact Iff.rfl

/-- The same for the count array. -/
theorem mem_blk10 (t : Fin cfg0.N) (i : S64x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v34_1).slice (win0_10.rect t)).set ↔ _
  rw [View.set_slice_whole, Rect.mem_set_unit]
  exact Iff.rfl

/-- What point t writes back into the loss-sum array is block t of the array of all blocks' sums. -/
theorem flushed9_eq (c : Dev nD) (t : Fin cfg0.N) :
    (dats (F := Ideal) m 0 c).flushed 9 t = ((cfg0.win 9).blk t).view.read (Elt Ideal)
      (fun y : S64x1x128.Idx => seg m c (y 0) (y 2)) := by
  obtain ⟨-, -, -, -, -, -, -, -, -, -, -, -, -, -, -, -, -, -, e0, e1, e2, -⟩ := idx_facts t
  show (cfg0.win 9).cut (grid0.coords t) ((dats m 0 c).after 9 t) = _
  rw [after0_9, point9]
  funext j
  show seg m c (blkOf t) (j 2) = seg m c ((((cfg0.win 9).blk t).view.emb j) 0) ((((cfg0.win 9).blk t).view.emb j) 2)
  have h0 : (((cfg0.win 9).blk t).view.emb j) 0 = blkOf t := Fin.ext (by
    show win0_9.index t (0 : Fin 3) * 1 + 1 * (j 0).val = t.val
    have hj : (j 0).val < 1 := (j 0).isLt
    rw [e0]; omega)
  have h2 : (((cfg0.win 9).blk t).view.emb j) 2 = j 2 := Fin.ext (by
    show win0_9.index t (2 : Fin 3) * 128 + 1 * (j 2).val = (j 2).val
    rw [e2]; omega)
  rw [h0, h2]

/-- What point t writes back into the count array is block t of the array of all blocks' counts. -/
theorem flushed10_eq (c : Dev nD) (t : Fin cfg0.N) :
    (dats (F := Ideal) m 0 c).flushed 10 t = ((cfg0.win 10).blk t).view.read (Elt Ideal)
      (fun y : S64x1x128.Idx => cnt m c (y 0) (y 2)) := by
  obtain ⟨-, -, -, -, -, -, -, -, -, -, -, -, -, -, -, -, -, -, -, -, -, e0, e1, e2⟩ := idx_facts t
  show (cfg0.win 10).cut (grid0.coords t) ((dats m 0 c).after 10 t) = _
  rw [after0_10, point10]
  funext j
  show cnt m c (blkOf t) (j 2) = cnt m c ((((cfg0.win 10).blk t).view.emb j) 0) ((((cfg0.win 10).blk t).view.emb j) 2)
  have h0 : (((cfg0.win 10).blk t).view.emb j) 0 = blkOf t := Fin.ext (by
    show win0_10.index t (0 : Fin 3) * 1 + 1 * (j 0).val = t.val
    have hj : (j 0).val < 1 := (j 0).isLt
    rw [e0]; omega)
  have h2 : (((cfg0.win 10).blk t).view.emb j) 2 = j 2 := Fin.ext (by
    show win0_10.index t (2 : Fin 3) * 128 + 1 * (j 2).val = (j 2).val
    rw [e2]; omega)
  rw [h0, h2]

/-- The point that covers entry (b, 0, ℓ) of an output array is point b. -/
def ptOf (i : S64x1x128.Idx) : Fin cfg0.N := ⟨(i 0).val, by have h : (i 0).val < 64 := (i 0).isLt; have hN : cfg0.N = 64 := N_0; omega⟩

/-- Every entry of the loss-sum array is in its point's block. -/
theorem cover9 (i : S64x1x128.Idx) : ∃ t : Fin cfg0.N, (cfg0.win 9).flush t = true ∧ i ∈ ((cfg0.win 9).blk t).view.set := by
  refine ⟨ptOf i, flush0_9 (ptOf i), ?_⟩
  obtain ⟨-, -, -, -, -, -, -, -, -, -, -, -, -, -, -, -, -, -, e0, e1, e2, -⟩ := idx_facts (ptOf i)
  rw [mem_blk9]
  intro a
  have h1 : (i 1).val < 1 := (i 1).isLt
  have h2 : (i 2).val < 128 := (i 2).isLt
  match a with
  | ⟨0, _⟩ => show win0_9.index (ptOf i) (0 : Fin 3) * 1 ≤ (i 0).val ∧ (i 0).val < win0_9.index (ptOf i) (0 : Fin 3) * 1 + 1; rw [e0]; show (i 0).val * 1 ≤ (i 0).val ∧ (i 0).val < (i 0).val * 1 + 1; omega
  | ⟨1, _⟩ => show win0_9.index (ptOf i) (1 : Fin 3) * 1 ≤ (i 1).val ∧ (i 1).val < win0_9.index (ptOf i) (1 : Fin 3) * 1 + 1; rw [e1]; omega
  | ⟨2, _⟩ => show win0_9.index (ptOf i) (2 : Fin 3) * 128 ≤ (i 2).val ∧ (i 2).val < win0_9.index (ptOf i) (2 : Fin 3) * 128 + 128; rw [e2]; omega

/-- Every entry of the count array is in its point's block. -/
theorem cover10 (i : S64x1x128.Idx) : ∃ t : Fin cfg0.N, (cfg0.win 10).flush t = true ∧ i ∈ ((cfg0.win 10).blk t).view.set := by
  refine ⟨ptOf i, flush0_10 (ptOf i), ?_⟩
  obtain ⟨-, -, -, -, -, -, -, -, -, -, -, -, -, -, -, -, -, -, -, -, -, e0, e1, e2⟩ := idx_facts (ptOf i)
  rw [mem_blk10]
  intro a
  have h1 : (i 1).val < 1 := (i 1).isLt
  have h2 : (i 2).val < 128 := (i 2).isLt
  match a with
  | ⟨0, _⟩ => show win0_10.index (ptOf i) (0 : Fin 3) * 1 ≤ (i 0).val ∧ (i 0).val < win0_10.index (ptOf i) (0 : Fin 3) * 1 + 1; rw [e0]; show (i 0).val * 1 ≤ (i 0).val ∧ (i 0).val < (i 0).val * 1 + 1; omega
  | ⟨1, _⟩ => show win0_10.index (ptOf i) (1 : Fin 3) * 1 ≤ (i 1).val ∧ (i 1).val < win0_10.index (ptOf i) (1 : Fin 3) * 1 + 1; rw [e1]; omega
  | ⟨2, _⟩ => show win0_10.index (ptOf i) (2 : Fin 3) * 128 ≤ (i 2).val ∧ (i 2).val < win0_10.index (ptOf i) (2 : Fin 3) * 128 + 128; rw [e2]; omega

/-- The loss-sum array after the region: entry (b, 0, ℓ) is block b's sum for lane ℓ. -/
theorem final9 (c : Dev nD) :
    ((dats (F := Ideal) m 0 c).arrAt 9 cfg0.N : S64x1x128.Idx → EReal)
      = fun y => Cert.KM.segBlk (Cert.KM.hData (Cert.KernelIdeal.HostPre.aD m c) (y 0)) (Cert.KM.hLab (Cert.KernelIdeal.HostPre.aL m c) (y 0))
          (Cert.KM.hMuT (Cert.KernelIdeal.HostPre.aM m c)) (Cert.KM.hM2 (Cert.KernelIdeal.HostPre.aM m c)) (Cert.KM.hITau (Cert.KernelIdeal.HostPre.aT m c)) (Cert.KM.hLTau (Cert.KernelIdeal.HostPre.aT m c))
          (Cert.KM.hLive (Cert.KernelIdeal.HostPre.aRA m c) (Cert.KernelIdeal.HostPre.aRB m c)) (Cert.KM.hMed (Cert.KernelIdeal.HostPre.aMed m c)) (Cert.KM.hIStd (Cert.KernelIdeal.HostPre.aStd m c)) (y 2) :=
  (dats (F := Ideal) m 0 c).arrAt_eq_of_cover 9 (fun y : S64x1x128.Idx => seg m c (y 0) (y 2))
    (fun t _ => flushed9_eq m c t) cover9

/-- The count array after the region: entry (b, 0, ℓ) is block b's count for lane ℓ. -/
theorem final10 (c : Dev nD) :
    ((dats (F := Ideal) m 0 c).arrAt 10 cfg0.N : S64x1x128.Idx → EReal)
      = fun y => Cert.KM.cntBlk (Cert.KM.hLab (Cert.KernelIdeal.HostPre.aL m c) (y 0)) (y 2) :=
  (dats (F := Ideal) m 0 c).arrAt_eq_of_cover 10 (fun y : S64x1x128.Idx => cnt m c (y 0) (y 2))
    (fun t _ => flushed10_eq m c t) cover10

end Cert.KernelIdeal.Blocks

end
-- ==== Proof.KValue.lean ====
/-
  The kernel program's run, with its result named: the host operations after the region sum each output array over
  the 64 blocks, divide lane by lane where the count is positive, and sum the 128 lanes.
-/
import proofs.«423493_j45861660787183_3_alg».proof.Proof.Gen.KernelIdeal.Frame
import proofs.«423493_j45861660787183_3_alg».proof.Proof.Spec
import proofs.«423493_j45861660787183_3_alg».proof.Proof.HostPre
import proofs.«423493_j45861660787183_3_alg».proof.Proof.Blocks
import Idealize.ShloMosaic.PureOps.Ideal.Laws
import Idealize.ShloMosaic.Lib.Pipeline.Value
import Idealize.ShloMosaic.Lib.ValueIdx
import Idealize.ShloMosaic.Lib.ValueIdxRank1
import Idealize.ShloMosaic.Lib.StableHlo.Run

set_option maxRecDepth 16384

noncomputable section

open scoped BigOperators

namespace Cert.KernelIdeal.KValue

open Idealize.ShloMosaic Idealize.ShloMosaic.TcCoe Idealize.ShloMosaic.Tactic Idealize.ShloMosaic.ValueIdx
open Idealize.SL Idealize.SL.Sem
open Cert.KernelIdeal Cert.KernelIdeal.Gen

/-! ## The host operations after the region, as one function of the two output arrays -/

section Tail
variable {F : FTy → Type} [FloatOps F]

/-- An output array [64, 1, 128] summed over its 64 blocks and laid out as 128 lanes. -/
def laneSum (a : (⟨S64x1x128, .f32⟩ : BufTy).Contents (Elt F)) : (⟨S128, .f32⟩ : BufTy).Contents (Elt F) :=
  shapeCast S128 (Host.reduceAdd a (constant S_ .f32 0x00000000#32) reducesTo_S64x1x128_S1x128_d0 h_S_) shapeCasts_S1x128_S128

/-- The lane means where the count is positive, zero elsewhere, summed over the lanes. -/
def tailFn (a9 a10 : (⟨S64x1x128, .f32⟩ : BufTy).Contents (Elt F)) : (⟨S_, .f32⟩ : BufTy).Contents (Elt F) :=
  Host.reduceAdd
    (select
      (cmpf (F := F) .ogt (laneSum a10) (broadcastInDim S128 ![] bcast_S_S128 (constant S_ .f32 0x00000000#32)))
      (Host.divf (laneSum a9)
        (maximumf (laneSum a10) (broadcastInDim S128 ![] bcast_S_S128 (constant S_ .f32 0x3F800000#32))))
      (broadcastInDim S128 ![] bcast_S_S128 (constant S_ .f32 0x00000000#32)))
    (constant S_ .f32 0x00000000#32) reducesTo_S128_S_d0 h_S_

set_option maxHeartbeats 2000000 in
/-- Run from any contents, the operations after the region leave in the result buffer that function of what the two
    output arrays hold. -/
theorem tail_after (W : Valuation τ sig (Elt F)) :
    StableHlo.after (List.flatten [hostOps1 (F := F), hostOps1_1, hostOps1_2]) W (Proc.devRef .tc main_v45)
      = tailFn (F := F) (W (Proc.devRef .tc main_v34_0)) (W (Proc.devRef .tc main_v34_1)) := by
  simp only [hostOps1, hostOps1_1, hostOps1_2, List.flatten_cons, List.flatten_nil, List.append_nil, List.cons_append, List.nil_append]
  after_results
  rfl

end Tail

/-! ## The same function read on the extended reals -/

/-- Lane ℓ of the lane sum: the sum over the 64 blocks of entry (b, 0, ℓ). -/
theorem laneSum_apply (a : FVec Ideal ⟨3, ![64, 1, 128]⟩ .f32) (ℓ : Fin 128) :
    laneSum (F := Ideal) a (ix1 ℓ) = ∑ b : Fin 64, a (ix3 b 0 ℓ) := by
  unfold laneSum
  rw [shapeCast_apply _ shapeCasts_S1x128_S128 (ix1 ℓ) (ix2 0 ℓ) (by
    rw [Shape.rowMajor_val_two, Shape.rowMajor_val_one]; simp)]
  simp only [Host.reduceAdd, Ideal.hostReduceAdd_def]
  rw [Ideal.hostReduceAdd_single reducesTo_S64x1x128_S1x128_d0 (by decide)]
  rw [constant_apply, Ideal.ofBits_zero_f32, zero_add]
  refine Finset.sum_congr rfl fun k _ => ?_
  exact congrArg a (funext fun d => Fin.ext (by match d with | ⟨0, _⟩ => rfl | ⟨1, _⟩ => rfl | ⟨2, _⟩ => rfl))

/-- A scalar constant spread over the 128 lanes reads that constant at every lane. -/
theorem lanes_const (w : BitVec 32) (j : S128.Idx) :
    broadcastInDim S128 ![] bcast_S_S128 (constant (F := Ideal) S_ .f32 w) j = Ideal.ofBits .f32 w :=
  broadcastInDim_apply _ bcast_S_S128 _ j ix0 (fun a => a.elim0)

/-- The result at its one index: over the lanes, the quotient of the two lane sums where the count's is positive. -/
theorem tailFn_apply (a9 a10 : FVec Ideal ⟨3, ![64, 1, 128]⟩ .f32) (i : S_.Idx) :
    tailFn (F := Ideal) a9 a10 i
      = ∑ ℓ : Fin 128, if 0 < ∑ b : Fin 64, a10 (ix3 b 0 ℓ)
          then Ideal.div (∑ b : Fin 64, a9 (ix3 b 0 ℓ)) (max (∑ b : Fin 64, a10 (ix3 b 0 ℓ)) Cert.KM.kOne) else 0 := by
  unfold tailFn
  simp only [Host.reduceAdd, Ideal.hostReduceAdd_def]
  rw [Ideal.hostReduceAdd_total reducesTo_S128_S_d0 (fun b => b.elim0)]
  rw [constant_apply, Ideal.ofBits_zero_f32, zero_add]
  rw [← Equiv.sum_comp (idxEquiv1 (n := 128)).symm]
  refine Finset.sum_congr rfl fun ℓ _ => ?_
  show Scalar.select (FloatOps.cmpf (F := Ideal) (φ := .f32) .ogt (laneSum (F := Ideal) a10 (ix1 ℓ)) _) (FloatOps.hostDivf (F := Ideal) (φ := .f32) (laneSum (F := Ideal) a9 (ix1 ℓ)) (FloatOps.maximumf (F := Ideal) (φ := .f32) (laneSum (F := Ideal) a10 (ix1 ℓ)) _)) _ = _
  rw [lanes_const, lanes_const, laneSum_apply, laneSum_apply, Ideal.ofBits_zero_f32]
  rw [Ideal.cmpf_def]
  show Scalar.select (Ideal.cmp .ogt (∑ b : Fin 64, a10 (ix3 b 0 ℓ)) 0)
      (Ideal.div (∑ b : Fin 64, a9 (ix3 b 0 ℓ)) (max (∑ b : Fin 64, a10 (ix3 b 0 ℓ)) Cert.KM.kOne)) 0 = _
  by_cases h : 0 < ∑ b : Fin 64, a10 (ix3 b 0 ℓ)
  · have hc : Ideal.cmp .ogt (∑ b : Fin 64, a10 (ix3 b 0 ℓ)) 0 = 1#1 := by
      show BitVec.ofBool (decide (0 < ∑ b : Fin 64, a10 (ix3 b 0 ℓ))) = 1#1
      rw [decide_eq_true h]; rfl
    rw [hc, select_one, if_pos h]
  · have hc : Ideal.cmp .ogt (∑ b : Fin 64, a10 (ix3 b 0 ℓ)) 0 = 0#1 := by
      show BitVec.ofBool (decide (0 < ∑ b : Fin 64, a10 (ix3 b 0 ℓ))) = 0#1
      rw [decide_eq_false h]; rfl
    rw [hc, select_zero, if_neg h]

/-! ## The run -/

/-- What the operations after the region leave in the result buffer. The two output arrays hold, at entry (b, 0, ℓ),
    block b's loss sum and count for lane ℓ; so their sums over the blocks are lane ℓ's totals, and the quotient where
    the count is positive, summed over the lanes, is the kernel's form of the loss. -/
theorem tail_val (m : (ℓ : Loc nD τ sig) → Buf (Elt Ideal) ℓ) (c : Dev nD) :
    Pipeline.afterTail₀ cfgs (dats (F := Ideal) m) 0 (V0 m) [hostOps1, hostOps1_1, hostOps1_2] c main_v45
      = (fun _ => Cert.KM.kLoss (Cert.KernelIdeal.HostPre.aD m c) (Cert.KernelIdeal.HostPre.aL m c) (Cert.KernelIdeal.HostPre.aM m c) (Cert.KernelIdeal.HostPre.aT m c) (Cert.KernelIdeal.HostPre.aMed m c) (Cert.KernelIdeal.HostPre.aStd m c) (Cert.KernelIdeal.HostPre.aRA m c) (Cert.KernelIdeal.HostPre.aRB m c)) := by
  unfold Pipeline.afterTail₀
  rw [tail_after]
  have e9 : Pipeline.withArrays (cfgs 0).spec c (V0 m c) (fun w => (dats (F := Ideal) m 0 c).arrAt w (cfgs 0).N) (Proc.devRef .tc main_v34_0) = _ :=
    (Pipeline.withArrays_arr spec0 launch0.win.arr_inj c _ _ 9).trans (Blocks.final9 m c)
  have e10 : Pipeline.withArrays (cfgs 0).spec c (V0 m c) (fun w => (dats (F := Ideal) m 0 c).arrAt w (cfgs 0).N) (Proc.devRef .tc main_v34_1) = _ :=
    (Pipeline.withArrays_arr spec0 launch0.win.arr_inj c _ _ 10).trans (Blocks.final10 m c)
  rw [e9, e10]
  funext i
  rw [tailFn_apply]
  rfl

/-- Every weakly fair execution ends with the result buffer at the loss, in the kernel's form, of the arguments. -/
theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v45)
        = (fun _ => Cert.KM.kLoss (Cert.KernelIdeal.HostPre.aD m c) (Cert.KernelIdeal.HostPre.aL m c) (Cert.KernelIdeal.HostPre.aM m c) (Cert.KernelIdeal.HostPre.aT m c) (Cert.KernelIdeal.HostPre.aMed m c) (Cert.KernelIdeal.HostPre.aStd m c) (Cert.KernelIdeal.HostPre.aRA m c) (Cert.KernelIdeal.HostPre.aRB m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun r h c =>
    ⟨((h c).2 main_v45 (Pipeline.mem_restRefs_of main_v45 (by decide) (by decide))).trans (tail_val m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.KValue

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.RefRow.lean ====
/-
  The reference, one sample at a time: for a sample whose label reads as class c, the per-sample loss the reference
  computes (through its gather of the class's similarities and of the class's temperatures) is the loss of that
  sample taken in class c.
-/
import proofs.«423493_j45861660787183_3_alg».proof.Proof.RefRead
import proofs.«423493_j45861660787183_3_alg».proof.Proof.LibScatterGather
import proofs.«423493_j45861660787183_3_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.RefRow

open Idealize.ShloMosaic Idealize.ShloMosaic.TcCoe Idealize.ShloMosaic.ValueIdx
open Idealize.SL.Sem
open Cert.ReferenceIdeal Cert.ReferenceIdeal.Gen Cert.ReferenceIdeal.Value Cert.ReferenceIdeal.Read

variable (m : (ℓ : Loc nD τ sig) → Buf (Elt Ideal) ℓ)

/-- The program's arguments on core c, typed as arrays of extended reals (labels: words). -/
abbrev aD (c : Dev nD) : FVec Ideal ⟨2, ![131072, 256]⟩ .f32 := m ((c.tc : Thread nD τ).loc main_arg0)
abbrev aL (c : Dev nD) : IVec ⟨1, ![131072]⟩ 32 := m ((c.tc : Thread nD τ).loc main_arg1)
abbrev aM (c : Dev nD) : FVec Ideal ⟨3, ![20, 64, 256]⟩ .f32 := m ((c.tc : Thread nD τ).loc main_arg2)
abbrev aT (c : Dev nD) : FVec Ideal ⟨2, ![20, 64]⟩ .f32 := m ((c.tc : Thread nD τ).loc main_arg3)
abbrev aMed (c : Dev nD) : FVec Ideal ⟨1, ![256]⟩ .f32 := m ((c.tc : Thread nD τ).loc main_arg4)
abbrev aStd (c : Dev nD) : FVec Ideal ⟨1, ![256]⟩ .f32 := m ((c.tc : Thread nD τ).loc main_arg5)
abbrev aRA (c : Dev nD) : FVec Ideal ⟨2, ![20, 64]⟩ .f32 := m ((c.tc : Thread nD τ).loc main_arg6)
abbrev aRB (c : Dev nD) : FVec Ideal ⟨1, ![20]⟩ .f32 := m ((c.tc : Thread nD τ).loc main_arg7)

/-! ## The similarities, stage by stage -/
section Stages
open Cert.KM

variable (D : FVec Ideal ⟨2, ![131072, 256]⟩ .f32) (L : IVec ⟨1, ![131072]⟩ 32)
  (M : FVec Ideal ⟨3, ![20, 64, 256]⟩ .f32) (T : FVec Ideal ⟨2, ![20, 64]⟩ .f32)
  (med std : FVec Ideal ⟨1, ![256]⟩ .f32) (RA : FVec Ideal ⟨2, ![20, 64]⟩ .f32) (RB : FVec Ideal ⟨1, ![20]⟩ .f32)

/-- The normalised datum. -/
theorem x_eq (n : Fin 131072) (d : Fin 256) :
    val_main_v5 (F := Ideal) D med std (ix2 n d) = xR D med std n d := by
  rw [val_main_v5_apply, val_main_v2_apply, val_main_v1_apply, val_main_v0_apply, val_main_v4_apply, val_main_v3_apply]
  have e0 : idx_main_v0 (idx_main_v1 (ix2 n d)) = ix1 d := funext fun a => Fin.ext (by match a with | ⟨0, _⟩ => rfl)
  have e3 : idx_main_v3 (idx_main_v4 (ix2 n d)) = ix1 d := funext fun a => Fin.ext (by match a with | ⟨0, _⟩ => rfl)
  rw [e0, e3]
  rfl

/-- The datum's squared length. -/
theorem x2_eq (n : Fin 131072) :
    val_main_v8 (F := Ideal) D med std (ix1 n) = ∑ d : Fin 256, xR D med std n d * xR D med std n d := by
  rw [val_main_v8_apply, val_main_cst_apply, Ideal.ofBits_def, Ideal.ofBits_zero_f32, zero_add]
  refine Finset.sum_congr rfl fun d _ => ?_
  have e : idx_main_v8 (ix1 n) d = ix2 n d := funext fun a => Fin.ext (by match a with | ⟨0, _⟩ => rfl | ⟨1, _⟩ => rfl)
  rw [e, val_main_v7_apply, x_eq]
  rfl

/-- The flattened centres read at row c·64 + k. -/
theorem m_eq (c : Fin 20) (k : Fin 64) (d : Fin 256) :
    val_main_v6 (F := Ideal) M (ix2 (col c k) d) = M (ix3 c k d) := by
  rw [val_main_v6_apply]
  have hc := c.isLt; have hk := k.isLt; have hd := d.isLt
  refine congrArg M (funext fun a => Fin.ext ?_)
  match a with
  | ⟨0, _⟩ => show ((c.val * 64 + k.val) * 256 + d.val) / 16384 = c.val; omega
  | ⟨1, _⟩ => show ((c.val * 64 + k.val) * 256 + d.val) / 256 % 64 = k.val; omega
  | ⟨2, _⟩ => show ((c.val * 64 + k.val) * 256 + d.val) % 256 = d.val; omega

/-- A centre's squared length. -/
theorem m2_eq (c : Fin 20) (k : Fin 64) :
    val_main_v11 (F := Ideal) M (ix1 (col c k)) = m2 M c k := by
  rw [val_main_v11_apply, val_main_cst_0_apply, Ideal.ofBits_def, Ideal.ofBits_zero_f32, zero_add]
  unfold m2
  refine Finset.sum_congr rfl fun d _ => ?_
  have e : idx_main_v11 (ix1 (col c k)) d = ix2 (col c k) d := funext fun a => Fin.ext (by match a with | ⟨0, _⟩ => rfl | ⟨1, _⟩ => rfl)
  rw [e, val_main_v10_apply, m_eq]
  rfl

/-- The inner product of the datum with a centre. -/
theorem dot_eq (n : Fin 131072) (c : Fin 20) (k : Fin 64) :
    val_main_v17 (F := Ideal) D M med std (ix2 n (col c k)) = ∑ d : Fin 256, xR D med std n d * M (ix3 c k d) := by
  rw [val_main_v17_apply]
  refine Finset.sum_congr rfl fun d _ => ?_
  have el : lidx_main_v17 (ix2 n (col c k)) d = ix2 n d := funext fun a => Fin.ext (by match a with | ⟨0, _⟩ => rfl | ⟨1, _⟩ => rfl)
  have er : idx_main_v16 (ridx_main_v17 (ix2 n (col c k)) d) = ix2 (col c k) d := funext fun a => Fin.ext (by match a with | ⟨0, _⟩ => rfl | ⟨1, _⟩ => rfl)
  rw [el, x_eq, val_main_v16_apply, er, m_eq]

/-- Before the live-centre selection: the similarity from the squared distance. -/
theorem dist_eq (n : Fin 131072) (c : Fin 20) (k : Fin 64) :
    val_main_v26 (F := Ideal) D M med std (ix2 n (col c k))
      = KM.dist (((∑ d : Fin 256, xR D med std n d * xR D med std n d) + m2 M c k)
          - kTwo * (∑ d : Fin 256, xR D med std n d * M (ix3 c k d))) := by
  rw [val_main_v26_apply, val_main_v24_apply, val_main_v23_apply, val_main_v22_apply, val_main_v20_apply,
    val_main_v15_apply, val_main_v13_apply, val_main_v9_apply, val_main_v14_apply, val_main_v12_apply,
    val_main_v19_apply, val_main_v18_apply, val_main_cst_1_apply, val_main_v21_apply, val_main_cst_2_apply,
    val_main_v25_apply, val_main_cst_3_apply, dot_eq]
  have e9 : idx_main_v9 (idx_main_v13 (ix2 n (col c k))) = ix1 n := funext fun a => Fin.ext (by match a with | ⟨0, _⟩ => rfl)
  have e12 : idx_main_v12 (idx_main_v14 (ix2 n (col c k))) = ix1 (col c k) := funext fun a => Fin.ext (by match a with | ⟨0, _⟩ => rfl)
  rw [e9, e12, x2_eq, m2_eq]
  simp only [Ideal.ofBits_def, Ideal.ofBits_zero_f32, Ideal.mulf_def, Ideal.addf_def, Ideal.subf_def, Ideal.maximumf_def,
    Ideal.hostNegf_def, Ideal.negf_def, Ideal.hostUnary_sqrt_def]
  unfold KM.dist kTwo kScale
  rw [zero_sub]

/-- The live-centre mask, as a word. -/
theorem live_eq (n : Fin 131072) (c : Fin 20) (k : Fin 64) :
    val_main_call0_v1 (F := Ideal) RA RB (ix2 n (col c k)) = BitVec.ofBool (decide (live RA RB c k)) := by
  rw [val_main_call0_v1_apply, val_main_v35_apply, val_main_v34_apply, val_main_v33_apply, val_main_v32_apply,
    val_main_v31_apply, val_main_v30_apply, val_main_v28_apply, val_main_v27_apply, val_main_cst_4_apply,
    val_main_v29_apply, val_main_cst_5_apply]
  have hc := c.isLt; have hk := k.isLt
  have e34 : idx_main_v34 (idx_main_v35 (idx_main_call0_v1 (ix2 n (col c k)))) = ix2 c k := funext fun a => Fin.ext (by
    match a with
    | ⟨0, _⟩ => show (c.val * 64 + k.val) / 64 = c.val; omega
    | ⟨1, _⟩ => show (c.val * 64 + k.val) % 64 = k.val; omega)
  rw [e34]
  have e31 : idx_main_v31 (idx_main_v32 (ix2 c k)) = ix1 c := funext fun a => Fin.ext (by match a with | ⟨0, _⟩ => rfl)
  rw [e31]
  rfl

/-- The similarity of sample n to centre (c, k), in the flattened [sample × 1280] array. -/
theorem sim_flat_eq (n : Fin 131072) (c : Fin 20) (k : Fin 64) :
    val_main_v36 (F := Ideal) D M med std RA RB (ix2 n (col c k)) = simR D M med std RA RB n c k := by
  rw [val_main_v36_apply, live_eq, dist_eq, val_main_call0_v2_apply, val_main_call0_v0_apply, val_main_cst_6_apply]
  unfold simR
  by_cases h : live RA RB c k
  · rw [if_pos h, decide_eq_true h]
    exact select_one _ _
  · rw [if_neg h, decide_eq_false h]
    exact select_zero _ _

/-- The same, in the [sample × class × cluster] array. -/
theorem sim_eq (n : Fin 131072) (c : Fin 20) (k : Fin 64) :
    val_main_v37 (F := Ideal) D M med std RA RB (ix3 n c k) = simR D M med std RA RB n c k := by
  rw [val_main_v37_apply]
  have hn := n.isLt; have hc := c.isLt; have hk := k.isLt
  have e : idx_main_v37 (ix3 n c k) = ix2 n (col c k) := funext fun a => Fin.ext (by
    match a with
    | ⟨0, _⟩ => show ((n.val * 20 + c.val) * 64 + k.val) / 1280 = n.val; omega
    | ⟨1, _⟩ => show ((n.val * 20 + c.val) * 64 + k.val) % 1280 = c.val * 64 + k.val; omega)
  rw [e, sim_flat_eq]

/-! ## The label word -/

/-- A word that reads (signed) as a class number is that number's word. -/
theorem toNat_of_toInt (w : BitVec 32) (c : Fin 20) (h : w.toInt = (c.val : ℤ)) : w.toNat = c.val := by
  have hc := c.isLt
  have hw := w.isLt
  rw [BitVec.toInt_eq_toNat_cond] at h
  split at h <;> omega

/-- The index wrap-around  (w < 0 ? w + 20 : w)  leaves a class number alone. -/
theorem wrap_eq (w : BitVec 32) (hw : w.toNat < 20) :
    Scalar.select (IntOp.cmpi .slt w 0#32) (IntOp.addi w 20#32) w = w := by
  have h0 : IntOp.cmpi .slt w 0#32 = 0#1 := eq_zero_of_ne_one (fun h => by
    have := (StableHlo.Predicate.slt_iff_toNat (a := w) (b := 0#32) (by omega) (by decide)).mp h
    simp at this)
  rw [h0]; exact select_zero _ _

/-- A class number is inside [0, 19]. -/
theorem inb_eq (w : BitVec 32) (hw : w.toNat < 20) :
    IntOp.andi (IntOp.cmpi .sge w 0#32) (IntOp.cmpi .sle w 19#32) = 1#1 := by
  have h1 : IntOp.cmpi .sge w 0#32 = 1#1 :=
    (StableHlo.Predicate.sge_iff_toNat (a := w) (b := 0#32) (by omega) (by decide)).mpr (by simp)
  have h2 : IntOp.cmpi .sle w 19#32 = 1#1 :=
    (StableHlo.Predicate.sle_iff_toNat (a := w) (b := 19#32) (by omega) (by decide)).mpr (by simp; omega)
  rw [h1, h2]; rfl

/-- The wrapped label that the similarities' gather reads, at sample n. -/
theorem lab1_eq (n : Fin 131072) (c : Fin 20) (hc : (L (ix1 n)).toInt = (c.val : ℤ)) :
    val_main_call1_v4 (F := Ideal) L (ix3 n 0 0) = L (ix1 n) := by
  rw [val_main_call1_v4_apply, val_main_call1_v1_apply, val_main_call1_v3_apply, val_main_v38_apply,
    val_main_call1_v0_apply, val_main_call1_c_apply, val_main_call1_v2_apply, val_main_call1_c_0_apply]
  have e : idx_main_v38 (ix3 n (0 : Fin 1) (0 : Fin 1)) = ix1 n := funext fun a => Fin.ext (by match a with | ⟨0, _⟩ => rfl)
  rw [e]
  exact wrap_eq _ (by rw [toNat_of_toInt _ c hc]; exact c.isLt)

/-- The in-bounds mask of the similarities' gather, at sample n. -/
theorem mask1_eq (n : Fin 131072) (c : Fin 20) (hc : (L (ix1 n)).toInt = (c.val : ℤ)) :
    val_main_call1_v10 (F := Ideal) L (ix3 n 0 0) = 1#1 := by
  rw [val_main_call1_v10_apply, val_main_call1_v6_apply, val_main_call1_v9_apply, lab1_eq L n c hc,
    val_main_call1_v5_apply, val_main_call1_c_2_apply, val_main_call1_v8_apply, val_main_call1_v7_apply,
    val_main_call1_c_1_apply]
  exact inb_eq _ (by rw [toNat_of_toInt _ c hc]; exact c.isLt)

/-- A fold over an axis of size one is one application. -/
theorem fold_one {α : Type} (op : α → α → α) [Std.Commutative op] [Std.Associative op] {m : ℕ} (hm : m = 1) (b : α)
    (f : Fin m → α) : (Finset.univ : Finset (Fin m)).fold op b f = op (f ⟨0, by omega⟩) b := by
  subst hm
  rw [Finset.univ_unique, Finset.fold_singleton]
  rfl

/-- The mask folded over its last (size one) axis. -/
theorem maskred_eq (n : Fin 131072) (c : Fin 20) (hc : (L (ix1 n)).toInt = (c.val : ℤ)) :
    val_main_call1_v11 (F := Ideal) L (ix2 n 0) = 1#1 := by
  unfold val_main_call1_v11
  have hR : S131072x1x1.Reduces [2] S131072x1 := by decide
  rw [Host.reduce_eq_fold_single IntOp.andi _ _ reducesTo_S131072x1x1_S131072x1_d2 hR h_S_]
  refine (fold_one IntOp.andi rfl _ _).trans ?_
  have e : hR.lift (ix2 n (0 : Fin 1)) ⟨0, by decide⟩ = ix3 n (0 : Fin 1) (0 : Fin 1) :=
    funext fun a => Fin.ext (by match a with | ⟨0, _⟩ => rfl | ⟨1, _⟩ => rfl | ⟨2, _⟩ => rfl)
  show IntOp.andi (val_main_call1_v10 (F := Ideal) L (hR.lift (ix2 n (0 : Fin 1)) ⟨0, _⟩)) _ = _
  rw [e, mask1_eq L n c hc, val_main_call1_c_3_apply]
  rfl

/-! ## A gather with a batching axis -/

/-- From a [B × N × D] array, at a [B × 1 × 1] column of row numbers, batched over the first axis: entry (p, 0, f) of
    the result is the array's entry (p, row p's number read signed and clamped into [0, N − 1], f). -/
theorem gather_batch {α : Type} {B N D w : ℕ}
    (d : GatherDims ⟨3, ![B, N, D]⟩ ⟨3, ![B, 1, 1]⟩ ⟨3, ![B, 1, D]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (hss : d.sliceSizes = ![1, 1, D])
    (x : (⟨3, ![B, N, D]⟩ : Shape).Idx → α) (idx : IVec ⟨3, ![B, 1, 1]⟩ w) (p : Fin B) (f : Fin D) (hN : 0 < N) :
    Host.gather d x idx (ix3 p (0 : Fin 1) f)
      = x (ix3 p (⟨min (idx (ix3 p (0 : Fin 1) (0 : Fin 1))).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ _ idx 1 + GatherDims.batchCoord _ _ 1 + GatherDims.offCoord _ _ 1 = _
    rw [GatherDims.batchCoord_eq_zero _ _ _ (show (1 : Fin 3) ∉ [0] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨3, ![B, N, D]⟩) (si := ⟨3, ![B, 1, 1]⟩) (t := ⟨3, ![B, 1, D]⟩) [2] [1] [0] [0] [1] 2 ![1, 1, D] wf).siIdx (ix3 p (0 : Fin 1) f) c = ix3 p (0 : Fin 1) (0 : Fin 1) := by
      intro c
      funext b; refine Fin.ext ?_
      match b with
      | ⟨0, _⟩ => rfl
      | ⟨1, _⟩ => rfl
      | ⟨2, _⟩ => exact Nat.lt_one_iff.mp c.isLt
    rw [hsi]
    rfl
  | ⟨2, _⟩ =>
    show GatherDims.start _ _ idx 2 + GatherDims.batchCoord _ _ 2 + GatherDims.offCoord _ _ 2 = _
    rw [GatherDims.batchCoord_eq_zero _ _ _ (show (2 : Fin 3) ∉ [0] by decide)]
    unfold GatherDims.start
    rw [dif_neg (show (2 : Fin 3) ∉ [1] by decide)]
    simp only [Nat.zero_add]
    rfl

/-- The gathered similarities of the sample's own class. -/
theorem simG_eq (n : Fin 131072) (c : Fin 20) (k : Fin 64) (hc : (L (ix1 n)).toInt = (c.val : ℤ)) :
    val_main_v40 (F := Ideal) D L M med std RA RB (ix2 n k) = simR D M med std RA RB n c k := by
  have hn := n.isLt; have hk := k.isLt; have hcl := c.isLt
  rw [val_main_v40_apply]
  have e40 : idx_main_v40 (ix2 n k) = ix3 n (0 : Fin 1) k := funext fun a => Fin.ext (by
    match a with
    | ⟨0, _⟩ => show (n.val * 64 + k.val) / 64 = n.val; omega
    | ⟨1, _⟩ => rfl
    | ⟨2, _⟩ => show (n.val * 64 + k.val) % 64 = k.val; omega)
  rw [e40, val_main_v39_apply, val_main_call1_v13_apply]
  have e13 : idx_main_call1_v13 (ix3 n (0 : Fin 1) k) = ix2 n (0 : Fin 1) :=
    funext fun a => Fin.ext (by match a with | ⟨0, _⟩ => rfl | ⟨1, _⟩ => rfl)
  rw [e13, maskred_eq L n c hc, select_one]
  unfold val_main_call1_v12
  rw [gather_batch gather_S131072x20x64_S131072x1x1_S131072x1x64_2_1_0_0_1_2_1164 rfl rfl rfl rfl rfl rfl rfl _ _ n k (by decide)]
  have ec : (⟨min (val_main_call1_v4 (F := Ideal) L (ix3 n (0 : Fin 1) (0 : Fin 1))).toInt.toNat (20 - 1), by omega⟩ : Fin 20) = c :=
    Fin.ext (by
      show min (val_main_call1_v4 (F := Ideal) L (ix3 n (0 : Fin 1) (0 : Fin 1))).toInt.toNat (20 - 1) = c.val
      rw [lab1_eq L n c hc, hc]; simp; omega)
  rw [ec, sim_eq]

/-! ## The temperatures -/

/-- The temperature stage at (c, k) is τ[c,k]. -/
theorem tau_eq (c : Fin 20) (k : Fin 64) :
    val_main_v52 (F := Ideal) T (ix2 c k) = Cert.KM.tau T c k := by
  rw [val_main_v52_apply, val_main_v50_apply, val_main_v48_apply, val_main_v46_apply, val_main_v44_apply,
    val_main_v43_apply, val_main_v42_apply, val_main_v41_apply, val_main_cst_7_apply,
    val_main_v45_apply, val_main_cst_8_apply, val_main_v47_apply, val_main_cst_9_apply,
    val_main_v49_apply, val_main_cst_10_apply, val_main_v51_apply, val_main_cst_11_apply]
  rfl

/-- The gathered temperatures of a sample labelled class c are class c's. -/
theorem tauG_eq (n : Fin 131072) (c : Fin 20) (k : Fin 64) (hc : (L (ix1 n)).toInt = (c.val : ℤ)) :
    val_main_v59 (F := Ideal) L T (ix2 n k) = Cert.KM.tau T c k := by
  have hnat := toNat_of_toInt _ c hc
  have hcl := c.isLt
  have hcol : val_main_v58 (F := Ideal) L (StableHlo.Predicate.ixP n) = L (ix1 n) := by
    rw [val_main_v58_apply]
    have hi : idx_main_v58 (StableHlo.Predicate.ixP n) = ix1 n := by
      funext a; match a with | ⟨0, _⟩ => rfl
    rw [hi, val_main_v57_apply, val_main_v54_apply, val_main_v56_apply, val_main_v53_apply, val_main_c_apply,
      val_main_v55_apply, val_main_c_12_apply]
    exact wrap_eq _ (by omega)
  unfold val_main_v59
  rw [← tau_eq T c k]
  generalize val_main_v52 (F := Ideal) T = tbl
  generalize val_main_v58 (F := Ideal) L = idx at hcol
  rw [Cert.LibSG.gather_rows gather_S20x64_S131072x1_S131072x64_1_0_n_n_0_1_164 rfl rfl rfl rfl rfl rfl rfl tbl idx n k
    (by decide)]
  refine congrArg (fun r : Fin 20 => tbl (ix2 r k)) (Fin.ext ?_)
  show min (idx (StableHlo.Predicate.ixP n)).toInt.toNat (20 - 1) = c.val
  rw [hcol, hc, Int.toNat_natCast]
  omega

/-! ## The softmax of a row -/
section Soft
variable (n : Fin 131072) (s : Fin 64 → EReal)
  (h40 : ∀ k : Fin 64, val_main_v40 (F := Ideal) D L M med std RA RB (ix2 n k) = s k)
include h40

/-- Half the gathered similarity. -/
theorem half_of (k : Fin 64) : val_main_v61 (F := Ideal) D L M med std RA RB (ix2 n k) = kHalf * s k := by
  rw [val_main_v61_apply, val_main_v60_apply, val_main_cst_13_apply, h40]
  rfl

/-- The row's maximum. -/
theorem rowmax_of : val_main_v64 (F := Ideal) D L M med std RA RB (ix1 n) = rowMax s := by
  rw [val_main_v64_apply, val_main_v63_apply, val_main_cst_15_apply]
  unfold val_main_v62
  have hR : S131072x64.Reduces [1] S131072 := by decide
  rw [Host.reduce_eq_fold_single FloatOps.maximumf _ _ reducesTo_S131072x64_S131072_d1 hR h_S_, val_main_cst_14_apply]
  have hbot : Ideal.ofBits .f32 0xFF800000#32 = (⊥ : EReal) := by simp [Ideal.ofBits, Ideal.ieee]
  have hf : (val_main_v61 (F := Ideal) D L M med std RA RB ∘ hR.lift (ix1 n)) = fun k : Fin 64 => kHalf * s k :=
    funext fun (k : Fin 64) => by
      have e : hR.lift (ix1 n) k = ix2 n k :=
        funext fun a => Fin.ext (by match a with | ⟨0, _⟩ => rfl | ⟨1, _⟩ => rfl)
      exact (congrArg (val_main_v61 (F := Ideal) D L M med std RA RB) e).trans (half_of D L M med std RA RB n s h40 k)
  rw [hf, Ideal.ofBits_def, hbot]
  exact max_bot_left _

/-- The shifted half-similarity. -/
theorem sub_of (k : Fin 64) :
    val_main_v67 (F := Ideal) D L M med std RA RB (ix2 n k) = kHalf * s k - rowMax s := by
  rw [val_main_v67_apply, half_of D L M med std RA RB n s h40, val_main_v66_apply, val_main_v65_apply]
  have e : idx_main_v65 (idx_main_v66 (ix2 n k)) = ix1 n := funext fun a => Fin.ext (by match a with | ⟨0, _⟩ => rfl)
  rw [e, rowmax_of D L M med std RA RB n s h40]
  rfl

/-- Its exponential. -/
theorem exp_of (k : Fin 64) :
    val_main_v68 (F := Ideal) D L M med std RA RB (ix2 n k) = Ideal.exp (kHalf * s k - rowMax s) := by
  rw [val_main_v68_apply, sub_of D L M med std RA RB n s h40]
  rfl

/-- The sum of the exponentials over the row. -/
theorem expsum_of :
    val_main_v69 (F := Ideal) D L M med std RA RB (ix1 n) = ∑ k' : Fin 64, Ideal.exp (kHalf * s k' - rowMax s) := by
  rw [val_main_v69_apply, val_main_cst_16_apply, Ideal.ofBits_def, Ideal.ofBits_zero_f32, zero_add]
  refine Finset.sum_congr rfl fun k _ => ?_
  have e : idx_main_v69 (ix1 n) k = ix2 n k := funext fun a => Fin.ext (by match a with | ⟨0, _⟩ => rfl | ⟨1, _⟩ => rfl)
  rw [e, exp_of D L M med std RA RB n s h40]

/-- The softmax weight. -/
theorem soft_of (k : Fin 64) :
    val_main_v72 (F := Ideal) D L M med std RA RB (ix2 n k) = softW s k := by
  rw [val_main_v72_apply, exp_of D L M med std RA RB n s h40, val_main_v71_apply, val_main_v70_apply]
  have e : idx_main_v70 (idx_main_v71 (ix2 n k)) = ix1 n := funext fun a => Fin.ext (by match a with | ⟨0, _⟩ => rfl)
  rw [e, expsum_of D L M med std RA RB n s h40]
  rfl

end Soft

/-! ## The weighted sum -/

/-- The last stages: from a row of similarities s, a row of temperatures t and the row's softmax weights, the
    per-sample loss is −∑ₖ (s[k] / t[k] − log t[k]) · softmax[k]. -/
theorem final_of (n : Fin 131072) (s t : Fin 64 → EReal)
    (h40 : ∀ k : Fin 64, val_main_v40 (F := Ideal) D L M med std RA RB (ix2 n k) = s k)
    (h59 : ∀ k : Fin 64, val_main_v59 (F := Ideal) L T (ix2 n k) = t k)
    (h72 : ∀ k : Fin 64, val_main_v72 (F := Ideal) D L M med std RA RB (ix2 n k) = Cert.KM.softW s k) :
    val_main_v78 (F := Ideal) D L M T med std RA RB (ix1 n)
      = -(∑ k : Fin 64, (Ideal.div (s k) (t k) - Ideal.log (t k)) * Cert.KM.softW s k) := by
  rw [val_main_v78_apply, val_main_v77_apply, val_main_cst_17_apply, Ideal.ofBits_def, Ideal.ofBits_zero_f32, zero_add]
  show -(∑ k : Fin 64, val_main_v76 (F := Ideal) D L M T med std RA RB (idx_main_v77 (ix1 n) k)) = _
  refine congrArg (fun x : EReal => -x) (Finset.sum_congr rfl fun k _ => ?_)
  have hi : idx_main_v77 (ix1 n) k = ix2 n k := by
    funext a; match a with | ⟨0, _⟩ => rfl | ⟨1, _⟩ => rfl
  rw [hi, val_main_v76_apply, val_main_v75_apply, val_main_v73_apply, val_main_v74_apply, h40, h59, h72]
  rfl

end Stages

/-- The per-sample loss stage (the negated row sum), at a sample labelled class c. -/
theorem row_eq (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (n : Fin 131072) (c : Fin 20) (hc : (L (ix1 n)).toInt = (c.val : ℤ)) :
    val_main_v78 (F := Ideal) D L M T med std RA RB (ix1 n) = Cert.KM.psR D M T med std RA RB n c := by
  unfold Cert.KM.psR
  exact final_of D L M T med std RA RB n (Cert.KM.simR D M med std RA RB n c) (Cert.KM.tau T c)
    (fun k => simG_eq D L M med std RA RB n c k hc) (fun k => tauG_eq L T n c k hc)
    (fun k => soft_of D L M med std RA RB n _ (fun k' => simG_eq D L M med std RA RB n c k' hc) k)

end Cert.ReferenceIdeal.RefRow

end
-- ==== Proof.RefValue.lean ====
/-
  The reference's result: the two scatters collect, per class, the losses and the count of the samples labelled with
  it; the class means are summed over the classes that have a sample.
-/
import proofs.«423493_j45861660787183_3_alg».proof.Proof.RefRead
import proofs.«423493_j45861660787183_3_alg».proof.Proof.LibScatterGather
import proofs.«423493_j45861660787183_3_alg».proof.Proof.Spec
import proofs.«423493_j45861660787183_3_alg».proof.Proof.RefRow
import Idealize.ShloMosaic.PureOps.Ideal.Laws
import Idealize.ShloMosaic.Lib.Pipeline.Value
import Idealize.ShloMosaic.Lib.ValueIdx

set_option maxRecDepth 16384

noncomputable section

open scoped BigOperators

namespace Cert.ReferenceIdeal.RefValue

open Idealize.ShloMosaic Idealize.ShloMosaic.TcCoe Idealize.ShloMosaic.ValueIdx
open Idealize.SL.Sem
open Idealize.ShloMosaic.StableHlo.Predicate (ixP)
open Cert.ReferenceIdeal Cert.ReferenceIdeal.Gen Cert.ReferenceIdeal.Value Cert.ReferenceIdeal.Read

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {n : ℕ} (f : (⟨1, ![n]⟩ : Shape).Idx → EReal) : ∑ i, f i = ∑ a : Fin n, f (ix1 a) :=
  (Equiv.sum_comp (idxEquiv1 (n := n)).symm f).symm

/-- The label column read at row e is the label of sample e, so the updates landing on class c are its members. -/
private theorem filter_members (L : IVec ⟨1, ![131072]⟩ 32) (c : Fin 20) :
    Finset.univ.filter (fun e : Fin 131072 => ((val_main_v80 (F := Ideal) L) (ixP e)).toInt = (c.val : ℤ))
      = Cert.KM.members L c := by
  unfold Cert.KM.members
  refine Finset.filter_congr fun e _ => ?_
  rw [val_main_v80_apply]
  have : idx_main_v80 (ixP e) = ix1 e := by
    funext a; match a with | ⟨0, _⟩ => rfl
  rw [this]

/-- The per-class loss sums: the scatter's entry c is the sum of the losses of the samples labelled c. -/
private theorem loss_scatter (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (c : Fin 20) :
    val_main_v81 (F := Ideal) D L M T med std RA RB (ix1 c)
      = ∑ n ∈ Cert.KM.members L c, Cert.KM.psR D M T med std RA RB n c := by
  have hrow : ∀ n : Fin 131072, n ∈ Cert.KM.members L c →
      val_main_v78 (F := Ideal) D L M T med std RA RB (ix1 n) = Cert.KM.psR D M T med std RA RB n c := by
    intro n hn
    exact Cert.ReferenceIdeal.RefRow.row_eq D L M T med std RA RB n c (Finset.mem_filter.1 hn).2
  unfold val_main_v81
  generalize val_main_v78 (F := Ideal) D L M T med std RA RB = upd at hrow ⊢
  rw [Cert.LibSG.scatterAdd_flat scatter_S20_S131072x1_S131072_n_0_0_1 rfl rfl rfl rfl]
  rw [val_main_v79_apply, val_main_cst_18_apply, Ideal.ofBits_def, Ideal.ofBits_zero_f32, zero_add, filter_members]
  exact Finset.sum_congr rfl hrow

/-- The label column of the count scatter is the same column. -/
private theorem filter_members' (L : IVec ⟨1, ![131072]⟩ 32) (c : Fin 20) :
    Finset.univ.filter (fun e : Fin 131072 => ((val_main_v84 (F := Ideal) L) (ixP e)).toInt = (c.val : ℤ))
      = Cert.KM.members L c := by
  unfold Cert.KM.members
  refine Finset.filter_congr fun e _ => ?_
  rw [val_main_v84_apply]
  have : idx_main_v84 (ixP e) = ix1 e := by
    funext a; match a with | ⟨0, _⟩ => rfl
  rw [this]

/-- The per-class counts: the scatter's entry c is a one for every sample labelled c. -/
private theorem count_scatter (L : IVec ⟨1, ![131072]⟩ 32) (c : Fin 20) :
    val_main_v85 (F := Ideal) L (ix1 c) = ∑ _n ∈ Cert.KM.members L c, Cert.KM.kOne := by
  unfold val_main_v85
  rw [Cert.LibSG.scatterAdd_flat scatter_S20_S131072x1_S131072_n_0_0_1 rfl rfl rfl rfl]
  rw [val_main_v83_apply, val_main_cst_20_apply, Ideal.ofBits_def, Ideal.ofBits_zero_f32, zero_add, filter_members']
  refine Finset.sum_congr rfl fun n _ => ?_
  rw [val_main_v82_apply, val_main_cst_19_apply, Ideal.ofBits_def]
  rfl

/-- The whole reference at arbitrary arguments. -/
private theorem val_eq (D : FVec Ideal ⟨2, ![131072, 256]⟩ .f32) (L : IVec ⟨1, ![131072]⟩ 32)
    (M : FVec Ideal ⟨3, ![20, 64, 256]⟩ .f32) (T : FVec Ideal ⟨2, ![20, 64]⟩ .f32)
    (med std : FVec Ideal ⟨1, ![256]⟩ .f32) (RA : FVec Ideal ⟨2, ![20, 64]⟩ .f32) (RB : FVec Ideal ⟨1, ![20]⟩ .f32)
    (i : S_.Idx) :
    val_main_v92 (F := Ideal) D L M T med std RA RB i = Cert.KM.rLoss D L M T med std RA RB := by
  rw [val_main_v92_apply, val_main_cst_24_apply, Ideal.ofBits_def, Ideal.ofBits_zero_f32, zero_add, sum_idx1]
  unfold Cert.KM.rLoss
  refine Finset.sum_congr rfl fun c _ => ?_
  rw [val_main_v91_apply, val_main_v87_apply, val_main_v90_apply, val_main_v89_apply, loss_scatter, count_scatter,
    val_main_v86_apply, val_main_cst_21_apply, val_main_v88_apply, val_main_cst_22_apply,
    val_main_call2_v1_apply, val_main_call2_v0_apply, val_main_cst_23_apply]
  generalize (∑ _n ∈ Cert.KM.members L c, Cert.KM.kOne) = cnt
  generalize (∑ n ∈ Cert.KM.members L c, Cert.KM.psR D M T med std RA RB n c) = tot
  rw [Ideal.cmpf_def, Ideal.hostDivf_def, Ideal.maximumf_def, Ideal.ofBits_def, Ideal.ofBits_def, Ideal.ofBits_zero_f32]
  show Scalar.select (Ideal.cmp .ogt cnt 0) (Ideal.div tot (max cnt Cert.KM.kOne)) 0 = _
  by_cases h : 0 < cnt
  · have hb : Ideal.cmp .ogt cnt 0 = 1#1 := by
      show BitVec.ofBool (decide (0 < cnt)) = 1#1
      rw [decide_eq_true h]; rfl
    rw [if_pos h, hb, select_one]
  · have hb : Ideal.cmp .ogt cnt 0 = 0#1 := by
      show BitVec.ofBool (decide (0 < cnt)) = 0#1
      rw [decide_eq_false h]; rfl
    rw [if_neg h, hb, select_zero]

/-- The run's result term is the loss, in the reference's form, of the arguments. -/
theorem res_eq (m : (ℓ : Loc nD τ sig) → Buf (Elt Ideal) ℓ) (c : Dev nD) :
    Cert.ReferenceIdeal.Value.res_main_v92 (F := Ideal) m c = fun _ => Cert.KM.rLoss (Cert.ReferenceIdeal.RefRow.aD m c) (Cert.ReferenceIdeal.RefRow.aL m c) (Cert.ReferenceIdeal.RefRow.aM m c) (Cert.ReferenceIdeal.RefRow.aT m c) (Cert.ReferenceIdeal.RefRow.aMed m c) (Cert.ReferenceIdeal.RefRow.aStd m c) (Cert.ReferenceIdeal.RefRow.aRA m c) (Cert.ReferenceIdeal.RefRow.aRB m c) := by
  rw [val_main_v92_eq]
  funext i
  exact val_eq _ _ _ _ _ _ _ _ i

end Cert.ReferenceIdeal.RefValue

end
-- ==== Proof.lean ====
/-
  The certificate of the k-means clustering loss: a Pallas kernel that streams the data in 64 blocks of 2048 samples,
  selects each sample's class by 0/1 weights and leaves per-block, per-lane loss sums and counts that the host then
  reduces, against a jnp reference that gathers each sample's class by index and scatters the losses by label.

  At the exact instance both compute, for every class that has a sample, the mean over the class's samples of
  −∑ₖ (s[k] / τ[k] − log τ[k]) · softmax(s / 2)[k], and sum those means (Proof/Spec.lean).  The two programs are one
  function of the arguments wherever no scale std[d] is zero: the kernel multiplies by a stored reciprocal 1 / std[d]
  where the reference divides by std[d], and on the extended reals x / y = x · (1 / y) exactly when y ≠ 0; the same law,
  with τ > 0, joins the kernel's s · (1 / τ) to the reference's s / τ.  The selection by weights is exact on the extended
  reals (0 · x = 0 for every x, infinite ones included), a sample whose label names no class is dropped by the
  reference's scatter and contributes a loss of exactly 0 to a lane past the twentieth in the kernel, and every
  regrouping of the sums is a regrouping in a commutative monoid.
-/
import proofs.«423493_j45861660787183_3_alg».proof.Defs
import proofs.«423493_j45861660787183_3_alg».proof.Proof.Gen.Kernel
import proofs.«423493_j45861660787183_3_alg».proof.Proof.Gen.Kernel.Frame
import proofs.«423493_j45861660787183_3_alg».proof.Proof.Gen.KernelIdeal
import proofs.«423493_j45861660787183_3_alg».proof.Proof.Gen.KernelIdeal.Frame
import proofs.«423493_j45861660787183_3_alg».proof.Proof.Gen.ReferenceIdeal
import proofs.«423493_j45861660787183_3_alg».proof.Proof.Gen.Pre_finite_inputs
import proofs.«423493_j45861660787183_3_alg».proof.Proof.RefRun
import proofs.«423493_j45861660787183_3_alg».proof.Proof.Spec
import proofs.«423493_j45861660787183_3_alg».proof.Proof.Algebra
import proofs.«423493_j45861660787183_3_alg».proof.Proof.PreDecode
import proofs.«423493_j45861660787183_3_alg».proof.Proof.KValue
import proofs.«423493_j45861660787183_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of the arguments, one in the kernel's form and one in the reference's; the forms agree
    because the precondition keeps every scale off zero. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨h0, h1, h2, h3, h4, h5, h6, h7⟩ := hagree c
  have hstd : ∀ d : Fin 256, Cert.KernelIdeal.HostPre.aStd m c (ValueIdx.ix1 d) ≠ 0 :=
    fun d => Cert.KM.std_ne_zero_of_fn _ _ _ _ _ _ _ _ (hpre c) d
  funext _
  rw [Cert.KM.kLoss_eq_rLoss _ _ _ _ _ _ _ _ hstd]
  simp only [Cert.ReferenceIdeal.RefRow.aD, Cert.ReferenceIdeal.RefRow.aL, Cert.ReferenceIdeal.RefRow.aM, Cert.ReferenceIdeal.RefRow.aT, Cert.ReferenceIdeal.RefRow.aMed, Cert.ReferenceIdeal.RefRow.aStd, Cert.ReferenceIdeal.RefRow.aRA, Cert.ReferenceIdeal.RefRow.aRB,
    Cert.KernelIdeal.HostPre.aD, Cert.KernelIdeal.HostPre.aL, Cert.KernelIdeal.HostPre.aM, Cert.KernelIdeal.HostPre.aT, Cert.KernelIdeal.HostPre.aMed, Cert.KernelIdeal.HostPre.aStd, Cert.KernelIdeal.HostPre.aRA, Cert.KernelIdeal.HostPre.aRB, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
